-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x2048 : Shape := ⟨2, ![4096, 2048]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x256 .f32) (main_arg1 : FVec F S4096x2048 .f32) (main_arg2 : FVec F S4096x2048 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x256 : Shape := ⟨2, ![4096, 256]⟩
abbrev S4096x2048 : Shape := ⟨2, ![4096, 2048]⟩
abbrev S6 : Shape := ⟨1, ![6]⟩
abbrev S_ : Shape := ⟨0, ![]⟩
abbrev S4096x1 : Shape := ⟨2, ![4096, 1]⟩
abbrev S512x256 : Shape := ⟨2, ![512, 256]⟩
abbrev S512x1 : Shape := ⟨2, ![512, 1]⟩
abbrev S512x512 : Shape := ⟨2, ![512, 512]⟩
abbrev S512 : Shape := ⟨1, ![512]⟩
abbrev S4096 : Shape := ⟨1, ![4096]⟩
abbrev S1024x4x256 : Shape := ⟨3, ![1024, 4, 256]⟩
abbrev S6x1 : Shape := ⟨2, ![6, 1]⟩
abbrev S1024x6x256 : Shape := ⟨3, ![1024, 6, 256]⟩

abbrev nBuf : Space → Nat
  | .hbm => 47
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .f32⟩
  | .hbm, ⟨3, _⟩ => ⟨S6, .i32⟩
  | .hbm, ⟨4, _⟩ => ⟨S6, .i1⟩
  | .hbm, ⟨5, _⟩ => ⟨S6, .i32⟩
  | .hbm, ⟨6, _⟩ => ⟨S6, .i1⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x256, .bf16⟩
  | .hbm, ⟨14, _⟩ => ⟨S4096x1, .f32⟩
  | .hbm, ⟨15, _⟩ => ⟨S4096x1, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1024x4x256, .f32⟩
  | .hbm, ⟨27, _⟩ => ⟨S_, .i32⟩
  | .hbm, ⟨28, _⟩ => ⟨S6, .i32⟩
  | .hbm, ⟨29, _⟩ => ⟨S6, .i32⟩
  | .hbm, ⟨30, _⟩ => ⟨S6, .i32⟩
  | .hbm, ⟨31, _⟩ => ⟨S6x1, .i32⟩
  | .hbm, ⟨32, _⟩ => ⟨S1024x6x256, .f32⟩
  | .hbm, ⟨33, _⟩ => ⟨S_, .i32⟩
  | .hbm, ⟨34, _⟩ => ⟨S6, .i32⟩
  | .hbm, ⟨35, _⟩ => ⟨S6, .i32⟩
  | .hbm, ⟨36, _⟩ => ⟨S6, .i32⟩
  | .hbm, ⟨37, _⟩ => ⟨S6x1, .i32⟩
  | .hbm, ⟨38, _⟩ => ⟨S1024x6x256, .f32⟩
  | .hbm, ⟨39, _⟩ => ⟨S1024x6x256, .f32⟩
  | .hbm, ⟨40, _⟩ => ⟨S1024x6x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_3 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S4096x2048_S_d0_1 : S4096x2048.ReducesTo [0, 1] S_
  h_S_ : 0 < S_.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  shapeCasts_S512x1_S512x1 : S512x1.ShapeCasts S512x1
  shapeCasts_S4096x1_S4096 : S4096x1.ShapeCasts S4096
  reducesTo_S4096_S_d0 : S4096.ReducesTo [0] S_
  shapeCasts_S4096x256_S1024x4x256 : S4096x256.ShapeCasts S1024x4x256
  bcast_S_S6 : S_.BroadcastsInDim S6 (![] : Fin 0 → Fin S6.rank)
  bcast_S6_S6x1_0 : S6.BroadcastsInDim S6x1 (![0] : Fin 1 → Fin S6x1.rank)
  reducesTo_S1024x6x256_S_d0_1_2 : S1024x6x256.ReducesTo [0, 1, 2] S_
  dot_S512x256_S512x256_S512x512_1_1_0_0_n_n_wf : DotDims.WF S512x256 S512x256 S512x512 [1] [1] [0] [0] [] []
  gather_S1024x4x256_S6x1_S1024x6x256_02_1_n_n_1_1_10241256_wf : GatherDims.WF S1024x4x256 S6x1 S1024x6x256 [0, 2] [1] [] [1] [] 1 ![1024, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def gather_S1024x4x256_S6x1_S1024x6x256_02_1_n_n_1_1_10241256 : GatherDims S1024x4x256 S6x1 S1024x6x256 where
  offsetDims := [0, 2]
  collapsedSliceDims := [1]
  operandBatchingDims := []
  startIndicesBatchingDims := []
  startIndexMap := [1]
  indexVectorDim := 1
  sliceSizes := ![1024, 1, 256]
  wf := gather_S1024x4x256_S6x1_S1024x6x256_02_1_n_n_1_1_10241256_wf

abbrev win0_0 : Pipeline.Window sig grid0 :=
  Pipeline.Window.ofSpec (Memref.whole main_v4) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x2048 : Shape := ⟨2, ![4096, 2048]⟩
abbrev S6 : Shape := ⟨1, ![6]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S1024x4x256 : Shape := ⟨3, ![1024, 4, 256]⟩
abbrev S6x1 : Shape := ⟨2, ![6, 1]⟩
abbrev S1024x6x256 : Shape := ⟨3, ![1024, 6, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x2048, .f32⟩
  | .hbm, ⟨3, _⟩ => ⟨S6, .i32⟩
  | .hbm, ⟨4, _⟩ => ⟨S6, .i1⟩
  | .hbm, ⟨5, _⟩ => ⟨S6, .i32⟩
  | .hbm, ⟨6, _⟩ => ⟨S6, .i1⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096, .i32⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1x4096, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .i1⟩
  | .hbm, ⟨45, _⟩ => ⟨S4096x4096, .i1⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1024x4x256, .f32⟩
  | .hbm, ⟨67, _⟩ => ⟨S_, .i32⟩
  | .hbm, ⟨68, _⟩ => ⟨S6, .i32⟩
  | .hbm, ⟨69, _⟩ => ⟨S6, .i32⟩
  | .hbm, ⟨70, _⟩ => ⟨S6, .i32⟩
  | .hbm, ⟨71, _⟩ => ⟨S6x1, .i32⟩
  | .hbm, ⟨72, _⟩ => ⟨S1024x6x256, .f32⟩
  | .hbm, ⟨73, _⟩ => ⟨S_, .i32⟩
  | .hbm, ⟨74, _⟩ => ⟨S6, .i32⟩
  | .hbm, ⟨75, _⟩ => ⟨S6, .i32⟩
  | .hbm, ⟨76, _⟩ => ⟨S6, .i32⟩
  | .hbm, ⟨77, _⟩ => ⟨S6x1, .i32⟩
  | .hbm, ⟨78, _⟩ => ⟨S1024x6x256, .f32⟩
  | .hbm, ⟨79, _⟩ => ⟨S1024x6x256, .f32⟩
  | .hbm, ⟨80, _⟩ => ⟨S1024x6x256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_3 : Ref sig .tc := ⟨.hbm, 11, rfl⟩
abbrev main_v3 : Ref sig .tc := ⟨.hbm, 12, rfl⟩
abbrev main_v4 : Ref sig .tc := ⟨.hbm, 13, rfl⟩
abbrev main_cst_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_5 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_6 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v18 : Ref sig .tc := ⟨.hbm, 49, rfl⟩
abbrev main_cst_8 : Ref sig .tc := ⟨.hbm, 50, rfl⟩
abbrev main_v19 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v20 : Ref sig .tc := ⟨.hbm, 55, rfl⟩
abbrev main_cst_10 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_11 : Ref sig .tc := ⟨.hbm, 62, rfl⟩
abbrev main_v26 : Ref sig .tc := ⟨.hbm, 63, rfl⟩
abbrev main_cst_12 : Ref sig .tc := ⟨.hbm, 64, rfl⟩
abbrev main_v27 : Ref sig .tc := ⟨.hbm, 65, rfl⟩
abbrev main_v28 : Ref sig .tc := ⟨.hbm, 66, rfl⟩
abbrev main_c_13 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_c_14 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_15 : Ref sig .tc := ⟨.hbm, 81, rfl⟩
abbrev main_v41 : Ref sig .tc := ⟨.hbm, 82, rfl⟩
abbrev main_cst_16 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩

abbrev nD : Nat := 1
abbrev τ : Topo := Topo.v7x

variable {F : FTy → Type} [FloatOps F]

class Facts₀ : Prop where
  reducesTo_S4096x2048_S_d0_1 : S4096x2048.ReducesTo [0, 1] S_
  h_S_ : 0 < S_.numel
  bcast_S_S4096x4096 : S_.BroadcastsInDim S4096x4096 (![] : Fin 0 → Fin S4096x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  reducesTo_S4096_S_d0 : S4096.ReducesTo [0] S_
  shapeCasts_S4096x256_S1024x4x256 : S4096x256.ShapeCasts S1024x4x256
  bcast_S_S6 : S_.BroadcastsInDim S6 (![] : Fin 0 → Fin S6.rank)
  bcast_S6_S6x1_0 : S6.BroadcastsInDim S6x1 (![0] : Fin 1 → Fin S6x1.rank)
  reducesTo_S1024x6x256_S_d0_1_2 : S1024x6x256.ReducesTo [0, 1, 2] S_
  dot_S4096x256_S4096x256_S4096x4096_1_1_0_0_n_n_wf : DotDims.WF S4096x256 S4096x256 S4096x4096 [1] [1] [0] [0] [] []
  gather_S1024x4x256_S6x1_S1024x6x256_02_1_n_n_1_1_10241256_wf : GatherDims.WF S1024x4x256 S6x1 S1024x6x256 [0, 2] [1] [] [1] [] 1 ![1024, 1, 256]

variable [Facts₀]

def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf
def gather_S1024x4x256_S6x1_S1024x6x256_02_1_n_n_1_1_10241256 : GatherDims S1024x4x256 S6x1 S1024x6x256 where
  offsetDims := [0, 2]
  collapsedSliceDims := [1]
  operandBatchingDims := []
  startIndicesBatchingDims := []
  startIndexMap := [1]
  indexVectorDim := 1
  sliceSizes := ![1024, 1, 256]
  wf := gather_S1024x4x256_S6x1_S1024x6x256_02_1_n_n_1_1_10241256_wf

class Facts : Prop extends Facts₀ where

variable [Facts]
-- ==== Proof.KData.lean ====
/-
  The proof data of the kernel's one pipelined region, generic in the float instance.

  The grid is 8 × 8: point `t` has row tile `i = t / 8` and column tile `j = t % 8`. Windows 0 and 1
  stage the 512-row blocks `i` and `j` of ONE array (the projections converted to bf16); windows 2
  and 3 are the two 512 × 1 result blocks of row tile `i`, resident in their staging buffers while `j`
  runs through a row of the grid and written back at `j = 7`. At each point the body adds, to each of
  the two running row sums, the column tile's masked partial sum of `exp sim`; at `j = 0` the running
  sums restart from zero. `posStep` / `negStep` are one such update, as the body's own arithmetic
  (the skeleton's payloads); `outsAt` is what the two result buffers hold after each point, by
  recursion on the point.
-/
import proofs.«158364_j17669495456297_1_alg».proof.Proof.Gen.KernelIdeal.Launch
import proofs.«158364_j17669495456297_1_alg».proof.Proof.Gen.KernelIdeal.Skeleton
import proofs.«158364_j17669495456297_1_alg».proof.Proof.Gen.KernelIdeal.Points
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the eleven host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's branch and one update -/

/-- The condition of the body's conditional: the column tile is the first. -/
abbrev cond0 (i : grid0.Coords) : Prop := (Scalar.cmpi .ne (Scalar.extui (Scalar.cmpi .eq (BitVec.ofNat 32 (i 1).val) 0#32)) 0#32) = 1#1
/-- It holds exactly at the first point of each row of the grid. -/
theorem hcond0 : ∀ t : Fin cfg0.N, cond0 (grid0.coords t) ↔ t.val % 8 = 0 :=
  (by decide +kernel : ∀ t : Fin grid0.N, cond0 (grid0.coords t) ↔ t.val % 8 = 0)

/-- One update of the positives' running row sums: the sum found, plus this column tile's partial sums. -/
def posStep (i : grid0.Coords) (a b : Vec F S512x256 .bf16) (P : Vec F S512x1 .f32) : Vec F S512x1 .f32 :=
  k0_pay13 (k0_pay4 a b) (k0_pay6 i) (k0_pay7 i) (k0_pay8 i) k0_pay9 P
/-- One update of the negatives' running row sums. -/
def negStep (i : grid0.Coords) (a b : Vec F S512x256 .bf16) (N : Vec F S512x1 .f32) : Vec F S512x1 .f32 :=
  k0_pay1 (k0_pay12 (k0_pay4 a b) (k0_pay6 i) (k0_pay7 i) (k0_pay8 i) k0_pay9) N

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)

/-! ## What the two result buffers hold after each point -/

/-- The accumulation: after the body at position `n`, the positives' and the negatives' running row sums of
    the point's row tile. At the first column tile they restart from zero (the body's two zero splats); at
    every other they continue from what position `n - 1` left (the buffers are not written back between). -/
def outsAt (c : Dev nD) : (n : ℕ) → n < cfg0.N → Vec F S512x1 .f32 × Vec F S512x1 .f32
  | 0, hn =>
    (posStep (grid0.coords ⟨0, hn⟩) (iblk m ρ c 0 ⟨0, hn⟩) (iblk m ρ c 1 ⟨0, hn⟩) (k0_pay2 (F := F)),
     negStep (grid0.coords ⟨0, hn⟩) (iblk m ρ c 0 ⟨0, hn⟩) (iblk m ρ c 1 ⟨0, hn⟩) (k0_pay3 (F := F)))
  | n + 1, hn =>
    if h0 : (n + 1) % 8 = 0 then
      (posStep (grid0.coords ⟨n + 1, hn⟩) (iblk m ρ c 0 ⟨n + 1, hn⟩) (iblk m ρ c 1 ⟨n + 1, hn⟩) (k0_pay2 (F := F)),
       negStep (grid0.coords ⟨n + 1, hn⟩) (iblk m ρ c 0 ⟨n + 1, hn⟩) (iblk m ρ c 1 ⟨n + 1, hn⟩) (k0_pay3 (F := F)))
    else
      (posStep (grid0.coords ⟨n + 1, hn⟩) (iblk m ρ c 0 ⟨n + 1, hn⟩) (iblk m ρ c 1 ⟨n + 1, hn⟩) (outsAt c n (Nat.lt_of_succ_lt hn)).1,
       negStep (grid0.coords ⟨n + 1, hn⟩) (iblk m ρ c 0 ⟨n + 1, hn⟩) (iblk m ρ c 1 ⟨n + 1, hn⟩) (outsAt c n (Nat.lt_of_succ_lt hn)).2)

/-- `outsAt` at a first column tile: the update from zero. -/
theorem outsAt_first (c : Dev nD) (t : Fin cfg0.N) (h0 : t.val % 8 = 0) :
    outsAt m ρ c t.val t.isLt =
      (posStep (grid0.coords t) (iblk m ρ c 0 t) (iblk m ρ c 1 t) (k0_pay2 (F := F)),
       negStep (grid0.coords t) (iblk m ρ c 0 t) (iblk m ρ c 1 t) (k0_pay3 (F := F))) := by
  obtain ⟨n, hn⟩ := t
  cases n with
  | zero => exact rfl
  | succ n => exact (dif_pos h0).trans rfl

/-- `outsAt` at a later column tile: the update from what the point before left. -/
theorem outsAt_later (c : Dev nD) (t : Fin cfg0.N) (h0 : ¬t.val % 8 = 0) :
    outsAt m ρ c t.val t.isLt =
      (posStep (grid0.coords t) (iblk m ρ c 0 t) (iblk m ρ c 1 t) (outsAt m ρ c (t.val - 1) (Nat.lt_of_le_of_lt (Nat.sub_le _ _) t.isLt)).1,
       negStep (grid0.coords t) (iblk m ρ c 0 t) (iblk m ρ c 1 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the two results' at `outsAt`; the invariant the scoped rest and the
    generator register; nothing owed; the one array behind the two input windows shared between them, a half each. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => (outsAt m ρ c t.val t.isLt).1
    | ⟨3, _⟩ => (outsAt m ρ c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq (c : Dev nD) (w : Fin cfg0.W) : (dats m ρ 0 c).A w = V m ρ c (Pipeline.arrRef spec0 w) := by
  dsimp only [dats]

/-- What the body leaves, window by window. -/
theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = (outsAt m ρ c t.val t.isLt).1 := by dsimp only [dats]
theorem after3 (c : Dev nD) (t : Fin cfg0.N) : (dats m ρ 0 c).after 3 t = (outsAt m ρ c t.val t.isLt).2 := by dsimp only [dats]

/-! ## The buffers after the region and at the end -/

/-- Core `c`'s unscoped buffers when the region is entered, as a valuation. -/
abbrev V1 (c : Dev nD) : Valuation τ sig (Elt F) := StableHlo.after hostOps0 (V₀ m ρ c)
/-- When the region is left: the two result arrays hold what the write-backs of all 64 points left; nothing else changed. -/
abbrev V2 (c : Dev nD) : Valuation τ sig (Elt F) :=
  Function.update (Function.update (V1 m ρ c) main_v5_0 ((dats m ρ 0 c).arrAt 2 cfg0.N)) main_v5_1 ((dats m ρ 0 c).arrAt 3 cfg0.N)
/-- At the end: the thirty-one host operations after the region have run. -/
abbrev V3 (c : Dev nD) : Valuation τ sig (Elt F) := StableHlo.after hostOps1 (V2 m ρ c)

/-- The variants of the body's loops: it has none. -/
abbrev 𝒱₀ : Variants := Variants.none

end Cert.KernelIdeal.Hand

end
-- ==== Proof.KBody.lean ====
/-
  The body obligation of the kernel's one pipelined region, generic in the float instance.

  The body has one branch, on whether the column tile is the first. In each of its two cases it is run once on
  arbitrary whole staging buffers: the two input buffers at their blocks, and the two result buffers either at
  anything (first column tile: each is stored whole with zeros, read back, and stored whole again with the update)
  or at the running row sums the point before left (later column tile: each is read and stored whole once with the
  update). What each result buffer ends with is a list of whole-block stores; the last of them covers the block, so
  the buffer reads that store's payload, and the loads inside the payload read the whole input blocks and the value
  under the store: the payload is `posStep` / `negStep` of the blocks and of zero, or of what was found. At a grid
  point, the pipeline's bookkeeping says which contents the four buffers are handed at (an input at its block,
  fetched or kept; a result fresh after a write-back, or kept), and the case's run carries them to what the proof
  data says the body leaves.
-/
import proofs.«158364_j17669495456297_1_alg».proof.Proof.KData
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two offsets of a whole-buffer rectangle are zero. -/
theorem hz : (![0, 0] : Fin 2 → Nat) = fun _ => 0 := funext fun a => by fin_cases a <;> rfl

/-- One staging buffer of a result window, through which a result buffer's contents are stated (the choice does
    not matter once the pieces cover the block). -/
abbrev VO : View sig .tc .vmem S512x1 .f32 := (Memref.whole cc0_stg2_0 : Memref sig .tc .vmem S512x1 .f32).view

/-! ## The body on any staging buffers, case by case -/

set_option maxHeartbeats 1000000 in
/-- The body where the column tile is the first: both result buffers, found at any contents, are stored whole
    with zeros, read back, and stored again with the update. The pieces each ends with are the witness. -/
noncomputable def kernelRun0_A (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

set_option maxHeartbeats 1000000 in
/-- The body at a later column tile: both result buffers hold what the point before left, are read, and are stored
    whole once with the update. The pieces each ends with are the witness. -/
noncomputable def kernelRun0_B (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo4 ∗ owns (c : Thread nD τ) arg5 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1
    obtain rfl := harg4.eq_unread hf4; obtain rfl := harg5.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-! ## What each case leaves in the result buffers -/

/-- Where the column tile is the first, the positives' pieces (two whole stores) cover the block. -/
theorem cover0_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (y : S512x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S512x1.size (by sl_kernel_rfl) y
/-- and so do the negatives'. -/
theorem cover0_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (y : S512x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S512x1.size (by sl_kernel_rfl) y
/-- At a later column tile, the positives' one whole store covers the block. -/
theorem cover0_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (y : S512x1.Idx) :
    ∃ pc ∈ (kernelRun0_B c i arg2 harg2 arg3 harg3 arg4 harg4 arg5 harg5 hc0 x0 x1 xo4 xo5).1, y ∈ pc.1.set :=
  View.cover_of_tiledL (kernelRun0_B c i arg2 harg2 arg3 harg3 arg4 harg4 arg5 harg5 hc0 x0 x1 xo4 xo5).1 S512x1.size (by sl_kernel_rfl) y
/-- and so does the negatives'. -/
theorem cover0_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (y : S512x1.Idx) :
    ∃ pc ∈ (kernelRun0_B c i arg2 harg2 arg3 harg3 arg4 harg4 arg5 harg5 hc0 x0 x1 xo4 xo5).2.1, y ∈ pc.1.set :=
  View.cover_of_tiledL (kernelRun0_B c i arg2 harg2 arg3 harg3 arg4 harg4 arg5 harg5 hc0 x0 x1 xo4 xo5).2.1 S512x1.size (by sl_kernel_rfl) y

/-- What each case leaves in each result buffer: its pieces read back over junk. -/
def out0_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) : Vec F S512x1 .f32 :=
  VO.read (Elt F) (VO.writes (Elt F) VO.junk (kernelRun0_A c i arg2 harg2 arg3 harg3 arg4 harg4 arg5 harg5 hc0 x0 x1).1)
def out0_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) : Vec F S512x1 .f32 :=
  VO.read (Elt F) (VO.writes (Elt F) VO.junk (kernelRun0_A c i arg2 harg2 arg3 harg3 arg4 harg4 arg5 harg5 hc0 x0 x1).2.1)
def out0_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) : Vec F S512x1 .f32 :=
  VO.read (Elt F) (VO.writes (Elt F) VO.junk (kernelRun0_B c i arg2 harg2 arg3 harg3 arg4 harg4 arg5 harg5 hc0 x0 x1 xo4 xo5).1)
def out0_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) : Vec F S512x1 .f32 :=
  VO.read (Elt F) (VO.writes (Elt F) VO.junk (kernelRun0_B c i arg2 harg2 arg3 harg3 arg4 harg4 arg5 harg5 hc0 x0 x1 xo4 xo5).2.1)

/-- Where the column tile is the first, the positives' buffer ends at the update of the zero block: the later whole
    store covers, and what it read back is the zero block the earlier one left. -/
theorem out_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    out0_A_4 c i arg2 harg2 arg3 harg3 arg4 harg4 arg5 harg5 hc0 x0 x1 = posStep i x0 x1 (k0_pay2 (F := F)) := by
  unfold out0_A_4
  rw [View.read_writes_eq_canon _ _ _ (cover0_A_4 c i arg2 harg2 arg3 harg3 arg4 harg4 arg5 harg5 hc0 x0 x1)]
  unfold kernelRun0_A
  dsimp only
  sl_unfold_words
  rw [View.canon_cons_unit_zero (S := S512x1) hz, View.readCov_unit_zero (S := S512x1) _ hz]
  unfold posStep
  simp only [View.readAt_eq_ld, harg2.read_unread, harg3.read_unread, View.ld_unit_zero (S := S512x256) hz]

/-- and the negatives' likewise. -/
theorem out_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    out0_A_5 c i arg2 harg2 arg3 harg3 arg4 harg4 arg5 harg5 hc0 x0 x1 = negStep i x0 x1 (k0_pay3 (F := F)) := by
  unfold out0_A_5
  rw [View.read_writes_eq_canon _ _ _ (cover0_A_5 c i arg2 harg2 arg3 harg3 arg4 harg4 arg5 harg5 hc0 x0 x1)]
  unfold kernelRun0_A
  dsimp only
  sl_unfold_words
  rw [View.canon_cons_unit_zero (S := S512x1) hz, View.readCov_unit_zero (S := S512x1) _ hz]
  unfold negStep
  simp only [View.readAt_eq_ld, harg2.read_unread, harg3.read_unread, View.ld_unit_zero (S := S512x256) hz]

/-- At a later column tile, the positives' buffer ends at the update of what it held: one whole store, whose
    payload read the whole buffers. -/
theorem out_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    out0_B_4 c i arg2 harg2 arg3 harg3 arg4 harg4 arg5 harg5 hc0 x0 x1 xo4 xo5 = posStep i x0 x1 xo4 := by
  unfold out0_B_4
  rw [View.read_writes_eq_canon _ _ _ (cover0_B_4 c i arg2 harg2 arg3 harg3 arg4 harg4 arg5 harg5 hc0 x0 x1 xo4 xo5)]
  unfold kernelRun0_B
  dsimp only
  sl_unfold_words
  rw [View.canon_unit_zero (S := S512x1) hz]
  unfold posStep
  simp only [View.readAt_eq_ld, harg2.read_unread, harg3.read_unread, harg4.read_unread,
    View.ld_unit_zero (S := S512x256) hz, View.ld_unit_zero (S := S512x1) hz]

/-- and the negatives' likewise. -/
theorem out_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    out0_B_5 c i arg2 harg2 arg3 harg3 arg4 harg4 arg5 harg5 hc0 x0 x1 xo4 xo5 = negStep i x0 x1 xo5 := by
  unfold out0_B_5
  rw [View.read_writes_eq_canon _ _ _ (cover0_B_5 c i arg2 harg2 arg3 harg3 arg4 harg4 arg5 harg5 hc0 x0 x1 xo4 xo5)]
  unfold kernelRun0_B
  dsimp only
  sl_unfold_words
  rw [View.canon_unit_zero (S := S512x1) hz]
  unfold negStep
  simp only [View.readAt_eq_ld, harg2.read_unread, harg3.read_unread, harg5.read_unread,
    View.ld_unit_zero (S := S512x256) hz, View.ld_unit_zero (S := S512x1) hz]

/-- So whichever view the pieces were written through and whatever lay under them, the buffer reads the update. -/
theorem read_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (v : View sig .tc .vmem S512x1 .f32) (f : v.ty.Contents (Elt F)) :
    v.read (Elt F) (v.writes (Elt F) f (kernelRun0_A c i arg2 harg2 arg3 harg3 arg4 harg4 arg5 harg5 hc0 x0 x1).1) = posStep i x0 x1 (k0_pay2 (F := F)) :=
  (View.read_writes_of_cover v f VO VO.junk _ (cover0_A_4 c i arg2 harg2 arg3 harg3 arg4 harg4 arg5 harg5 hc0 x0 x1)).trans (out_A_4 c i arg2 harg2 arg3 harg3 arg4 harg4 arg5 harg5 hc0 x0 x1)
theorem read_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (v : View sig .tc .vmem S512x1 .f32) (f : v.ty.Contents (Elt F)) :
    v.read (Elt F) (v.writes (Elt F) f (kernelRun0_A c i arg2 harg2 arg3 harg3 arg4 harg4 arg5 harg5 hc0 x0 x1).2.1) = negStep i x0 x1 (k0_pay3 (F := F)) :=
  (View.read_writes_of_cover v f VO VO.junk _ (cover0_A_5 c i arg2 harg2 arg3 harg3 arg4 harg4 arg5 harg5 hc0 x0 x1)).trans (out_A_5 c i arg2 harg2 arg3 harg3 arg4 harg4 arg5 harg5 hc0 x0 x1)
theorem read_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (v : View sig .tc .vmem S512x1 .f32) (f : v.ty.Contents (Elt F)) :
    v.read (Elt F) (v.writes (Elt F) f (kernelRun0_B c i arg2 harg2 arg3 harg3 arg4 harg4 arg5 harg5 hc0 x0 x1 xo4 xo5).1) = posStep i x0 x1 xo4 :=
  (View.read_writes_of_cover v f VO VO.junk _ (cover0_B_4 c i arg2 harg2 arg3 harg3 arg4 harg4 arg5 harg5 hc0 x0 x1 xo4 xo5)).trans (out_B_4 c i arg2 harg2 arg3 harg3 arg4 harg4 arg5 harg5 hc0 x0 x1 xo4 xo5)
theorem read_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (v : View sig .tc .vmem S512x1 .f32) (f : v.ty.Contents (Elt F)) :
    v.read (Elt F) (v.writes (Elt F) f (kernelRun0_B c i arg2 harg2 arg3 harg3 arg4 harg4 arg5 harg5 hc0 x0 x1 xo4 xo5).2.1) = negStep i x0 x1 xo5 :=
  (View.read_writes_of_cover v f VO VO.junk _ (cover0_B_5 c i arg2 harg2 arg3 harg3 arg4 harg4 arg5 harg5 hc0 x0 x1 xo4 xo5)).trans (out_B_5 c i arg2 harg2 arg3 harg3 arg4 harg4 arg5 harg5 hc0 x0 x1 xo4 xo5)

/-! ## What the body finds in each staging buffer -/

/-- The row tile's input block is in its buffer at every point: fetched at the first column tile, and left in
    place by the body while the row tile does not move. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The column tile's input block is fetched at every point. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- At a first column tile each result buffer is fresh: the point is the first of all, or the point before wrote
    the buffer back. -/
theorem before2_A (c : Dev nD) (t : Fin cfg0.N) (h0 : t.val % 8 = 0) (d) : (dats m ρ 0 c).before 2 t d = d :=
  Dat.before_out_reset _ 2 rfl t (by
    by_cases ht : t.val = 0
    · exact .inl ht
    · exact .inr ⟨ht, (flush0_2 _).mpr (by dsimp only; omega)⟩) d
theorem before3_A (c : Dev nD) (t : Fin cfg0.N) (h0 : t.val % 8 = 0) (d) : (dats m ρ 0 c).before 3 t d = d :=
  Dat.before_out_reset _ 3 rfl t (by
    by_cases ht : t.val = 0
    · exact .inl ht
    · exact .inr ⟨ht, (flush0_3 _).mpr (by dsimp only; omega)⟩) d

/-- At a later column tile each result buffer holds what the body left at the point before: it was not written
    back between. -/
theorem before2_B (c : Dev nD) (t : Fin cfg0.N) (h0 : ¬t.val % 8 = 0) (d) :
    (dats m ρ 0 c).before 2 t d = (outsAt m ρ c (t.val - 1) (Nat.lt_of_le_of_lt (Nat.sub_le _ _) t.isLt)).1 := by
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 8 = 0) (d) :
    (dats m ρ 0 c).before 3 t d = (outsAt m ρ c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    (fun _ => rfl) (fun _ _ => rfl)]
  dsimp only [dats]

/-- What the body leaves in the result buffers, case by case: the update from zero, or from what was found. -/
theorem after2_first (c : Dev nD) (t : Fin cfg0.N) (h0 : t.val % 8 = 0) :
    (dats m ρ 0 c).after 2 t = posStep (grid0.coords t) (iblk m ρ c 0 t) (iblk m ρ c 1 t) (k0_pay2 (F := F)) := by
  rw [after2, outsAt_first m ρ c t h0]
theorem after3_first (c : Dev nD) (t : Fin cfg0.N) (h0 : t.val % 8 = 0) :
    (dats m ρ 0 c).after 3 t = negStep (grid0.coords t) (iblk m ρ c 0 t) (iblk m ρ c 1 t) (k0_pay3 (F := F)) := by
  rw [after3, outsAt_first m ρ c t h0]
theorem after2_later (c : Dev nD) (t : Fin cfg0.N) (h0 : ¬t.val % 8 = 0) :
    (dats m ρ 0 c).after 2 t = posStep (grid0.coords t) (iblk m ρ c 0 t) (iblk m ρ c 1 t)
      (outsAt m ρ c (t.val - 1) (Nat.lt_of_le_of_lt (Nat.sub_le _ _) t.isLt)).1 := by
  rw [after2, outsAt_later m ρ c t h0]
theorem after3_later (c : Dev nD) (t : Fin cfg0.N) (h0 : ¬t.val % 8 = 0) :
    (dats m ρ 0 c).after 3 t = negStep (grid0.coords t) (iblk m ρ c 0 t) (iblk m ρ c 1 t)
      (outsAt m ρ c (t.val - 1) (Nat.lt_of_le_of_lt (Nat.sub_le _ _) t.isLt)).2 := by
  rw [after3, outsAt_later m ρ c t h0]

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t))

set_option maxHeartbeats 1600000 in
/-- The body at any point. The two input buffers hold their blocks; the point is a first column tile or a later one;
    in the first case the result buffers are fresh and the body restarts the sums from zero, in the second they hold
    the running sums and the body continues them; the invariant passes through unread; the core owes nothing. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1]
  rw [show (dats m ρ 0 c).Φ t.succ = (dats m ρ 0 c).Φ t.castSucc from rfl,
    show (dats m ρ 0 c).owesAt () t.succ = (dats m ρ 0 c).owesAt () t.castSucc from rfl,
    after0, after1]
  by_cases h0 : t.val % 8 = 0
  · rw [after2_first m ρ c t h0, after3_first m ρ c t h0]
    simp only [before2_A m ρ c t h0, before3_A m ρ c t h0]
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk m ρ c 0 t) (iblk m ρ c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read_A_4 c (grid0.coords t) _ _ _ _ _ _ _ _ ((hcond0 t).mpr h0) (iblk m ρ c 0 t) (iblk m ρ c 1 t) _ _
    unfold owns; iexists _; isplitr
    swap; · iexact H3
    ipureintro
    exact read_A_5 c (grid0.coords t) _ _ _ _ _ _ _ _ ((hcond0 t).mpr h0) (iblk m ρ c 0 t) (iblk m ρ c 1 t) _ _
  · rw [after2_later m ρ c t h0, after3_later m ρ c t h0]
    simp only [before2_B m ρ c t h0, before3_B m ρ c t h0]
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk m ρ c 0 t) (iblk m ρ c 1 t)
      (outsAt m ρ c (t.val - 1) (Nat.lt_of_le_of_lt (Nat.sub_le _ _) t.isLt)).1
      (outsAt m ρ c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read_B_4 c (grid0.coords t) _ _ _ _ _ _ _ _ (fun h => h0 ((hcond0 t).mp h)) (iblk m ρ c 0 t) (iblk m ρ c 1 t)
        (outsAt m ρ c (t.val - 1) (Nat.lt_of_le_of_lt (Nat.sub_le _ _) t.isLt)).1
        (outsAt m ρ c (t.val - 1) (Nat.lt_of_le_of_lt (Nat.sub_le _ _) t.isLt)).2 _ _
    unfold owns; iexists _; isplitr
    swap; · iexact H3
    ipureintro
    exact read_B_5 c (grid0.coords t) _ _ _ _ _ _ _ _ (fun h => h0 ((hcond0 t).mp h)) (iblk m ρ c 0 t) (iblk m ρ c 1 t)
      (outsAt m ρ c (t.val - 1) (Nat.lt_of_le_of_lt (Nat.sub_le _ _) t.isLt)).1
      (outsAt m ρ c (t.val - 1) (Nat.lt_of_le_of_lt (Nat.sub_le _ _) t.isLt)).2 _ _

/-- The library's body obligation, at every point. -/
theorem body_obligation (c : Dev nD) : BodyObligation (dats (F := F) m ρ 0 c) (defs₀ (F := F)) 𝒱₀ () Set.univ := fun t => by
  rw [bigSep_W0, bigSep_W0]
  exact sound_body m ρ c t

end Cert.KernelIdeal.Hand

end
-- ==== Proof.KLaunch.lean ====
/-
  The launch: @main's run, from the body obligation of its one pipelined region.

  @main is eleven host operations (the last converts the projections to bf16: the ONE array behind both input
  windows), one pipelined region over four windows, and thirty-one host operations on the region's two results.
  Between two of these three segments a core holds every unscoped buffer whole at a valuation — the launch contents,
  then `StableHlo.after` the first stretch (`V1`), then the same with the two result arrays at what the write-backs of
  all 64 points left (`V2`), then `StableHlo.after` the second stretch (`V3`) — beside the core owing nothing and
  the generator register at some state.

  The region is entered by cutting the full points-to of the input array into two halves, one for each of the two
  windows on it (a points-to splits along its share), and left by joining the halves back: an input array is never
  written, so both halves still hold what the region found. The two result arrays pass whole; every other unscoped
  buffer bypasses the region.

  `run_main`: at the compiled mesh, from any memory whose semaphore counters are zero, every weakly fair execution of
  @main on the TensorCores terminates, and every final state holds `V3` at every unscoped buffer. `frame`: the three
  arguments end as launched (no host operation writes one, no window is on one).
-/
import proofs.«158364_j17669495456297_1_alg».proof.Proof.KData
import proofs.«158364_j17669495456297_1_alg».proof.Proof.KBody
import Idealize.ShloMosaic.Lib.Pipeline.Regions
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The buffers behind the four windows are three: the two input windows are on one array. -/
theorem arrImage : (Finset.univ.image (Pipeline.arrRef spec0) : Finset (Ref sig .tc)) = [main_v4, main_v5_0, main_v5_1].toFinset := by decide

/-- Those three buffers, each whole at the full share at contents `W`, as a chain. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v4) ↦{fullShare} W main_v4) ∗ (((c.tc : Thread nD τ).loc main_v5_0) ↦{fullShare} W main_v5_0)
          ∗ (((c.tc : Thread nD τ).loc main_v5_1) ↦{fullShare} W main_v5_1)) := by
  unfold Pipeline.arrBufs
  exact bigSep_eq_bigSepL_of_eq [main_v4, main_v5_0, main_v5_1] arrImage (by decide) _

/-- The pipeline's arrays at contents `G`, window by window: each input window holds a half of the one input
    array, each result window its array whole. -/
theorem arrays_eq4 (c : Dev nD) (G : (w : Fin cfg0.W) → Buf (Elt F) ((cfg0.win w).arr.view.loc (c.tc : Thread nD τ))) :
    ((dats m ρ 0 c).arrays G : sProp 𝕄)
      = iprop((((c.tc : Thread nD τ).loc main_v4) ↦{fullShare.left} G 0) ∗ (((c.tc : Thread nD τ).loc main_v4) ↦{fullShare.right} G 1)
          ∗ (((c.tc : Thread nD τ).loc main_v5_0) ↦{fullShare} G 2) ∗ (((c.tc : Thread nD τ).loc main_v5_1) ↦{fullShare} G 3)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have s0 : (dats m ρ 0 c).share 0 = fullShare.left := by unfold Dat.share; rw [if_neg (by decide)]; dsimp only [dats]
  have s1 : (dats m ρ 0 c).share 1 = fullShare.right := by unfold Dat.share; rw [if_neg (by decide)]; dsimp only [dats]
  have s2 : (dats m ρ 0 c).share 2 = fullShare := by unfold Dat.share; rw [if_pos (by decide)]
  have s3 : (dats m ρ 0 c).share 3 = fullShare := by unfold Dat.share; rw [if_pos (by decide)]
  rw [h0, h2, h3, s0, s1, s2, s3]

/-! ## Entering and leaving the region: the one input array shared between its two windows -/

/-- An input window's array is never written: at every point it holds what the region found. -/
theorem arrAt_in0 (c : Dev nD) (n : ℕ) : (dats m ρ 0 c).arrAt 0 n = V m ρ c main_v4 :=
  ((dats (F := F) m ρ 0 c).arrAt_in 0 rfl n).trans (A_eq m ρ c 0)
theorem arrAt_in1 (c : Dev nD) (n : ℕ) : (dats m ρ 0 c).arrAt 1 n = V m ρ c main_v4 :=
  ((dats (F := F) m ρ 0 c).arrAt_in 1 rfl n).trans (A_eq m ρ c 1)

/-- ENTRY. The unscoped buffers as the host operations before the region left them are the pipeline's arrays at
    their entry contents and the unscoped rest: the full points-to of the one input array is cut in two halves,
    one for each of its windows. -/
theorem entry_arrays (c : Dev nD) :
    (StableHlo.held (c.tc : Thread nD τ) (Pipeline.ucRefs τ sig) (V1 m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [← Pipeline.unscopedBufs_held (Ix := Unit) (Name := ℕ) (U := UR sig nD τ) (Lvl := ℕ) c (V1 m ρ c)]
  rw [Pipeline.unscopedBufs_split₀ cfgs 0 winFacts₀0.arr_unscoped c, arrBufs_eq, arrays_eq4]
  rw [arrAt_in0, arrAt_in1, show (dats m ρ 0 c).arrAt 2 0 = V m ρ c main_v5_0 from A_eq m ρ c 2,
    show (dats m ρ 0 c).arrAt 3 0 = V m ρ c main_v5_1 from A_eq m ρ c 3]
  refine sep_mono ?_ .rfl
  iintro ⟨H4, H50, H51⟩
  ihave H := (pointsTo_share (PosShare.mem_left_op_right fullShare)).1 $$ H4
  icases H with ⟨Hl, Hr⟩
  isplitl [Hl]; · iexact Hl
  isplitl [Hr]; · iexact Hr
  isplitl [H50] <;> iassumption

/-- What the region's exit valuation holds: the two result arrays as the write-backs left them, -/
theorem exitV_v51 (c : Dev nD) : V2 m ρ c (Proc.devRef .tc main_v5_1) = (dats m ρ 0 c).arrAt 3 cfg0.N := by
  simp only [V2, Function.update_self]
theorem exitV_v50 (c : Dev nD) : V2 m ρ c (Proc.devRef .tc main_v5_0) = (dats m ρ 0 c).arrAt 2 cfg0.N := by
  simp only [V2, Function.update_of_ne (StableHlo.devRef_ne_of_ne (by decide) : (Proc.devRef .tc main_v5_0 : DevRef τ sig) ≠ Proc.devRef .tc main_v5_1),
    Function.update_self]
/-- and every other buffer as the region found it. -/
theorem exitV_of (c : Dev nD) (b : Ref sig .tc) (h0 : b ≠ main_v5_0) (h1 : b ≠ main_v5_1) :
    V2 m ρ c (Proc.devRef .tc b) = V1 m ρ c (Proc.devRef .tc b) := by
  simp only [V2, Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]

/-- The unscoped buffers behind no window are untouched by the region. -/
theorem rest_exitV (c : Dev nD) :
    (Pipeline.unscopedRest (Ix := Unit) (Name := ℕ) (U := UR sig nD τ) (Lvl := ℕ) spec0 c (fun b => V2 m ρ c (Proc.devRef .tc b)) : sProp 𝕄)
      = Pipeline.unscopedRest (Ix := Unit) (Name := ℕ) (U := UR sig nD τ) (Lvl := ℕ) spec0 c (V m ρ c) := by
  unfold Pipeline.unscopedRest
  refine bigSep_congr fun b hb => ?_
  have hb' := (Finset.mem_sdiff.mp hb).2
  have h0 : b ≠ main_v5_0 := fun e => hb' (e ▸ (show main_v5_0 ∈ Finset.univ.image (Pipeline.arrRef spec0) by rw [arrImage]; decide))
  have h1 : b ≠ main_v5_1 := fun e => hb' (e ▸ (show main_v5_1 ∈ Finset.univ.image (Pipeline.arrRef spec0) by rw [arrImage]; decide))
  exact congrArg (fun x => ((c.tc : Thread nD τ).loc b ↦{fullShare} x : sProp 𝕄)) (exitV_of m ρ c b h0 h1)

/-- EXIT. The pipeline's arrays at their final contents and the unscoped rest are the unscoped buffers at the exit
    valuation: the two halves of the input array, both still at what the region found, are joined back into its
    full points-to; the result arrays are at what the write-backs of all the points left. -/
theorem exit_held (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (StableHlo.held (c.tc : Thread nD τ) (Pipeline.ucRefs τ sig) (V2 m ρ c) : sProp 𝕄) := by
  rw [← Pipeline.unscopedBufs_held (Ix := Unit) (Name := ℕ) (U := UR sig nD τ) (Lvl := ℕ) c (V2 m ρ c)]
  rw [Pipeline.unscopedBufs_split₀ cfgs 0 winFacts₀0.arr_unscoped c, arrBufs_eq, arrays_eq4, arrAt_in0, arrAt_in1, exitV_v50, exitV_v51,
    exitV_of m ρ c main_v4 (by decide) (by decide)]
  refine BIClass.sep_mono ?_ (Entails.of_eq (rest_exitV m ρ c).symm)
  iintro ⟨Hl, Hr, H50, H51⟩
  ihave H := (pointsTo_share (PosShare.mem_left_op_right fullShare)).2 $$ [Hl Hr]
  · isplitl [Hl] <;> iassumption
  isplitl [H]; · iexact H
  isplitl [H50] <;> iassumption

/-! ## @main as segments: eleven host operations, the region, thirty-one host operations -/

/-- No core owes another anything: no level is assigned. -/
abbrev noLev : GSem nD τ sig → Finset Unit := fun _ => ∅
abbrev lvZero : GSem nD τ sig → Unit → ℕ := fun _ _ => 0
/-- The prefetched tables' admissible contents: there is no table. -/
abbrev admNone : (p : Fin 1) → (pcfgs (F := F) p).Adm := fun p => (cfgs p).toPCfg_adm

/-- What rides beside the unscoped buffers from segment to segment: the core owing nothing, and the generator
    register at some state. -/
abbrev carried (c : Dev nD) : sProp 𝕄 :=
  iprop((∃ W, owes (c.tc : Thread nD τ) (0 : CellTallies nD τ sig Unit) W) ∗ ∃ r, prngReg c r)

/-- No host operation allocates a buffer. -/
theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The host operations before the region, over the unscoped buffers from the launch contents. -/
def hostBefore : Pipeline.HostSeg (Name := ℕ) (U := UR sig nD τ) (pcfgs (F := F)) defs₀ 𝒱₀ noLev lvZero :=
  Pipeline.HostSeg.ofOps _ _ _ _ _ (Pipeline.ucRefs τ sig) hostOps0
    (fun op h => Pipeline.sub_ucRefs op ((List.forall_iff_forall_mem.mp hostOps0_sub) op h)) fresh0 (V₀ m ρ) carried

/-- The host operations after the region, over the unscoped buffers from the region's exit valuation. -/
def hostAfter : Pipeline.HostSeg (Name := ℕ) (U := UR sig nD τ) (pcfgs (F := F)) defs₀ 𝒱₀ noLev lvZero :=
  Pipeline.HostSeg.ofOps _ _ _ _ _ (Pipeline.ucRefs τ sig) hostOps1
    (fun op h => Pipeline.sub_ucRefs op ((List.forall_iff_forall_mem.mp hostOps1_sub) op h)) fresh1 (V2 m ρ) carried

set_option backward.isDefEq.respectTransparency.types false in
/-- The region: the decided layout, no semaphore of its own, the body obligation; entered from the unscoped buffers as
    the first host stretch left them — the arrays into the pipeline, the generator register into the invariant, every
    other unscoped buffer bypassing —, left with the unscoped buffers at the exit valuation. -/
def theRegion : Pipeline.RegionSeg (pcfgs (F := F)) admNone (dats m ρ) () defs₀ 𝒱₀ noLev lvZero 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ noLev lvZero 0 fun _ _ => rfl
  pre c := iprop(StableHlo.held (c.tc : Thread nD τ) (Pipeline.ucRefs τ sig) (V1 m ρ c) ∗ carried c)
  post c := iprop(StableHlo.held (c.tc : Thread nD τ) (Pipeline.ucRefs τ sig) (V2 m ρ c) ∗ carried c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    iintro ⟨⟨Hh, HO, Hp⟩, -, -⟩
    ihave H := (entry_arrays m ρ c) $$ Hh
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    imodintro
    isplitl [Ha HZ]
    · iapply (exit_held m ρ c); isplitl [Ha] <;> iassumption
    isplitl [HO]
    · unfold Pipeline.Dat.owesAt Pipeline.owesWithin
      icases HO with ⟨%W, -, HO⟩; iexists W; iexact HO
    iexact HY

/-- @main as the list of the three. -/
abbrev mainSegs : List (Pipeline.Seg (pcfgs (F := F)) admNone (dats m ρ) () defs₀ 𝒱₀ noLev lvZero) :=
  [.host (hostBefore m ρ), .region (theRegion m ρ), .host (hostAfter m ρ)]

/-! ## The run -/

set_option backward.isDefEq.respectTransparency.types false in
/-- At the compiled mesh, from any memory whose semaphore counters are zero: every weakly fair execution of @main on
    the TensorCores terminates, and in every final state every unscoped buffer holds what the end valuation says —
    the launch contents carried through the first host stretch, the region's two results, the second host stretch. -/
theorem run_main : θ_run defs (onTc (τ := τ) (main (F := F))) ⟨m, fun _ => 0, ρ⟩
    (fun r => ∀ c : Dev nD, ∀ b : Ref sig .tc, b.isScoped = false →
      r.2.mem ((c.tc : Thread nD τ).loc b) = V3 m ρ c (Proc.devRef .tc b)) :=
  Pipeline.θ_run_regions_kit (pcfgs (F := F)) admNone (dats m ρ) () cellOf_inj emb₁ defs₀ 𝒱₀ noLev lvZero m ρ main (mainSegs m ρ)
    (fun c Q => by rw [main_segs admNone (dats m ρ) () 𝒱₀ noLev lvZero (hostBefore m ρ) (hostAfter m ρ) (theRegion m ρ) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m ρ c) ∗ carried c))
    (Tₙ := fun c => StableHlo.held (c.tc : Thread nD τ) (Pipeline.ucRefs τ sig) (V3 m ρ c))
    (hch := ⟨fun _ => .rfl, fun _ => .rfl, fun _ => .rfl, fun c => by
      change iprop(StableHlo.held (c.tc : Thread nD τ) (Pipeline.ucRefs τ sig) (V3 m ρ c) ∗ carried c) ⊢ _
      iintro ⟨Hh, HO, -⟩
      isplitl [Hh]; · iexact Hh
      iexact HO⟩)
    (hinit := by
      refine Pipeline.initEach noLev lvZero fun c => ?_
      rw [show unscopedBufs c (fun b => m ((c.tc : Thread nD τ).loc b)) = StableHlo.held (c.tc : Thread nD τ) (Pipeline.ucRefs τ sig) (V₀ m ρ c)
        from Pipeline.unscopedBufs_held c (V₀ m ρ c)]
      iintro ⟨⟨Hh, -, HO, -, Hp, -⟩, -⟩
      imodintro
      isplitl [Hh]; · iexact Hh
      isplitl [HO]; · iexists ∅; iexact HO
      iexists _; iexact Hp)
    (QY := fun c s => ∀ b : Ref sig .tc, b.isScoped = false → s.mem ((c.tc : Thread nD τ).loc b) = V3 m ρ c (Proc.devRef .tc b))
    (hfin := fun c s' => by
      unfold StableHlo.held
      iintro ⟨Hh, HSI⟩
      ihave Hr := (pointsTo_read_all (Pipeline.ucRefs τ sig) (fun b => ((c.tc : Thread nD τ).1, b)) (V3 m ρ c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, by
          show ¬ (b.isScoped = true); rw [hb]; exact Bool.false_ne_true⟩)
      · iexact HSI)
    (hQ := fun _ h => h)

/-! ## No operation and no window writes an argument -/

/-- The references the host operations before the region write, -/
abbrev written0 : List (Ref sig .tc) :=
  [main_c, main_c_0, main_c_1, main_c_2, main_v0, main_v1, main_cst, main_v2, main_cst_3, main_v3, main_v4]
/-- and those the host operations after it write. -/
abbrev written1 : List (Ref sig .tc) :=
  [main_v6, main_v7, main_v8, main_v9, main_v10, main_v11, main_cst_4, main_v12, main_cst_5, main_v13, main_v14, main_c_6, main_v15,
    main_v16, main_v17, main_v18, main_v19, main_c_7, main_v20, main_v21, main_v22, main_v23, main_v24, main_v25, main_v26, main_cst_8,
    main_v27, main_cst_9, main_v28, main_v29, main_v30]

theorem writes0 : (hostOps0 : List (HloOp τ sig (Elt F))).Forall fun op => op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      Finset.singleton_subset_iff, List.mem_toFinset]
    exact List.mem_map_of_mem (by decide)

theorem writes1 : (hostOps1 : List (HloOp τ sig (Elt F))).Forall fun op => op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      Finset.singleton_subset_iff, List.mem_toFinset]
    exact List.mem_map_of_mem (by decide)

/-- A reference that neither host stretch writes and that is no result of the region holds at the end what it held
    at launch. -/
theorem V3_of_not_written (c : Dev nD) (r : Ref sig .tc) (h1 : r ∉ written1) (h50 : r ≠ main_v5_0) (h51 : r ≠ main_v5_1)
    (h0 : r ∉ written0) : V3 m ρ c (Proc.devRef .tc r) = m ((c.tc : Thread nD τ).loc r) :=
  (StableHlo.after_of_writes_sub hostOps1 _ writes1 h1).trans <| (exitV_of m ρ c r h50 h51).trans <|
    (StableHlo.after_of_writes_sub hostOps0 _ writes0 h0).trans rfl

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (by decide)).trans (V3_of_not_written m ρ c main_arg0 (by decide) (by decide) (by decide) (by decide)),
      (h c main_arg1 (by decide)).trans (V3_of_not_written m ρ c main_arg1 (by decide) (by decide) (by decide) (by decide)),
      (h c main_arg2 (by decide)).trans (V3_of_not_written m ρ c main_arg2 (by decide) (by decide) (by decide) (by decide))⟩) (run_main m ρ)

end Cert.KernelIdeal.Hand

end
-- ==== Proof.WData.lean ====
/-
  The proof data of the kernel's one pipelined region, generic in the float instance.

  The grid is 8 × 8: point `t` has row tile `i = t / 8` and column tile `j = t % 8`. Windows 0 and 1
  stage the 512-row blocks `i` and `j` of ONE array (the projections converted to bf16); windows 2
  and 3 are the two 512 × 1 result blocks of row tile `i`, resident in their staging buffers while `j`
  runs through a row of the grid and written back at `j = 7`. At each point the body adds, to each of
  the two running row sums, the column tile's masked partial sum of `exp sim`; at `j = 0` the running
  sums restart from zero. `posStep` / `negStep` are one such update, as the body's own arithmetic
  (the skeleton's payloads); `outsAt` is what the two result buffers hold after each point, by
  recursion on the point.
-/
import proofs.«158364_j17669495456297_1_alg».proof.Proof.Gen.Kernel.Launch
import proofs.«158364_j17669495456297_1_alg».proof.Proof.Gen.Kernel.Skeleton
import proofs.«158364_j17669495456297_1_alg».proof.Proof.Gen.Kernel.Points
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => (s₀ m ρ).mem ((c : Dev nD), b)
/-- and when the region is entered: the eleven host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The body's branch and one update -/

/-- The condition of the body's conditional: the column tile is the first. -/
abbrev cond0 (i : grid0.Coords) : Prop := (Scalar.cmpi .ne (Scalar.extui (Scalar.cmpi .eq (BitVec.ofNat 32 (i 1).val) 0#32)) 0#32) = 1#1
/-- It holds exactly at the first point of each row of the grid. -/
theorem hcond0 : ∀ t : Fin cfg0.N, cond0 (grid0.coords t) ↔ t.val % 8 = 0 :=
  (by decide +kernel : ∀ t : Fin grid0.N, cond0 (grid0.coords t) ↔ t.val % 8 = 0)

/-- One update of the positives' running row sums: the sum found, plus this column tile's partial sums. -/
def posStep (i : grid0.Coords) (a b : Vec F S512x256 .bf16) (P : Vec F S512x1 .f32) : Vec F S512x1 .f32 :=
  k0_pay13 (k0_pay4 a b) (k0_pay6 i) (k0_pay7 i) (k0_pay8 i) k0_pay9 P
/-- One update of the negatives' running row sums. -/
def negStep (i : grid0.Coords) (a b : Vec F S512x256 .bf16) (N : Vec F S512x1 .f32) : Vec F S512x1 .f32 :=
  k0_pay1 (k0_pay12 (k0_pay4 a b) (k0_pay6 i) (k0_pay7 i) (k0_pay8 i) k0_pay9) N

/-- Each window's current staging memref at point `t`, as the pipeline passes it to the body, and its wholeness. -/
abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)

/-! ## What the two result buffers hold after each point -/

/-- The accumulation: after the body at position `n`, the positives' and the negatives' running row sums of
    the point's row tile. At the first column tile they restart from zero (the body's two zero splats); at
    every other they continue from what position `n - 1` left (the buffers are not written back between). -/
def outsAt (c : Dev nD) : (n : ℕ) → n < cfg0.N → Vec F S512x1 .f32 × Vec F S512x1 .f32
  | 0, hn =>
    (posStep (grid0.coords ⟨0, hn⟩) (iblk m ρ c 0 ⟨0, hn⟩) (iblk m ρ c 1 ⟨0, hn⟩) (k0_pay2 (F := F)),
     negStep (grid0.coords ⟨0, hn⟩) (iblk m ρ c 0 ⟨0, hn⟩) (iblk m ρ c 1 ⟨0, hn⟩) (k0_pay3 (F := F)))
  | n + 1, hn =>
    if h0 : (n + 1) % 8 = 0 then
      (posStep (grid0.coords ⟨n + 1, hn⟩) (iblk m ρ c 0 ⟨n + 1, hn⟩) (iblk m ρ c 1 ⟨n + 1, hn⟩) (k0_pay2 (F := F)),
       negStep (grid0.coords ⟨n + 1, hn⟩) (iblk m ρ c 0 ⟨n + 1, hn⟩) (iblk m ρ c 1 ⟨n + 1, hn⟩) (k0_pay3 (F := F)))
    else
      (posStep (grid0.coords ⟨n + 1, hn⟩) (iblk m ρ c 0 ⟨n + 1, hn⟩) (iblk m ρ c 1 ⟨n + 1, hn⟩) (outsAt c n (Nat.lt_of_succ_lt hn)).1,
       negStep (grid0.coords ⟨n + 1, hn⟩) (iblk m ρ c 0 ⟨n + 1, hn⟩) (iblk m ρ c 1 ⟨n + 1, hn⟩) (outsAt c n (Nat.lt_of_succ_lt hn)).2)

/-- `outsAt` at a first column tile: the update from zero. -/
theorem outsAt_first (c : Dev nD) (t : Fin cfg0.N) (h0 : t.val % 8 = 0) :
    outsAt m ρ c t.val t.isLt =
      (posStep (grid0.coords t) (iblk m ρ c 0 t) (iblk m ρ c 1 t) (k0_pay2 (F := F)),
       negStep (grid0.coords t) (iblk m ρ c 0 t) (iblk m ρ c 1 t) (k0_pay3 (F := F))) := by
  obtain ⟨n, hn⟩ := t
  cases n with
  | zero => exact rfl
  | succ n => exact (dif_pos h0).trans rfl

/-- `outsAt` at a later column tile: the update from what the point before left. -/
theorem outsAt_later (c : Dev nD) (t : Fin cfg0.N) (h0 : ¬t.val % 8 = 0) :
    outsAt m ρ c t.val t.isLt =
      (posStep (grid0.coords t) (iblk m ρ c 0 t) (iblk m ρ c 1 t) (outsAt m ρ c (t.val - 1) (Nat.lt_of_le_of_lt (Nat.sub_le _ _) t.isLt)).1,
       negStep (grid0.coords t) (iblk m ρ c 0 t) (iblk m ρ c 1 t) (outsAt m ρ c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point
    `t` each input's buffer at its block and the two results' at `outsAt`; the invariant the scoped rest and the
    generator register; nothing owed; the one array behind the two input windows shared between them, a half each. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => (outsAt m ρ c t.val t.isLt).1
    | ⟨3, _⟩ => (outsAt m ρ c t.val t.isLt).2
  Φ _ := Pipeline.ΦA spec0 c
  q w := match w with
    | ⟨0, _⟩ => fullShare.left
    | ⟨1, _⟩ => fullShare.right
    | ⟨2, _⟩ => fullShare
    | ⟨3, _⟩ => fullShare
  owed _ := 0

/-- The proof data's arrays are the region-entry contents. -/
theorem A_eq (c : Dev nD) (w : Fin cfg0.W) : (dats m ρ 0 c).A w = V m ρ c (Pipeline.arrRef spec0 w) := by
  dsimp only [dats]

/-- What the body leaves, window by window. -/
theorem after0 (c : Dev nD) (t : Fin cfg0.N) : (dats m ρ 0 c).after 0 t = iblk m ρ c 0 t := by dsimp only [dats]
theorem after1 (c : Dev nD) (t : Fin cfg0.N) : (dats m ρ 0 c).after 1 t = iblk m ρ c 1 t := by dsimp only [dats]
theorem after2 (c : Dev nD) (t : Fin cfg0.N) : (dats m ρ 0 c).after 2 t = (outsAt m ρ c t.val t.isLt).1 := by dsimp only [dats]
theorem after3 (c : Dev nD) (t : Fin cfg0.N) : (dats m ρ 0 c).after 3 t = (outsAt m ρ c t.val t.isLt).2 := by dsimp only [dats]

/-! ## The buffers after the region and at the end -/

/-- Core `c`'s unscoped buffers when the region is entered, as a valuation. -/
abbrev V1 (c : Dev nD) : Valuation τ sig (Elt F) := StableHlo.after hostOps0 (V₀ m ρ c)
/-- When the region is left: the two result arrays hold what the write-backs of all 64 points left; nothing else changed. -/
abbrev V2 (c : Dev nD) : Valuation τ sig (Elt F) :=
  Function.update (Function.update (V1 m ρ c) main_v5_0 ((dats m ρ 0 c).arrAt 2 cfg0.N)) main_v5_1 ((dats m ρ 0 c).arrAt 3 cfg0.N)
/-- At the end: the thirty-one host operations after the region have run. -/
abbrev V3 (c : Dev nD) : Valuation τ sig (Elt F) := StableHlo.after hostOps1 (V2 m ρ c)

/-- The variants of the body's loops: it has none. -/
abbrev 𝒱₀ : Variants := Variants.none

end Cert.Kernel.Hand

end
-- ==== Proof.WBody.lean ====
/-
  The body obligation of the kernel's one pipelined region, generic in the float instance.

  The body has one branch, on whether the column tile is the first. In each of its two cases it is run once on
  arbitrary whole staging buffers: the two input buffers at their blocks, and the two result buffers either at
  anything (first column tile: each is stored whole with zeros, read back, and stored whole again with the update)
  or at the running row sums the point before left (later column tile: each is read and stored whole once with the
  update). What each result buffer ends with is a list of whole-block stores; the last of them covers the block, so
  the buffer reads that store's payload, and the loads inside the payload read the whole input blocks and the value
  under the store: the payload is `posStep` / `negStep` of the blocks and of zero, or of what was found. At a grid
  point, the pipeline's bookkeeping says which contents the four buffers are handed at (an input at its block,
  fetched or kept; a result fresh after a write-back, or kept), and the case's run carries them to what the proof
  data says the body leaves.
-/
import proofs.«158364_j17669495456297_1_alg».proof.Proof.WData
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two offsets of a whole-buffer rectangle are zero. -/
theorem hz : (![0, 0] : Fin 2 → Nat) = fun _ => 0 := funext fun a => by fin_cases a <;> rfl

/-- One staging buffer of a result window, through which a result buffer's contents are stated (the choice does
    not matter once the pieces cover the block). -/
abbrev VO : View sig .tc .vmem S512x1 .f32 := (Memref.whole cc0_stg2_0 : Memref sig .tc .vmem S512x1 .f32).view

/-! ## The body on any staging buffers, case by case -/

set_option maxHeartbeats 1000000 in
/-- The body where the column tile is the first: both result buffers, found at any contents, are stored whole
    with zeros, read back, and stored again with the update. The pieces each ends with are the witness. -/
noncomputable def kernelRun0_A (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%d4, %f4, -, H4⟩, ⟨%d5, %f5, -, H5⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

set_option maxHeartbeats 1000000 in
/-- The body at a later column tile: both result buffers hold what the point before left, are read, and are stored
    whole once with the update. The pieces each ends with are the witness. -/
noncomputable def kernelRun0_B (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    Σ' (L4 : List (View.Piece (Elt F) S512x1 .f32)), { L5 : List (View.Piece (Elt F) S512x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo4 ∗ owns (c : Thread nD τ) arg5 fullShare xo5
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__contrastive_kernel i arg2 harg2 arg3 harg3 arg4 harg4 arg5 harg5) K } := by
  refine ⟨?_, ?_, fun E K => ?run⟩
  case run =>
    simp only [cc0__contrastive_kernel_eq_skeleton]; unfold cc0__contrastive_kernel_skel
    unfold owns
    iintro ⟨⟨%f0, %hf0, H0⟩, ⟨%f1, %hf1, H1⟩, ⟨%f4, %hf4, H4⟩, ⟨%f5, %hf5, H5⟩, Hk⟩
    obtain rfl := harg2.eq_unread hf0; obtain rfl := harg3.eq_unread hf1
    obtain rfl := harg4.eq_unread hf4; obtain rfl := harg5.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; iexact H4
    iexists _; iexact H5

/-! ## What each case leaves in the result buffers -/

/-- Where the column tile is the first, the positives' pieces (two whole stores) cover the block. -/
theorem cover0_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (y : S512x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S512x1.size (by sl_kernel_rfl) y
/-- and so do the negatives'. -/
theorem cover0_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (y : S512x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S512x1.size (by sl_kernel_rfl) y
/-- At a later column tile, the positives' one whole store covers the block. -/
theorem cover0_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (y : S512x1.Idx) :
    ∃ pc ∈ (kernelRun0_B c i arg2 harg2 arg3 harg3 arg4 harg4 arg5 harg5 hc0 x0 x1 xo4 xo5).1, y ∈ pc.1.set :=
  View.cover_of_tiledL (kernelRun0_B c i arg2 harg2 arg3 harg3 arg4 harg4 arg5 harg5 hc0 x0 x1 xo4 xo5).1 S512x1.size (by sl_kernel_rfl) y
/-- and so does the negatives'. -/
theorem cover0_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (y : S512x1.Idx) :
    ∃ pc ∈ (kernelRun0_B c i arg2 harg2 arg3 harg3 arg4 harg4 arg5 harg5 hc0 x0 x1 xo4 xo5).2.1, y ∈ pc.1.set :=
  View.cover_of_tiledL (kernelRun0_B c i arg2 harg2 arg3 harg3 arg4 harg4 arg5 harg5 hc0 x0 x1 xo4 xo5).2.1 S512x1.size (by sl_kernel_rfl) y

/-- What each case leaves in each result buffer: its pieces read back over junk. -/
def out0_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) : Vec F S512x1 .f32 :=
  VO.read (Elt F) (VO.writes (Elt F) VO.junk (kernelRun0_A c i arg2 harg2 arg3 harg3 arg4 harg4 arg5 harg5 hc0 x0 x1).1)
def out0_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) : Vec F S512x1 .f32 :=
  VO.read (Elt F) (VO.writes (Elt F) VO.junk (kernelRun0_A c i arg2 harg2 arg3 harg3 arg4 harg4 arg5 harg5 hc0 x0 x1).2.1)
def out0_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) : Vec F S512x1 .f32 :=
  VO.read (Elt F) (VO.writes (Elt F) VO.junk (kernelRun0_B c i arg2 harg2 arg3 harg3 arg4 harg4 arg5 harg5 hc0 x0 x1 xo4 xo5).1)
def out0_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) : Vec F S512x1 .f32 :=
  VO.read (Elt F) (VO.writes (Elt F) VO.junk (kernelRun0_B c i arg2 harg2 arg3 harg3 arg4 harg4 arg5 harg5 hc0 x0 x1 xo4 xo5).2.1)

/-- Where the column tile is the first, the positives' buffer ends at the update of the zero block: the later whole
    store covers, and what it read back is the zero block the earlier one left. -/
theorem out_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    out0_A_4 c i arg2 harg2 arg3 harg3 arg4 harg4 arg5 harg5 hc0 x0 x1 = posStep i x0 x1 (k0_pay2 (F := F)) := by
  unfold out0_A_4
  rw [View.read_writes_eq_canon _ _ _ (cover0_A_4 c i arg2 harg2 arg3 harg3 arg4 harg4 arg5 harg5 hc0 x0 x1)]
  unfold kernelRun0_A
  dsimp only
  sl_unfold_words
  rw [View.canon_cons_unit_zero (S := S512x1) hz, View.readCov_unit_zero (S := S512x1) _ hz]
  unfold posStep
  simp only [View.readAt_eq_ld, harg2.read_unread, harg3.read_unread, View.ld_unit_zero (S := S512x256) hz]

/-- and the negatives' likewise. -/
theorem out_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) :
    out0_A_5 c i arg2 harg2 arg3 harg3 arg4 harg4 arg5 harg5 hc0 x0 x1 = negStep i x0 x1 (k0_pay3 (F := F)) := by
  unfold out0_A_5
  rw [View.read_writes_eq_canon _ _ _ (cover0_A_5 c i arg2 harg2 arg3 harg3 arg4 harg4 arg5 harg5 hc0 x0 x1)]
  unfold kernelRun0_A
  dsimp only
  sl_unfold_words
  rw [View.canon_cons_unit_zero (S := S512x1) hz, View.readCov_unit_zero (S := S512x1) _ hz]
  unfold negStep
  simp only [View.readAt_eq_ld, harg2.read_unread, harg3.read_unread, View.ld_unit_zero (S := S512x256) hz]

/-- At a later column tile, the positives' buffer ends at the update of what it held: one whole store, whose
    payload read the whole buffers. -/
theorem out_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    out0_B_4 c i arg2 harg2 arg3 harg3 arg4 harg4 arg5 harg5 hc0 x0 x1 xo4 xo5 = posStep i x0 x1 xo4 := by
  unfold out0_B_4
  rw [View.read_writes_eq_canon _ _ _ (cover0_B_4 c i arg2 harg2 arg3 harg3 arg4 harg4 arg5 harg5 hc0 x0 x1 xo4 xo5)]
  unfold kernelRun0_B
  dsimp only
  sl_unfold_words
  rw [View.canon_unit_zero (S := S512x1) hz]
  unfold posStep
  simp only [View.readAt_eq_ld, harg2.read_unread, harg3.read_unread, harg4.read_unread,
    View.ld_unit_zero (S := S512x256) hz, View.ld_unit_zero (S := S512x1) hz]

/-- and the negatives' likewise. -/
theorem out_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) :
    out0_B_5 c i arg2 harg2 arg3 harg3 arg4 harg4 arg5 harg5 hc0 x0 x1 xo4 xo5 = negStep i x0 x1 xo5 := by
  unfold out0_B_5
  rw [View.read_writes_eq_canon _ _ _ (cover0_B_5 c i arg2 harg2 arg3 harg3 arg4 harg4 arg5 harg5 hc0 x0 x1 xo4 xo5)]
  unfold kernelRun0_B
  dsimp only
  sl_unfold_words
  rw [View.canon_unit_zero (S := S512x1) hz]
  unfold negStep
  simp only [View.readAt_eq_ld, harg2.read_unread, harg3.read_unread, harg5.read_unread,
    View.ld_unit_zero (S := S512x256) hz, View.ld_unit_zero (S := S512x1) hz]

/-- So whichever view the pieces were written through and whatever lay under them, the buffer reads the update. -/
theorem read_A_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (v : View sig .tc .vmem S512x1 .f32) (f : v.ty.Contents (Elt F)) :
    v.read (Elt F) (v.writes (Elt F) f (kernelRun0_A c i arg2 harg2 arg3 harg3 arg4 harg4 arg5 harg5 hc0 x0 x1).1) = posStep i x0 x1 (k0_pay2 (F := F)) :=
  (View.read_writes_of_cover v f VO VO.junk _ (cover0_A_4 c i arg2 harg2 arg3 harg3 arg4 harg4 arg5 harg5 hc0 x0 x1)).trans (out_A_4 c i arg2 harg2 arg3 harg3 arg4 harg4 arg5 harg5 hc0 x0 x1)
theorem read_A_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : cond0 i)
    (x0 x1 : Vec F S512x256 .bf16) (v : View sig .tc .vmem S512x1 .f32) (f : v.ty.Contents (Elt F)) :
    v.read (Elt F) (v.writes (Elt F) f (kernelRun0_A c i arg2 harg2 arg3 harg3 arg4 harg4 arg5 harg5 hc0 x0 x1).2.1) = negStep i x0 x1 (k0_pay3 (F := F)) :=
  (View.read_writes_of_cover v f VO VO.junk _ (cover0_A_5 c i arg2 harg2 arg3 harg3 arg4 harg4 arg5 harg5 hc0 x0 x1)).trans (out_A_5 c i arg2 harg2 arg3 harg3 arg4 harg4 arg5 harg5 hc0 x0 x1)
theorem read_B_4 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (v : View sig .tc .vmem S512x1 .f32) (f : v.ty.Contents (Elt F)) :
    v.read (Elt F) (v.writes (Elt F) f (kernelRun0_B c i arg2 harg2 arg3 harg3 arg4 harg4 arg5 harg5 hc0 x0 x1 xo4 xo5).1) = posStep i x0 x1 xo4 :=
  (View.read_writes_of_cover v f VO VO.junk _ (cover0_B_4 c i arg2 harg2 arg3 harg3 arg4 harg4 arg5 harg5 hc0 x0 x1 xo4 xo5)).trans (out_B_4 c i arg2 harg2 arg3 harg3 arg4 harg4 arg5 harg5 hc0 x0 x1 xo4 xo5)
theorem read_B_5 (c : Dev nD) (i : grid0.Coords)
    (arg2 : Memref sig .tc .vmem S512x256 .bf16) (harg2 : arg2.IsWhole)
    (arg3 : Memref sig .tc .vmem S512x256 .bf16) (harg3 : arg3.IsWhole)
    (arg4 : Memref sig .tc .vmem S512x1 .f32) (harg4 : arg4.IsWhole)
    (arg5 : Memref sig .tc .vmem S512x1 .f32) (harg5 : arg5.IsWhole) (hc0 : ¬cond0 i)
    (x0 x1 : Vec F S512x256 .bf16) (xo4 xo5 : Vec F S512x1 .f32) (v : View sig .tc .vmem S512x1 .f32) (f : v.ty.Contents (Elt F)) :
    v.read (Elt F) (v.writes (Elt F) f (kernelRun0_B c i arg2 harg2 arg3 harg3 arg4 harg4 arg5 harg5 hc0 x0 x1 xo4 xo5).2.1) = negStep i x0 x1 xo5 :=
  (View.read_writes_of_cover v f VO VO.junk _ (cover0_B_5 c i arg2 harg2 arg3 harg3 arg4 harg4 arg5 harg5 hc0 x0 x1 xo4 xo5)).trans (out_B_5 c i arg2 harg2 arg3 harg3 arg4 harg4 arg5 harg5 hc0 x0 x1 xo4 xo5)

/-! ## What the body finds in each staging buffer -/

/-- The row tile's input block is in its buffer at every point: fetched at the first column tile, and left in
    place by the body while the row tile does not move. -/
theorem before0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- The column tile's input block is fetched at every point. -/
theorem before1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- At a first column tile each result buffer is fresh: the point is the first of all, or the point before wrote
    the buffer back. -/
theorem before2_A (c : Dev nD) (t : Fin cfg0.N) (h0 : t.val % 8 = 0) (d) : (dats m ρ 0 c).before 2 t d = d :=
  Dat.before_out_reset _ 2 rfl t (by
    by_cases ht : t.val = 0
    · exact .inl ht
    · exact .inr ⟨ht, (flush0_2 _).mpr (by dsimp only; omega)⟩) d
theorem before3_A (c : Dev nD) (t : Fin cfg0.N) (h0 : t.val % 8 = 0) (d) : (dats m ρ 0 c).before 3 t d = d :=
  Dat.before_out_reset _ 3 rfl t (by
    by_cases ht : t.val = 0
    · exact .inl ht
    · exact .inr ⟨ht, (flush0_3 _).mpr (by dsimp only; omega)⟩) d

/-- At a later column tile each result buffer holds what the body left at the point before: it was not written
    back between. -/
theorem before2_B (c : Dev nD) (t : Fin cfg0.N) (h0 : ¬t.val % 8 = 0) (d) :
    (dats m ρ 0 c).before 2 t d = (outsAt m ρ c (t.val - 1) (Nat.lt_of_le_of_lt (Nat.sub_le _ _) t.isLt)).1 := by
  rw [Dat.before_out_kept _ 2 rfl t (by omega) (Bool.eq_false_iff.mpr fun h => by have := (flush0_2 _).mp h; dsimp only at this; omega)
    (fun _ => rfl) (fun _ _ => rfl)]
  dsimp only [dats]
theorem before3_B (c : Dev nD) (t : Fin cfg0.N) (h0 : ¬t.val % 8 = 0) (d) :
    (dats m ρ 0 c).before 3 t d = (outsAt m ρ c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    (fun _ => rfl) (fun _ _ => rfl)]
  dsimp only [dats]

/-- What the body leaves in the result buffers, case by case: the update from zero, or from what was found. -/
theorem after2_first (c : Dev nD) (t : Fin cfg0.N) (h0 : t.val % 8 = 0) :
    (dats m ρ 0 c).after 2 t = posStep (grid0.coords t) (iblk m ρ c 0 t) (iblk m ρ c 1 t) (k0_pay2 (F := F)) := by
  rw [after2, outsAt_first m ρ c t h0]
theorem after3_first (c : Dev nD) (t : Fin cfg0.N) (h0 : t.val % 8 = 0) :
    (dats m ρ 0 c).after 3 t = negStep (grid0.coords t) (iblk m ρ c 0 t) (iblk m ρ c 1 t) (k0_pay3 (F := F)) := by
  rw [after3, outsAt_first m ρ c t h0]
theorem after2_later (c : Dev nD) (t : Fin cfg0.N) (h0 : ¬t.val % 8 = 0) :
    (dats m ρ 0 c).after 2 t = posStep (grid0.coords t) (iblk m ρ c 0 t) (iblk m ρ c 1 t)
      (outsAt m ρ c (t.val - 1) (Nat.lt_of_le_of_lt (Nat.sub_le _ _) t.isLt)).1 := by
  rw [after2, outsAt_later m ρ c t h0]
theorem after3_later (c : Dev nD) (t : Fin cfg0.N) (h0 : ¬t.val % 8 = 0) :
    (dats m ρ 0 c).after 3 t = negStep (grid0.coords t) (iblk m ρ c 0 t) (iblk m ρ c 1 t)
      (outsAt m ρ c (t.val - 1) (Nat.lt_of_le_of_lt (Nat.sub_le _ _) t.isLt)).2 := by
  rw [after3, outsAt_later m ρ c t h0]

/-! ## The body obligation, at a generic point -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (ms0 t) fullShare ((dats m ρ 0 c).after 0 t)
    ∗ owns (c : Thread nD τ) (ms1 t) fullShare ((dats m ρ 0 c).after 1 t)
    ∗ owns (c : Thread nD τ) (ms2 t) fullShare ((dats m ρ 0 c).after 2 t)
    ∗ owns (c : Thread nD τ) (ms3 t) fullShare ((dats m ρ 0 c).after 3 t))

set_option maxHeartbeats 1600000 in
/-- The body at any point. The two input buffers hold their blocks; the point is a first column tile or a later one;
    in the first case the result buffers are fresh and the body restarts the sums from zero, in the second they hold
    the running sums and the body continues them; the invariant passes through unread; the core owes nothing. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0, before1]
  rw [show (dats m ρ 0 c).Φ t.succ = (dats m ρ 0 c).Φ t.castSucc from rfl,
    show (dats m ρ 0 c).owesAt () t.succ = (dats m ρ 0 c).owesAt () t.castSucc from rfl,
    after0, after1]
  by_cases h0 : t.val % 8 = 0
  · rw [after2_first m ρ c t h0, after3_first m ρ c t h0]
    simp only [before2_A m ρ c t h0, before3_A m ρ c t h0]
    iintro ⟨HΦ, Ho, ⟨%d0, H0⟩, ⟨%d1, H1⟩, ⟨%d2, H2⟩, ⟨%d3, H3⟩⟩
    iapply ((kernelRun0_A c (grid0.coords t) _ _ _ _ _ _ _ _ ((hcond0 t).mpr h0) (iblk m ρ c 0 t) (iblk m ρ c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read_A_4 c (grid0.coords t) _ _ _ _ _ _ _ _ ((hcond0 t).mpr h0) (iblk m ρ c 0 t) (iblk m ρ c 1 t) _ _
    unfold owns; iexists _; isplitr
    swap; · iexact H3
    ipureintro
    exact read_A_5 c (grid0.coords t) _ _ _ _ _ _ _ _ ((hcond0 t).mpr h0) (iblk m ρ c 0 t) (iblk m ρ c 1 t) _ _
  · rw [after2_later m ρ c t h0, after3_later m ρ c t h0]
    simp only [before2_B m ρ c t h0, before3_B m ρ c t h0]
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0 t).mp h)) (iblk m ρ c 0 t) (iblk m ρ c 1 t)
      (outsAt m ρ c (t.val - 1) (Nat.lt_of_le_of_lt (Nat.sub_le _ _) t.isLt)).1
      (outsAt m ρ c (t.val - 1) (Nat.lt_of_le_of_lt (Nat.sub_le _ _) t.isLt)).2).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read_B_4 c (grid0.coords t) _ _ _ _ _ _ _ _ (fun h => h0 ((hcond0 t).mp h)) (iblk m ρ c 0 t) (iblk m ρ c 1 t)
        (outsAt m ρ c (t.val - 1) (Nat.lt_of_le_of_lt (Nat.sub_le _ _) t.isLt)).1
        (outsAt m ρ c (t.val - 1) (Nat.lt_of_le_of_lt (Nat.sub_le _ _) t.isLt)).2 _ _
    unfold owns; iexists _; isplitr
    swap; · iexact H3
    ipureintro
    exact read_B_5 c (grid0.coords t) _ _ _ _ _ _ _ _ (fun h => h0 ((hcond0 t).mp h)) (iblk m ρ c 0 t) (iblk m ρ c 1 t)
      (outsAt m ρ c (t.val - 1) (Nat.lt_of_le_of_lt (Nat.sub_le _ _) t.isLt)).1
      (outsAt m ρ c (t.val - 1) (Nat.lt_of_le_of_lt (Nat.sub_le _ _) t.isLt)).2 _ _

/-- The library's body obligation, at every point. -/
theorem body_obligation (c : Dev nD) : BodyObligation (dats (F := F) m ρ 0 c) (defs₀ (F := F)) 𝒱₀ () Set.univ := fun t => by
  rw [bigSep_W0, bigSep_W0]
  exact sound_body m ρ c t

end Cert.Kernel.Hand

end
-- ==== Proof.WLaunch.lean ====
/-
  The launch: @main's run, from the body obligation of its one pipelined region.

  @main is eleven host operations (the last converts the projections to bf16: the ONE array behind both input
  windows), one pipelined region over four windows, and thirty-one host operations on the region's two results.
  Between two of these three segments a core holds every unscoped buffer whole at a valuation — the launch contents,
  then `StableHlo.after` the first stretch (`V1`), then the same with the two result arrays at what the write-backs of
  all 64 points left (`V2`), then `StableHlo.after` the second stretch (`V3`) — beside the core owing nothing and
  the generator register at some state.

  The region is entered by cutting the full points-to of the input array into two halves, one for each of the two
  windows on it (a points-to splits along its share), and left by joining the halves back: an input array is never
  written, so both halves still hold what the region found. The two result arrays pass whole; every other unscoped
  buffer bypasses the region.

  `run_main`: at the compiled mesh, from any memory whose semaphore counters are zero, every weakly fair execution of
  @main on the TensorCores terminates, and every final state holds `V3` at every unscoped buffer. `frame`: the three
  arguments end as launched (no host operation writes one, no window is on one).
-/
import proofs.«158364_j17669495456297_1_alg».proof.Proof.WData
import proofs.«158364_j17669495456297_1_alg».proof.Proof.WBody
import Idealize.ShloMosaic.Lib.Pipeline.Regions
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one -/

/-- The buffers behind the four windows are three: the two input windows are on one array. -/
theorem arrImage : (Finset.univ.image (Pipeline.arrRef spec0) : Finset (Ref sig .tc)) = [main_v4, main_v5_0, main_v5_1].toFinset := by decide

/-- Those three buffers, each whole at the full share at contents `W`, as a chain. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v4) ↦{fullShare} W main_v4) ∗ (((c.tc : Thread nD τ).loc main_v5_0) ↦{fullShare} W main_v5_0)
          ∗ (((c.tc : Thread nD τ).loc main_v5_1) ↦{fullShare} W main_v5_1)) := by
  unfold Pipeline.arrBufs
  exact bigSep_eq_bigSepL_of_eq [main_v4, main_v5_0, main_v5_1] arrImage (by decide) _

/-- The pipeline's arrays at contents `G`, window by window: each input window holds a half of the one input
    array, each result window its array whole. -/
theorem arrays_eq4 (c : Dev nD) (G : (w : Fin cfg0.W) → Buf (Elt F) ((cfg0.win w).arr.view.loc (c.tc : Thread nD τ))) :
    ((dats m ρ 0 c).arrays G : sProp 𝕄)
      = iprop((((c.tc : Thread nD τ).loc main_v4) ↦{fullShare.left} G 0) ∗ (((c.tc : Thread nD τ).loc main_v4) ↦{fullShare.right} G 1)
          ∗ (((c.tc : Thread nD τ).loc main_v5_0) ↦{fullShare} G 2) ∗ (((c.tc : Thread nD τ).loc main_v5_1) ↦{fullShare} G 3)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have s0 : (dats m ρ 0 c).share 0 = fullShare.left := by unfold Dat.share; rw [if_neg (by decide)]; dsimp only [dats]
  have s1 : (dats m ρ 0 c).share 1 = fullShare.right := by unfold Dat.share; rw [if_neg (by decide)]; dsimp only [dats]
  have s2 : (dats m ρ 0 c).share 2 = fullShare := by unfold Dat.share; rw [if_pos (by decide)]
  have s3 : (dats m ρ 0 c).share 3 = fullShare := by unfold Dat.share; rw [if_pos (by decide)]
  rw [h0, h2, h3, s0, s1, s2, s3]

/-! ## Entering and leaving the region: the one input array shared between its two windows -/

/-- An input window's array is never written: at every point it holds what the region found. -/
theorem arrAt_in0 (c : Dev nD) (n : ℕ) : (dats m ρ 0 c).arrAt 0 n = V m ρ c main_v4 :=
  ((dats (F := F) m ρ 0 c).arrAt_in 0 rfl n).trans (A_eq m ρ c 0)
theorem arrAt_in1 (c : Dev nD) (n : ℕ) : (dats m ρ 0 c).arrAt 1 n = V m ρ c main_v4 :=
  ((dats (F := F) m ρ 0 c).arrAt_in 1 rfl n).trans (A_eq m ρ c 1)

/-- ENTRY. The unscoped buffers as the host operations before the region left them are the pipeline's arrays at
    their entry contents and the unscoped rest: the full points-to of the one input array is cut in two halves,
    one for each of its windows. -/
theorem entry_arrays (c : Dev nD) :
    (StableHlo.held (c.tc : Thread nD τ) (Pipeline.ucRefs τ sig) (V1 m ρ c) : sProp 𝕄)
      ⊢ iprop((dats m ρ 0 c).arrays ((dats m ρ 0 c).arrAt · 0)
          ∗ Pipeline.unscopedRest (Ix := Unit) (Name := ℕ) (U := UR sig nD τ) (Lvl := ℕ) spec0 c (V m ρ c)) := by
  rw [← Pipeline.unscopedBufs_held (Ix := Unit) (Name := ℕ) (U := UR sig nD τ) (Lvl := ℕ) c (V1 m ρ c)]
  rw [Pipeline.unscopedBufs_split₀ cfgs 0 winFacts₀0.arr_unscoped c, arrBufs_eq, arrays_eq4]
  rw [arrAt_in0, arrAt_in1, show (dats m ρ 0 c).arrAt 2 0 = V m ρ c main_v5_0 from A_eq m ρ c 2,
    show (dats m ρ 0 c).arrAt 3 0 = V m ρ c main_v5_1 from A_eq m ρ c 3]
  refine sep_mono ?_ .rfl
  iintro ⟨H4, H50, H51⟩
  ihave H := (pointsTo_share (PosShare.mem_left_op_right fullShare)).1 $$ H4
  icases H with ⟨Hl, Hr⟩
  isplitl [Hl]; · iexact Hl
  isplitl [Hr]; · iexact Hr
  isplitl [H50] <;> iassumption

/-- What the region's exit valuation holds: the two result arrays as the write-backs left them, -/
theorem exitV_v51 (c : Dev nD) : V2 m ρ c (Proc.devRef .tc main_v5_1) = (dats m ρ 0 c).arrAt 3 cfg0.N := by
  simp only [V2, Function.update_self]
theorem exitV_v50 (c : Dev nD) : V2 m ρ c (Proc.devRef .tc main_v5_0) = (dats m ρ 0 c).arrAt 2 cfg0.N := by
  simp only [V2, Function.update_of_ne (StableHlo.devRef_ne_of_ne (by decide) : (Proc.devRef .tc main_v5_0 : DevRef τ sig) ≠ Proc.devRef .tc main_v5_1),
    Function.update_self]
/-- and every other buffer as the region found it. -/
theorem exitV_of (c : Dev nD) (b : Ref sig .tc) (h0 : b ≠ main_v5_0) (h1 : b ≠ main_v5_1) :
    V2 m ρ c (Proc.devRef .tc b) = V1 m ρ c (Proc.devRef .tc b) := by
  simp only [V2, Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]

/-- The unscoped buffers behind no window are untouched by the region. -/
theorem rest_exitV (c : Dev nD) :
    (Pipeline.unscopedRest (Ix := Unit) (Name := ℕ) (U := UR sig nD τ) (Lvl := ℕ) spec0 c (fun b => V2 m ρ c (Proc.devRef .tc b)) : sProp 𝕄)
      = Pipeline.unscopedRest (Ix := Unit) (Name := ℕ) (U := UR sig nD τ) (Lvl := ℕ) spec0 c (V m ρ c) := by
  unfold Pipeline.unscopedRest
  refine bigSep_congr fun b hb => ?_
  have hb' := (Finset.mem_sdiff.mp hb).2
  have h0 : b ≠ main_v5_0 := fun e => hb' (e ▸ (show main_v5_0 ∈ Finset.univ.image (Pipeline.arrRef spec0) by rw [arrImage]; decide))
  have h1 : b ≠ main_v5_1 := fun e => hb' (e ▸ (show main_v5_1 ∈ Finset.univ.image (Pipeline.arrRef spec0) by rw [arrImage]; decide))
  exact congrArg (fun x => ((c.tc : Thread nD τ).loc b ↦{fullShare} x : sProp 𝕄)) (exitV_of m ρ c b h0 h1)

/-- EXIT. The pipeline's arrays at their final contents and the unscoped rest are the unscoped buffers at the exit
    valuation: the two halves of the input array, both still at what the region found, are joined back into its
    full points-to; the result arrays are at what the write-backs of all the points left. -/
theorem exit_held (c : Dev nD) :
    iprop((dats m ρ 0 c).arrays ((dats m ρ 0 c).arrAt · cfg0.N)
        ∗ Pipeline.unscopedRest (Ix := Unit) (Name := ℕ) (U := UR sig nD τ) (Lvl := ℕ) spec0 c (V m ρ c))
      ⊢ (StableHlo.held (c.tc : Thread nD τ) (Pipeline.ucRefs τ sig) (V2 m ρ c) : sProp 𝕄) := by
  rw [← Pipeline.unscopedBufs_held (Ix := Unit) (Name := ℕ) (U := UR sig nD τ) (Lvl := ℕ) c (V2 m ρ c)]
  rw [Pipeline.unscopedBufs_split₀ cfgs 0 winFacts₀0.arr_unscoped c, arrBufs_eq, arrays_eq4, arrAt_in0, arrAt_in1, exitV_v50, exitV_v51,
    exitV_of m ρ c main_v4 (by decide) (by decide)]
  refine BIClass.sep_mono ?_ (Entails.of_eq (rest_exitV m ρ c).symm)
  iintro ⟨Hl, Hr, H50, H51⟩
  ihave H := (pointsTo_share (PosShare.mem_left_op_right fullShare)).2 $$ [Hl Hr]
  · isplitl [Hl] <;> iassumption
  isplitl [H]; · iexact H
  isplitl [H50] <;> iassumption

/-! ## @main as segments: eleven host operations, the region, thirty-one host operations -/

/-- No core owes another anything: no level is assigned. -/
abbrev noLev : GSem nD τ sig → Finset Unit := fun _ => ∅
abbrev lvZero : GSem nD τ sig → Unit → ℕ := fun _ _ => 0
/-- The prefetched tables' admissible contents: there is no table. -/
abbrev admNone : (p : Fin 1) → (pcfgs (F := F) p).Adm := fun p => (cfgs p).toPCfg_adm

/-- What rides beside the unscoped buffers from segment to segment: the core owing nothing, and the generator
    register at some state. -/
abbrev carried (c : Dev nD) : sProp 𝕄 :=
  iprop((∃ W, owes (c.tc : Thread nD τ) (0 : CellTallies nD τ sig Unit) W) ∗ ∃ r, prngReg c r)

/-- No host operation allocates a buffer. -/
theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The host operations before the region, over the unscoped buffers from the launch contents. -/
def hostBefore : Pipeline.HostSeg (Name := ℕ) (U := UR sig nD τ) (pcfgs (F := F)) defs₀ 𝒱₀ noLev lvZero :=
  Pipeline.HostSeg.ofOps _ _ _ _ _ (Pipeline.ucRefs τ sig) hostOps0
    (fun op h => Pipeline.sub_ucRefs op ((List.forall_iff_forall_mem.mp hostOps0_sub) op h)) fresh0 (V₀ m ρ) carried

/-- The host operations after the region, over the unscoped buffers from the region's exit valuation. -/
def hostAfter : Pipeline.HostSeg (Name := ℕ) (U := UR sig nD τ) (pcfgs (F := F)) defs₀ 𝒱₀ noLev lvZero :=
  Pipeline.HostSeg.ofOps _ _ _ _ _ (Pipeline.ucRefs τ sig) hostOps1
    (fun op h => Pipeline.sub_ucRefs op ((List.forall_iff_forall_mem.mp hostOps1_sub) op h)) fresh1 (V2 m ρ) carried

set_option backward.isDefEq.respectTransparency.types false in
/-- The region: the decided layout, no semaphore of its own, the body obligation; entered from the unscoped buffers as
    the first host stretch left them — the arrays into the pipeline, the generator register into the invariant, every
    other unscoped buffer bypassing —, left with the unscoped buffers at the exit valuation. -/
def theRegion : Pipeline.RegionSeg (pcfgs (F := F)) admNone (dats m ρ) () defs₀ 𝒱₀ noLev lvZero 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ noLev lvZero 0 fun _ _ => rfl
  pre c := iprop(StableHlo.held (c.tc : Thread nD τ) (Pipeline.ucRefs τ sig) (V1 m ρ c) ∗ carried c)
  post c := iprop(StableHlo.held (c.tc : Thread nD τ) (Pipeline.ucRefs τ sig) (V2 m ρ c) ∗ carried c)
  X c := iprop(∃ r, prngReg c r)
  Y c := iprop(∃ r, prngReg c r)
  Z c := Pipeline.unscopedRest (Ix := Unit) (Name := ℕ) (U := UR sig nD τ) (Lvl := ℕ) spec0 c (V m ρ c)
  hentry c := by
    iintro ⟨⟨Hh, HO, Hp⟩, -, -⟩
    ihave H := (entry_arrays m ρ c) $$ Hh
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := by
    rw [show (dats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m ρ 0 c).Φ (Fin.last cfg0.N) = Pipeline.ΦA spec0 c from rfl]; unfold Pipeline.ΦA
    iintro ⟨Hr, Hp⟩
    isplitl [Hp]; · iexact Hp
    isplitr; · iempintro
    iexact Hr
  hexit c := by
    iintro ⟨Ha, HO, HY, HZ⟩
    imodintro
    isplitl [Ha HZ]
    · iapply (exit_held m ρ c); isplitl [Ha] <;> iassumption
    isplitl [HO]
    · unfold Pipeline.Dat.owesAt Pipeline.owesWithin
      icases HO with ⟨%W, -, HO⟩; iexists W; iexact HO
    iexact HY

/-- @main as the list of the three. -/
abbrev mainSegs : List (Pipeline.Seg (pcfgs (F := F)) admNone (dats m ρ) () defs₀ 𝒱₀ noLev lvZero) :=
  [.host (hostBefore m ρ), .region (theRegion m ρ), .host (hostAfter m ρ)]

/-! ## The run -/

set_option backward.isDefEq.respectTransparency.types false in
/-- At the compiled mesh, from any memory whose semaphore counters are zero: every weakly fair execution of @main on
    the TensorCores terminates, and in every final state every unscoped buffer holds what the end valuation says —
    the launch contents carried through the first host stretch, the region's two results, the second host stretch. -/
theorem run_main : θ_run defs (onTc (τ := τ) (main (F := F))) ⟨m, fun _ => 0, ρ⟩
    (fun r => ∀ c : Dev nD, ∀ b : Ref sig .tc, b.isScoped = false →
      r.2.mem ((c.tc : Thread nD τ).loc b) = V3 m ρ c (Proc.devRef .tc b)) :=
  Pipeline.θ_run_regions_kit (pcfgs (F := F)) admNone (dats m ρ) () cellOf_inj emb₁ defs₀ 𝒱₀ noLev lvZero m ρ main (mainSegs m ρ)
    (fun c Q => by rw [main_segs admNone (dats m ρ) () 𝒱₀ noLev lvZero (hostBefore m ρ) (hostAfter m ρ) (theRegion m ρ) rfl rfl c])
    (by simp only [Pipeline.Seg.pipes_host, Pipeline.Seg.pipes_region, Pipeline.Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (V₀ m ρ c) ∗ carried c))
    (Tₙ := fun c => StableHlo.held (c.tc : Thread nD τ) (Pipeline.ucRefs τ sig) (V3 m ρ c))
    (hch := ⟨fun _ => .rfl, fun _ => .rfl, fun _ => .rfl, fun c => by
      change iprop(StableHlo.held (c.tc : Thread nD τ) (Pipeline.ucRefs τ sig) (V3 m ρ c) ∗ carried c) ⊢ _
      iintro ⟨Hh, HO, -⟩
      isplitl [Hh]; · iexact Hh
      iexact HO⟩)
    (hinit := by
      refine Pipeline.initEach noLev lvZero fun c => ?_
      rw [show unscopedBufs c (fun b => m ((c.tc : Thread nD τ).loc b)) = StableHlo.held (c.tc : Thread nD τ) (Pipeline.ucRefs τ sig) (V₀ m ρ c)
        from Pipeline.unscopedBufs_held c (V₀ m ρ c)]
      iintro ⟨⟨Hh, -, HO, -, Hp, -⟩, -⟩
      imodintro
      isplitl [Hh]; · iexact Hh
      isplitl [HO]; · iexists ∅; iexact HO
      iexists _; iexact Hp)
    (QY := fun c s => ∀ b : Ref sig .tc, b.isScoped = false → s.mem ((c.tc : Thread nD τ).loc b) = V3 m ρ c (Proc.devRef .tc b))
    (hfin := fun c s' => by
      unfold StableHlo.held
      iintro ⟨Hh, HSI⟩
      ihave Hr := (pointsTo_read_all (Pipeline.ucRefs τ sig) (fun b => ((c.tc : Thread nD τ).1, b)) (V3 m ρ c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, by
          show ¬ (b.isScoped = true); rw [hb]; exact Bool.false_ne_true⟩)
      · iexact HSI)
    (hQ := fun _ h => h)

/-! ## No operation and no window writes an argument -/

/-- The references the host operations before the region write, -/
abbrev written0 : List (Ref sig .tc) :=
  [main_c, main_c_0, main_c_1, main_c_2, main_v0, main_v1, main_cst, main_v2, main_cst_3, main_v3, main_v4]
/-- and those the host operations after it write. -/
abbrev written1 : List (Ref sig .tc) :=
  [main_v6, main_v7, main_v8, main_v9, main_v10, main_v11, main_cst_4, main_v12, main_cst_5, main_v13, main_v14, main_c_6, main_v15,
    main_v16, main_v17, main_v18, main_v19, main_c_7, main_v20, main_v21, main_v22, main_v23, main_v24, main_v25, main_v26, main_cst_8,
    main_v27, main_cst_9, main_v28, main_v29, main_v30]

theorem writes0 : (hostOps0 : List (HloOp τ sig (Elt F))).Forall fun op => op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      Finset.singleton_subset_iff, List.mem_toFinset]
    exact List.mem_map_of_mem (by decide)

theorem writes1 : (hostOps1 : List (HloOp τ sig (Elt F))).Forall fun op => op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes,
      Finset.singleton_subset_iff, List.mem_toFinset]
    exact List.mem_map_of_mem (by decide)

/-- A reference that neither host stretch writes and that is no result of the region holds at the end what it held
    at launch. -/
theorem V3_of_not_written (c : Dev nD) (r : Ref sig .tc) (h1 : r ∉ written1) (h50 : r ≠ main_v5_0) (h51 : r ≠ main_v5_1)
    (h0 : r ∉ written0) : V3 m ρ c (Proc.devRef .tc r) = m ((c.tc : Thread nD τ).loc r) :=
  (StableHlo.after_of_writes_sub hostOps1 _ writes1 h1).trans <| (exitV_of m ρ c r h50 h51).trans <|
    (StableHlo.after_of_writes_sub hostOps0 _ writes0 h0).trans rfl

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (by decide)).trans (V3_of_not_written m ρ c main_arg0 (by decide) (by decide) (by decide) (by decide)),
      (h c main_arg1 (by decide)).trans (V3_of_not_written m ρ c main_arg1 (by decide) (by decide) (by decide) (by decide)),
      (h c main_arg2 (by decide)).trans (V3_of_not_written m ρ c main_arg2 (by decide) (by decide) (by decide) (by decide))⟩) (run_main m ρ)

end Cert.Kernel.Hand

end
-- ==== Proof.RefTerms.lean ====
/-
  The reference program's result terms, named. Each definition is the composition of the host
  operations that produce one value of the reference's @main, as a pure function of the argument
  arrays (generic in the float instance): the mean squared reconstruction error, the similarity
  matrix `p pᵀ / 0.1`, the group id `r / 4` of each row, the block-diagonal group mask, the two
  masked row sums of `exp sim`, the contrastive loss as a function of those two row sums, and the
  pairwise distance loss.
-/
import proofs.«158364_j17669495456297_1_alg».proof.Proof.Gen.ReferenceIdeal

noncomputable section

namespace Cert.ReferenceIdeal.Terms

open Cert.ReferenceIdeal Idealize.ShloMosaic Idealize.ShloMosaic.TcCoe Idealize.SL.Sem
open Cert.ReferenceIdeal.Facts₀

variable {F : FTy → Type} [FloatOps F]

/-- A typed array of the program: the contents of a buffer of shape `S` and element type `e`. -/
abbrev Arr (F : FTy → Type) (S : Shape) (e : EltTy) : Type := (⟨S, e⟩ : BufTy).Contents (Elt F)

/-- mean((a₁ − a₂)²) over all 4096·2048 entries: the sum from zero, divided by 2²³. -/
def reconOf (a1 a2 : Arr F S4096x2048 .f32) : Arr F S_ .f32 :=
  Host.divf (Host.reduceAdd (mulf (subf a1 a2) (subf a1 a2)) (constant S_ .f32 0x00000000#32) reducesTo_S4096x2048_S_d0_1 h_S_)
    (constant S_ .f32 0x4B000000#32)

/-- The similarity matrix: (Σ_d p[r,d]·p[c,d]) divided by the float literal 0.1. -/
def simOf (p : Arr F S4096x256 .f32) : Arr F S4096x4096 .f32 :=
  Host.divf (Host.dotGeneral dot_S4096x256_S4096x256_S4096x4096_1_1_0_0_n_n none p p)
    (broadcastInDim S4096x4096 ![] bcast_S_S4096x4096 (constant S_ .f32 0x3DCCCCCD#32))

/-- The group id of each row, `r // 4`, as jax's floor division spells it: the truncated quotient,
    lowered by one where the signs differ and the remainder is not zero. -/
def idsOf : Arr F S4096 .i32 :=
  let x : Arr F S4096 .i32 := iotaInDim S4096 32 0
  let k : Arr F S_ .i32 := id (constantI S_ 32 4#32)
  let q : Arr F S4096 .i32 := Host.divsi x (broadcastInDim S4096 ![] bcast_S_S4096 k)
  let sx : Arr F S4096 .i32 := signi x
  let sk : Arr F S4096 .i32 := broadcastInDim S4096 ![] bcast_S_S4096 (signi k)
  let r : Arr F S4096 .i32 := Host.remsi x (broadcastInDim S4096 ![] bcast_S_S4096 k)
  let nz : Arr F S4096 .i1 := cmpi .ne r (broadcastInDim S4096 ![] bcast_S_S4096 (constantI S_ 32 0#32))
  select (andi (cmpi .ne sx sk) nz) (subi q (broadcastInDim S4096 ![] bcast_S_S4096 (constantI S_ 32 1#32))) q

/-- The block-diagonal mask: entry (r, c) says whether rows r and c have the same group id. -/
def groupOf : Arr F S4096x4096 .i1 :=
  cmpi .eq
    (broadcastInDim S4096x4096 ![0, 1] bcast_S4096x1_S4096x4096_0_1 (broadcastInDim S4096x1 ![0] bcast_S4096_S4096x1_0 (idsOf (F := F))))
    (broadcastInDim S4096x4096 ![0, 1] bcast_S1x4096_S4096x4096_0_1 (broadcastInDim S1x4096 ![1] bcast_S4096_S1x4096_1 (idsOf (F := F))))

/-- exp of the similarity matrix. -/
def expOf (p : Arr F S4096x256 .f32) : Arr F S4096x4096 .f32 := Host.exp (simOf p)

/-- The positives' mask: same group and similarity not equal to one. -/
def posMaskOf (p : Arr F S4096x256 .f32) : Arr F S4096x4096 .i1 :=
  andi (groupOf (F := F))
    (cmpf .une (simOf p) (broadcastInDim S4096x4096 ![] bcast_S_S4096x4096 (constant S_ .f32 0x3F800000#32)))

/-- Row sums, from zero, of exp sim over the positives (zero elsewhere). -/
def posOf (p : Arr F S4096x256 .f32) : Arr F S4096 .f32 :=
  Host.reduceAdd
    (select (posMaskOf p) (expOf p) (broadcastInDim S4096x4096 ![] bcast_S_S4096x4096 (id (constant S_ .f32 0x00000000#32))))
    (constant S_ .f32 0x00000000#32) reducesTo_S4096x4096_S4096_d1 h_S_

/-- Row sums, from zero, of exp sim outside the row's group (zero inside it). -/
def negOf (p : Arr F S4096x256 .f32) : Arr F S4096 .f32 :=
  Host.reduceAdd
    (select (groupOf (F := F)) (broadcastInDim S4096x4096 ![] bcast_S_S4096x4096 (id (constant S_ .f32 0x00000000#32))) (expOf p))
    (constant S_ .f32 0x00000000#32) reducesTo_S4096x4096_S4096_d1 h_S_

/-- mean over the rows of −log(pos / (pos + neg)): the sum from zero, divided by 4096. -/
def clossOf (pos neg : Arr F S4096 .f32) : Arr F S_ .f32 :=
  Host.divf
    (Host.reduceAdd (Host.negf (Host.log (Host.divf pos (addf pos neg)))) (constant S_ .f32 0x00000000#32) reducesTo_S4096_S_d0 h_S_)
    (constant S_ .f32 0x45800000#32)

/-- The index column of one side of the six subset pairs: the literal table, with the table plus four
    selected nowhere (the selecting mask is constantly false), as a 6×1 column. -/
def pairCol (lit : Fin 6 → BitVec 32) : Arr F S6x1 .i32 :=
  let t : Arr F S6 .i32 := fun i => lit (S6.rowMajor i)
  broadcastInDim S6x1 ![0] bcast_S6_S6x1_0
    (select (constantI S6 1 0#1) (addi t (broadcastInDim S6 ![] bcast_S_S6 (constantI S_ 32 4#32))) t)

/-- mean over groups, pairs and features of (p[4g + left] − p[4g + right])²: the sum from zero, divided by 1024·6·256. -/
def distOf (p : Arr F S4096x256 .f32) : Arr F S_ .f32 :=
  let pg : Arr F S1024x4x256 .f32 := shapeCast S1024x4x256 p shapeCasts_S4096x256_S1024x4x256
  let l : Arr F S1024x6x256 .f32 := Host.gather gather_S1024x4x256_S6x1_S1024x6x256_02_1_n_n_1_1_10241256 pg (pairCol (F := F) lit0)
  let r : Arr F S1024x6x256 .f32 := Host.gather gather_S1024x4x256_S6x1_S1024x6x256_02_1_n_n_1_1_10241256 pg (pairCol (F := F) lit1)
  Host.divf (Host.reduceAdd (mulf (subf l r) (subf l r)) (constant S_ .f32 0x00000000#32) reducesTo_S1024x6x256_S_d0_1_2 h_S_)
    (constant S_ .f32 0x49C00000#32)

end Cert.ReferenceIdeal.Terms

end
-- ==== Proof.KTail.lean ====
/-
  The kernel program's four results, read off the buffers at the end of its run.

  After the region the program applies, to the two arrays of row sums, the same host operations the
  reference applies to its own two row sums (reshape to a vector, pos / (pos + neg), log, negate, mean),
  and computes the reconstruction loss and the distance loss from the arguments alone, by the same
  operations as the reference, in the same order. So each result is the reference's named term, once
  the two arrays of row sums are known index by index.
-/
import proofs.«158364_j17669495456297_1_alg».proof.Proof.KData
import proofs.«158364_j17669495456297_1_alg».proof.Proof.RefTerms
import Idealize.ShloMosaic.Lib.StableHlo.Run
import Idealize.ShloMosaic.Lib.ValueIdx
import Idealize.ShloMosaic.Lib.Pipeline.Value

noncomputable section

namespace Cert.KernelIdeal.Tail

open Cert.KernelIdeal Cert.KernelIdeal.Gen Cert.KernelIdeal.Hand
open Idealize.ShloMosaic Idealize.ShloMosaic.TcCoe Idealize.SL.Sem Idealize.ShloMosaic.StableHlo Idealize.ShloMosaic.ValueIdx
open Cert.ReferenceIdeal.Terms (Arr reconOf clossOf distOf)

variable (m : (ℓ : Loc nD τ sig) → Buf (Elt Ideal) ℓ) (ρ : Dev nD → PrngReg)

/-! ## The buffers when the region is left -/

theorem V2_v5_0 (c : Dev nD) : V2 m ρ c (Proc.devRef .tc main_v5_0) = (dats m ρ 0 c).arrAt 2 cfg0.N := by
  show Function.update (Function.update (V1 m ρ c) main_v5_0 _) main_v5_1 _ (Proc.devRef .tc main_v5_0) = _
  rw [Function.update_of_ne (StableHlo.devRef_ne_of_ne (by decide) : (Proc.devRef .tc main_v5_0 : DevRef τ sig) ≠ Proc.devRef .tc main_v5_1)]
  exact Function.update_self ..

theorem V2_v5_1 (c : Dev nD) : V2 m ρ c (Proc.devRef .tc main_v5_1) = (dats m ρ 0 c).arrAt 3 cfg0.N :=
  Function.update_self ..

/-- A buffer that is neither result array is, when the region is left, as it was when the region was entered. -/
theorem V2_of (c : Dev nD) (r : Ref sig .tc) (h0 : r ≠ main_v5_0) (h1 : r ≠ main_v5_1) :
    V2 m ρ c (Proc.devRef .tc r) = V1 m ρ c (Proc.devRef .tc r) := by
  show Function.update (Function.update (V1 m ρ c) main_v5_0 _) main_v5_1 _ (Proc.devRef .tc r) = _
  rw [Function.update_of_ne (StableHlo.devRef_ne_of_ne h1 : (Proc.devRef .tc r : DevRef τ sig) ≠ Proc.devRef .tc main_v5_1),
    Function.update_of_ne (StableHlo.devRef_ne_of_ne h0 : (Proc.devRef .tc r : DevRef τ sig) ≠ Proc.devRef .tc main_v5_0)]

/-! ## The buffers when the region is entered: what the host operations before it wrote -/

theorem V1_arg0 (c : Dev nD) : V1 m ρ c (Proc.devRef .tc main_arg0) = m ((c.tc : Thread nD τ).loc main_arg0) := by
  show StableHlo.after hostOps0 (V₀ m ρ c) (Proc.devRef .tc main_arg0) = _
  after_results
theorem V1_arg1 (c : Dev nD) : V1 m ρ c (Proc.devRef .tc main_arg1) = m ((c.tc : Thread nD τ).loc main_arg1) := by
  show StableHlo.after hostOps0 (V₀ m ρ c) (Proc.devRef .tc main_arg1) = _
  after_results
theorem V1_arg2 (c : Dev nD) : V1 m ρ c (Proc.devRef .tc main_arg2) = m ((c.tc : Thread nD τ).loc main_arg2) := by
  show StableHlo.after hostOps0 (V₀ m ρ c) (Proc.devRef .tc main_arg2) = _
  after_results
/-- The reconstruction loss is computed before the region. -/
theorem V1_v3 (c : Dev nD) : V1 m ρ c (Proc.devRef .tc main_v3) = reconOf (F := Ideal) (m ((c.tc : Thread nD τ).loc main_arg1)) (m ((c.tc : Thread nD τ).loc main_arg2)) := by
  show StableHlo.after hostOps0 (V₀ m ρ c) (Proc.devRef .tc main_v3) = _
  after_results
  rfl
/-- The four constant tables of the distance loss are written before the region. -/
theorem V1_c (c : Dev nD) : V1 m ρ c (Proc.devRef .tc main_c) = (fun i => lit0 (S6.rowMajor i)) := by
  show StableHlo.after hostOps0 (V₀ m ρ c) (Proc.devRef .tc main_c) = _
  after_results
  rfl
theorem V1_c_0 (c : Dev nD) : V1 m ρ c (Proc.devRef .tc main_c_0) = constantI S6 1 0#1 := by
  show StableHlo.after hostOps0 (V₀ m ρ c) (Proc.devRef .tc main_c_0) = _
  after_results
theorem V1_c_1 (c : Dev nD) : V1 m ρ c (Proc.devRef .tc main_c_1) = (fun i => lit1 (S6.rowMajor i)) := by
  show StableHlo.after hostOps0 (V₀ m ρ c) (Proc.devRef .tc main_c_1) = _
  after_results
  rfl
theorem V1_c_2 (c : Dev nD) : V1 m ρ c (Proc.devRef .tc main_c_2) = constantI S6 1 0#1 := by
  show StableHlo.after hostOps0 (V₀ m ρ c) (Proc.devRef .tc main_c_2) = _
  after_results

/-! ## The results -/

/-- The reconstruction loss. -/
theorem res_v3 (c : Dev nD) : V3 m ρ c (Proc.devRef .tc main_v3) = reconOf (F := Ideal) (m ((c.tc : Thread nD τ).loc main_arg1)) (m ((c.tc : Thread nD τ).loc main_arg2)) := by
  show StableHlo.after hostOps1 (V2 m ρ c) (Proc.devRef .tc main_v3) = _
  after_results_simp
  rw [V2_of m ρ c main_v3 (by decide) (by decide)]
  exact V1_v3 m ρ c

/-- The distance loss. -/
theorem res_v28 (c : Dev nD) : V3 m ρ c (Proc.devRef .tc main_v28) = distOf (F := Ideal) (m ((c.tc : Thread nD τ).loc main_arg0)) := by
  show StableHlo.after hostOps1 (V2 m ρ c) (Proc.devRef .tc main_v28) = _
  after_results_simp
  rw [V2_of m ρ c main_arg0 (by decide) (by decide), V2_of m ρ c main_c (by decide) (by decide), V2_of m ρ c main_c_0 (by decide) (by decide),
    V2_of m ρ c main_c_1 (by decide) (by decide), V2_of m ρ c main_c_2 (by decide) (by decide),
    V1_arg0, V1_c, V1_c_0, V1_c_1, V1_c_2]
  rfl

/-- A result array reshaped to a vector, read at a row. -/
theorem reshape_col (X : (⟨2, ![4096, 1]⟩ : Shape).Idx → EReal) (h : (⟨2, ![4096, 1]⟩ : Shape).ShapeCasts ⟨1, ![4096]⟩) (r : Fin 4096) :
    shapeCast (⟨1, ![4096]⟩ : Shape) X h (ix1 r) = X (ix2 r (0 : Fin 1)) :=
  shapeCast_apply X h (ix1 r) (ix2 r (0 : Fin 1)) (by rw [Shape.rowMajor_val_two, Shape.rowMajor_val_one]; simp)

/-- The contrastive loss, given the two arrays of row sums index by index. -/
theorem res_v13 (c : Dev nD) (P N : Arr Ideal Cert.ReferenceIdeal.S4096 .f32)
    (hP : ∀ r : Fin 4096, (dats (F := Ideal) m ρ 0 c).arrAt 2 cfg0.N (ix2 r (0 : Fin 1)) = P (ix1 r))
    (hN : ∀ r : Fin 4096, (dats (F := Ideal) m ρ 0 c).arrAt 3 cfg0.N (ix2 r (0 : Fin 1)) = N (ix1 r)) :
    V3 m ρ c (Proc.devRef .tc main_v13) = clossOf (F := Ideal) P N := by
  show StableHlo.after hostOps1 (V2 m ρ c) (Proc.devRef .tc main_v13) = _
  after_results_simp
  refine (congrArg₂ (clossOf (F := Ideal)) (?_ : _ = P) (?_ : _ = N) : clossOf (F := Ideal) _ _ = clossOf (F := Ideal) P N)
  · funext i
    obtain ⟨r, rfl⟩ : ∃ r : Fin 4096, i = ix1 r := ⟨i 0, eq_ix1 i⟩
    show shapeCast (⟨1, ![4096]⟩ : Shape) (V2 m ρ c (Proc.devRef .tc main_v5_0)) _ (ix1 r) = P (ix1 r)
    rw [V2_v5_0]
    exact (reshape_col _ _ r).trans (hP r)
  · funext i
    obtain ⟨r, rfl⟩ : ∃ r : Fin 4096, i = ix1 r := ⟨i 0, eq_ix1 i⟩
    show shapeCast (⟨1, ![4096]⟩ : Shape) (V2 m ρ c (Proc.devRef .tc main_v5_1)) _ (ix1 r) = N (ix1 r)
    rw [V2_v5_1]
    exact (reshape_col _ _ r).trans (hN r)

/-- The total: reconstruction plus contrastive plus distance, added in that order. -/
theorem res_v30 (c : Dev nD) :
    (V3 m ρ c (Proc.devRef .tc main_v30) : FVec Ideal S_ .f32)
      = addf (F := Ideal) (φ := .f32) (addf (F := Ideal) (φ := .f32) (V3 m ρ c (Proc.devRef .tc main_v3) : FVec Ideal S_ .f32) (V3 m ρ c (Proc.devRef .tc main_v13) : FVec Ideal S_ .f32))
          (V3 m ρ c (Proc.devRef .tc main_v28) : FVec Ideal S_ .f32) := by
  show StableHlo.after hostOps1 (V2 m ρ c) (Proc.devRef .tc main_v30)
    = addf (F := Ideal) (φ := .f32) (addf (F := Ideal) (φ := .f32) (StableHlo.after hostOps1 (V2 m ρ c) (Proc.devRef .tc main_v3)) (StableHlo.after hostOps1 (V2 m ρ c) (Proc.devRef .tc main_v13)))
        (StableHlo.after hostOps1 (V2 m ρ c) (Proc.devRef .tc main_v28))
  after_results_simp

/-- The arguments end as launched. -/
theorem res_arg0 (c : Dev nD) : V3 m ρ c (Proc.devRef .tc main_arg0) = m ((c.tc : Thread nD τ).loc main_arg0) := by
  show StableHlo.after hostOps1 (V2 m ρ c) (Proc.devRef .tc main_arg0) = _
  after_results_simp
  rw [V2_of m ρ c main_arg0 (by decide) (by decide)]
  exact V1_arg0 m ρ c

theorem res_arg1 (c : Dev nD) : V3 m ρ c (Proc.devRef .tc main_arg1) = m ((c.tc : Thread nD τ).loc main_arg1) := by
  show StableHlo.after hostOps1 (V2 m ρ c) (Proc.devRef .tc main_arg1) = _
  after_results_simp
  rw [V2_of m ρ c main_arg1 (by decide) (by decide)]
  exact V1_arg1 m ρ c
theorem res_arg2 (c : Dev nD) : V3 m ρ c (Proc.devRef .tc main_arg2) = m ((c.tc : Thread nD τ).loc main_arg2) := by
  show StableHlo.after hostOps1 (V2 m ρ c) (Proc.devRef .tc main_arg2) = _
  after_results_simp
  rw [V2_of m ρ c main_arg2 (by decide) (by decide)]
  exact V1_arg2 m ρ c

end Cert.KernelIdeal.Tail

end
-- ==== Proof.Spec.lean ====
/-
  The mathematics both programs compute, over the extended reals, index by index.

  `p` is the 4096 × 256 array of projections. The similarity of rows `r` and `c` is their inner
  product divided by the float literal 0.1 (its exact binary value, the same word in both programs).
  Rows `r` and `c` are in one group when `r / 4 = c / 4`. The positives' term at `(r, c)` is
  `exp (sim r c)` when the two rows are in one group and the similarity is not the number one, else
  zero; the negatives' term is `exp (sim r c)` when they are in different groups, else zero. The two
  row sums are taken from zero.

  The kernel visits the columns in eight tiles of 512: a tile's partial row sum is taken from zero,
  and the running total starts at zero and adds the tiles' partial sums in order. Addition on the
  extended reals is commutative and associative with neutral element zero, so the running total
  after the eighth tile is the row sum over all 4096 columns (`SpecSum`).
-/
import Idealize.ShloMosaic.Lib.ValueIdx

noncomputable section

open scoped BigOperators

namespace Cert.Spec

open Idealize.ShloMosaic Idealize.ShloMosaic.ValueIdx

/-- The projections, as extended reals. -/
abbrev Proj : Type := (⟨2, ![4096, 256]⟩ : Shape).Idx → EReal

/-- The divisor: the float literal 0.1 at its exact binary value. -/
def tau : EReal := Ideal.ofBits .f32 0x3DCCCCCD#32

/-- The float literal 1.0. -/
def one : EReal := Ideal.ofBits .f32 0x3F800000#32

/-- The inner product of rows `r` and `c`. -/
def dot (p : Proj) (r c : Fin 4096) : EReal := ∑ k : Fin 256, p (ix2 r k) * p (ix2 c k)

/-- The similarity of rows `r` and `c`. -/
def sim (p : Proj) (r c : Fin 4096) : EReal := Ideal.div (dot p r c) tau

/-- The positives' term at `(r, c)`. -/
def posTerm (p : Proj) (r c : Fin 4096) : EReal :=
  if r.val / 4 = c.val / 4 ∧ sim p r c ≠ one then Ideal.exp (sim p r c) else 0

/-- The negatives' term at `(r, c)`. -/
def negTerm (p : Proj) (r c : Fin 4096) : EReal :=
  if r.val / 4 = c.val / 4 then 0 else Ideal.exp (sim p r c)

/-- Row `r`'s sum of the positives' terms over all columns, from zero. -/
def posSum (p : Proj) (r : Fin 4096) : EReal := 0 + ∑ c : Fin 4096, posTerm p r c

/-- Row `r`'s sum of the negatives' terms over all columns, from zero. -/
def negSum (p : Proj) (r : Fin 4096) : EReal := 0 + ∑ c : Fin 4096, negTerm p r c

/-- Column `c'` of column tile `j`: column `512 j + c'`. -/
def col (j : Fin 8) (c' : Fin 512) : Fin 4096 := ⟨512 * j.val + c'.val, by omega⟩

/-- Row `r'` of row tile `i`: row `512 i + r'`. -/
def row (i : Fin 8) (r' : Fin 512) : Fin 4096 := ⟨512 * i.val + r'.val, by omega⟩

/-- A column tile's partial sum of a term `f` along row `r`, from zero. -/
def tileSum (f : Fin 4096 → EReal) (j : Fin 8) : EReal := 0 + ∑ c' : Fin 512, f (col j c')

/-- The running total of `f`'s tile sums: zero before the first tile, then each tile's partial sum
    added on the right, in order (tiles beyond the eighth add nothing). -/
def runSum (f : Fin 4096 → EReal) : Nat → EReal
  | 0 => 0
  | n + 1 => if h : n < 8 then runSum f n + tileSum f ⟨n, h⟩ else runSum f n

/-! ## One grid point, over the two blocks it is handed -/

/-- A 512-row block of the projections. -/
abbrev Blk : Type := (⟨2, ![512, 256]⟩ : Shape).Idx → EReal

/-- The inner product of row `r'` of block `a` and row `c'` of block `b`. -/
def dotT (a b : Blk) (r' c' : Fin 512) : EReal := ∑ k : Fin 256, a (ix2 r' k) * b (ix2 c' k)

/-- Their similarity. -/
def simT (a b : Blk) (r' c' : Fin 512) : EReal := Ideal.div (dotT a b r' c') tau

/-- The positives' term of grid point `(gi, gj)` at `(r', c')`: global row `512 gi + r'`, global column `512 gj + c'`. -/
def posTermT (gi gj : Nat) (a b : Blk) (r' c' : Fin 512) : EReal :=
  if (512 * gi + r'.val) / 4 = (512 * gj + c'.val) / 4 ∧ simT a b r' c' ≠ one then Ideal.exp (simT a b r' c') else 0

/-- The negatives' term of grid point `(gi, gj)` at `(r', c')`. -/
def negTermT (gi gj : Nat) (a b : Blk) (r' c' : Fin 512) : EReal :=
  if (512 * gi + r'.val) / 4 = (512 * gj + c'.val) / 4 then 0 else Ideal.exp (simT a b r' c')

end Cert.Spec

end
-- ==== Proof.SpecSum.lean ====
/-
  A tiled running sum is the whole sum.

  The 4096 columns split into eight tiles of 512 through the bijection `(j, c') ↦ 512 j + c'`.
  Addition on the extended reals is a commutative monoid (no finiteness is needed), so the sum over
  all columns is the sum over the tiles of each tile's sum, and the eight left-nested additions of
  the running total, each tile's partial sum itself taken from zero, fold to that sum.
-/
import proofs.«158364_j17669495456297_1_alg».proof.Proof.Spec
import Mathlib.Algebra.BigOperators.Fin
import Mathlib.Algebra.BigOperators.Group.Finset.Defs
import Mathlib.Data.Fintype.BigOperators

noncomputable section

open scoped BigOperators

namespace Cert.Spec

/-- Before the first tile the running total is zero. -/
theorem runSum_zero (f : Fin 4096 → EReal) : runSum f 0 = 0 := by
  rw [runSum]

/-- One step of the running total: tile `j`'s partial sum is added on the right. -/
theorem runSum_succ (f : Fin 4096 → EReal) (j : Fin 8) :
    runSum f (j.val + 1) = runSum f j.val + tileSum f j := by
  rw [runSum, dif_pos j.isLt]

/-- The bijection `(j, c') ↦ 512 j + c'` between (tile, column in tile) and columns; its inverse
    is `c ↦ (c / 512, c % 512)`. -/
def colEquiv : Fin 8 × Fin 512 ≃ Fin 4096 where
  toFun x := col x.1 x.2
  invFun c := (⟨c.val / 512, by omega⟩, ⟨c.val % 512, by omega⟩)
  left_inv := by
    rintro ⟨j, c'⟩
    apply Prod.ext
    · apply Fin.ext
      show (512 * j.val + c'.val) / 512 = j.val
      omega
    · apply Fin.ext
      show (512 * j.val + c'.val) % 512 = c'.val
      omega
  right_inv := by
    intro c
    apply Fin.ext
    show 512 * (c.val / 512) + c.val % 512 = c.val
    omega

/-- The sum over all columns is the sum over the eight tiles of the sum over a tile's columns. -/
theorem sum_tiles (f : Fin 4096 → EReal) :
    ∑ c : Fin 4096, f c = ∑ j : Fin 8, ∑ c' : Fin 512, f (col j c') := by
  rw [← Fintype.sum_prod_type']
  exact (Fintype.sum_equiv colEquiv (fun x => f (col x.1 x.2)) f (fun _ => rfl)).symm

/-- After the eighth tile the running total is the whole row sum, from zero. -/
theorem runSum_eight (f : Fin 4096 → EReal) : runSum f 8 = 0 + ∑ c : Fin 4096, f c := by
  have e1 : runSum f 1 = runSum f 0 + tileSum f 0 := runSum_succ f 0
  have e2 : runSum f 2 = runSum f 1 + tileSum f 1 := runSum_succ f 1
  have e3 : runSum f 3 = runSum f 2 + tileSum f 2 := runSum_succ f 2
  have e4 : runSum f 4 = runSum f 3 + tileSum f 3 := runSum_succ f 3
  have e5 : runSum f 5 = runSum f 4 + tileSum f 4 := runSum_succ f 4
  have e6 : runSum f 6 = runSum f 5 + tileSum f 5 := runSum_succ f 5
  have e7 : runSum f 7 = runSum f 6 + tileSum f 6 := runSum_succ f 6
  have e8 : runSum f 8 = runSum f 7 + tileSum f 7 := runSum_succ f 7
  rw [e8, e7, e6, e5, e4, e3, e2, e1, runSum_zero, sum_tiles, Fin.sum_univ_eight]
  simp only [tileSum, zero_add]

/-- The running total of the positives' terms after the eighth tile is the positives' row sum. -/
theorem runSum_pos (p : Proj) (r : Fin 4096) : runSum (posTerm p r) 8 = posSum p r := by
  unfold posSum
  exact runSum_eight _

/-- The running total of the negatives' terms after the eighth tile is the negatives' row sum. -/
theorem runSum_neg (p : Proj) (r : Fin 4096) : runSum (negTerm p r) 8 = negSum p r := by
  unfold negSum
  exact runSum_eight _

end Cert.Spec

end
-- ==== Proof.KMask.lean ====
import proofs.«158364_j17669495456297_1_alg».proof.Proof.Gen.KernelIdeal.Skeleton
import Idealize.ShloMosaic.Lib.ValueIdx

/-! The group mask of the kernel body read at one index of its 512×512 block.

At block coordinates `i` and in-block index `(r', c')` the mask compares the floor quotients by 4 of the global row
`512 · i₀ + r'` and the global column `512 · i₁ + c'`, each computed on 32-bit words as the truncated signed quotient
less one where the signs of dividend and divisor differ and the remainder is not zero. Both globals are below 4096,
where the signed operations are the naturals' and the correction never applies; so the mask bit is 1 exactly when the two
natural quotients agree. -/

namespace Cert.KernelIdeal.Mask

open Idealize.ShloMosaic Idealize.ShloMosaic.ValueIdx Cert.KernelIdeal Cert.KernelIdeal.Gen

/-! ## Floor division by 4 at a word -/

/-- The correction bit of floor division by 4 at a word `x`: sign(x) − sign(4) is not zero (the signs differ) and the
    truncated remainder of `x` by 4 is not zero. -/
def corr4 (x : BitVec 32) : BitVec 1 :=
  IntOp.andi
    (IntOp.cmpi .ne
      (IntOp.subi ((IntOp.cmpi .sgt x 0#32).setWidth 32) ((IntOp.cmpi .slt x 0#32).setWidth 32))
      (Scalar.subi (Scalar.extui (Scalar.cmpi .sgt 4#32 0#32)) (Scalar.extui (Scalar.cmpi .slt 4#32 0#32))))
    (IntOp.cmpi .ne (IntOp.remsi .vector x 4#32) 0#32)

/-- Floor division by 4 at a word: the truncated signed quotient, less one where the correction bit is set. -/
def floorDiv4 (x : BitVec 32) : BitVec 32 :=
  Scalar.select (corr4 x) (IntOp.subi (IntOp.divsi .vector x 4#32) 1#32) (IntOp.divsi .vector x 4#32)

/-- On the words of the naturals below 4096 floor division by 4 is the naturals' quotient: a closed statement over
    4096 words, each side computed. (At such a word the sign is 1 unless the word is 0, whose remainder is 0: the
    correction bit is never set, and the truncated signed quotient of a non-negative word is the unsigned one.) -/
theorem floorDiv4_table : ∀ n : Fin 4096, floorDiv4 (BitVec.ofNat 32 n.val) = BitVec.ofNat 32 (n.val / 4) := by
  decide +kernel

/-- The same, at a natural with its bound. -/
theorem floorDiv4_ofNat (n : Nat) (hn : n < 4096) : floorDiv4 (BitVec.ofNat 32 n) = BitVec.ofNat 32 (n / 4) :=
  floorDiv4_table ⟨n, hn⟩

/-! ## The words of the global indices -/

/-- The word `i · 512 + r` is the word of the natural `512 · i + r` (words add and multiply modulo 2³², as the
    naturals' words do). -/
theorem global_word (a r : Nat) : BitVec.ofNat 32 a * 512#32 + BitVec.ofNat 32 r = BitVec.ofNat 32 (512 * a + r) := by
  rw [BitVec.ofNat_add, BitVec.ofNat_mul, BitVec.mul_comm]

/-- Equality of the words of two naturals below 2³² is equality of the naturals. -/
theorem cmpi_eq_ofNat (a b : Nat) (ha : a < 2 ^ 32) (hb : b < 2 ^ 32) :
    IntOp.cmpi .eq (BitVec.ofNat 32 a) (BitVec.ofNat 32 b) = if a = b then 1#1 else 0#1 := by
  have hiff : BitVec.ofNat 32 a = BitVec.ofNat 32 b ↔ a = b := by
    constructor
    · intro h
      have h' := congrArg BitVec.toNat h
      rw [BitVec.toNat_ofNat, BitVec.toNat_ofNat, Nat.mod_eq_of_lt ha, Nat.mod_eq_of_lt hb] at h'
      exact h'
    · intro h; rw [h]
  by_cases hab : a = b
  · rw [if_pos hab, hab]
    show BitVec.ofBool (BitVec.ofNat 32 b == BitVec.ofNat 32 b) = 1#1
    rw [beq_self_eq_true]; rfl
  · rw [if_neg hab]
    have hne : ¬ BitVec.ofNat 32 a = BitVec.ofNat 32 b := fun h => hab (hiff.mp h)
    show BitVec.ofBool (BitVec.ofNat 32 a == BitVec.ofNat 32 b) = 0#1
    rw [beq_eq_false_iff_ne.mpr hne]; rfl

/-! ## The iotas at an index -/

/-- The iota along the rows at `(r', c')` is the word of `r'`. -/
theorem iota_rows_apply (r' c' : Fin 512) :
    iota .tc S512x512 32 [0] iota_S512x512_d0_w32 (ix2 r' c') = BitVec.ofNat 32 r'.val := by
  simp [iota]

/-- The iota along the columns at `(r', c')` is the word of `c'`. -/
theorem iota_cols_apply (r' c' : Fin 512) :
    iota .tc S512x512 32 [1] iota_S512x512_d1_w32 (ix2 r' c') = BitVec.ofNat 32 c'.val := by
  simp [iota]

/-! ## The mask at an index -/

/-- The mask at `(r', c')` of block `i`: 1 exactly when the global row `512 · i₀ + r'` and the global column
    `512 · i₁ + c'` have the same quotient by 4. -/
theorem pay10_apply (i : grid0.Coords) (r' c' : Fin 512) :
    k0_pay10 (k0_pay6 i) (k0_pay7 i) (k0_pay8 i) k0_pay9 (ix2 r' c')
      = if (512 * (i 0).val + r'.val) / 4 = (512 * (i 1).val + c'.val) / 4 then 1#1 else 0#1 := by
  -- every vector operation is pointwise: at the index the mask compares the two floor quotients at the two words
  have hread : k0_pay10 (k0_pay6 i) (k0_pay7 i) (k0_pay8 i) k0_pay9 (ix2 r' c')
      = IntOp.cmpi .eq
          (floorDiv4 (BitVec.ofNat 32 (i 0).val * 512#32
            + iota .tc S512x512 32 [0] iota_S512x512_d0_w32 (ix2 r' c')))
          (floorDiv4 (BitVec.ofNat 32 (i 1).val * 512#32
            + iota .tc S512x512 32 [1] iota_S512x512_d1_w32 (ix2 r' c'))) := rfl
  have h0 : (i 0).val < 8 := (i 0).isLt
  have h1 : (i 1).val < 8 := (i 1).isLt
  have hr : r'.val < 512 := r'.isLt
  have hc : c'.val < 512 := c'.isLt
  rw [hread, iota_rows_apply, iota_cols_apply, global_word, global_word,
    floorDiv4_ofNat _ (by omega), floorDiv4_ofNat _ (by omega), cmpi_eq_ofNat _ _ (by omega) (by omega)]

end Cert.KernelIdeal.Mask
-- ==== Proof.KPay.lean ====
/-
  One update of the two running row sums of the kernel's body, read at an index, over the extended reals.

  At grid point `i` the body is handed a block `a` of 512 rows of the projections (row tile `i 0`) and a block `b`
  (column tile `i 1`). It forms the 512 × 512 tile of similarities — the inner products of the rows of `a` with the
  rows of `b`, divided by the literal 0.1 —, takes `exp` of it, keeps an entry for the positives where the two global
  rows are in one group of four and the similarity is not the number one, and for the negatives where they are in
  different groups, sums each kept tile along its rows from zero, and adds the two columns of sums to the running
  columns. Every operation but three is element by element; the three are the product (a sum over the contracted
  axis, re-indexed to its 256 coordinates), the lane sum (a sum over the 512 coordinates of the reduced axis) and
  the recast of a 512-vector as a 512 × 1 column (entry r' goes to (r', 0)). So at (r', 0) an update is what was
  there plus, from zero, the sum over the tile's 512 columns of the term of `Spec` at that grid point.
-/
import proofs.«158364_j17669495456297_1_alg».proof.Proof.KData
import proofs.«158364_j17669495456297_1_alg».proof.Proof.Spec
import proofs.«158364_j17669495456297_1_alg».proof.Proof.KMask
import Idealize.ShloMosaic.Lib.ValueIdx
import Idealize.ShloMosaic.PureOps.Ideal.Laws
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen Cert.KernelIdeal.Hand

/-! ## The tile product at an index -/

/-- The product's left operand index keeps the output row … -/
theorem lhs_0 (j : S512x512.Idx) (k : dot_S512x256_S512x256_S512x512_1_1_0_0_n_n.contr.Idx) :
    (dot_S512x256_S512x256_S512x512_1_1_0_0_n_n.lhsIdx j k 0).val = (j 0).val := by
  simp [DotDims.lhsIdx, dot_S512x256_S512x256_S512x512_1_1_0_0_n_n]; rfl

/-- … and reads the contraction position on its axis 1. -/
theorem lhs_1 (j : S512x512.Idx) (k : dot_S512x256_S512x256_S512x512_1_1_0_0_n_n.contr.Idx) :
    (dot_S512x256_S512x256_S512x512_1_1_0_0_n_n.lhsIdx j k 1).val = (k ⟨0, by decide⟩).val :=
  DotDims.lhsIdx_val_of_single _ (cl := 1) rfl j k

/-- The right operand index takes the output column as its row … -/
theorem rhs_0 (j : S512x512.Idx) (k : dot_S512x256_S512x256_S512x512_1_1_0_0_n_n.contr.Idx) :
    (dot_S512x256_S512x256_S512x512_1_1_0_0_n_n.rhsIdx j k 0).val = (j 1).val := by
  simp [DotDims.rhsIdx, dot_S512x256_S512x256_S512x512_1_1_0_0_n_n]; rfl

/-- … and reads the contraction position on its axis 1. -/
theorem rhs_1 (j : S512x512.Idx) (k : dot_S512x256_S512x256_S512x512_1_1_0_0_n_n.contr.Idx) :
    (dot_S512x256_S512x256_S512x512_1_1_0_0_n_n.rhsIdx j k 1).val = (k ⟨0, by decide⟩).val :=
  DotDims.rhsIdx_val_of_single _ (cr := 1) rfl j k

/-- The product of two blocks into the zero accumulator, at (r', c'): the inner product of row r' of the first and
    row c' of the second (the contraction runs over axis 1 of both operands). -/
theorem matmul_apply (a b : FVec Ideal S512x256 .bf16) (r' c' : Fin 512) :
    FloatOps.matmul dot_S512x256_S512x256_S512x512_1_1_0_0_n_n none a b (constant (F := Ideal) S512x512 .f32 0x00000000#32) (ix2 r' c')
      = Cert.Spec.dotT a b r' c' := by
  rw [Ideal.matmul_constant_zero_apply]
  unfold Cert.Spec.dotT
  rw [← Equiv.sum_comp (contrEquiv1 dot_S512x256_S512x256_S512x512_1_1_0_0_n_n 256 rfl rfl).symm]
  refine Finset.sum_congr rfl fun k _ => ?_
  have hl : dot_S512x256_S512x256_S512x512_1_1_0_0_n_n.lhsIdx (ix2 r' c') ((contrEquiv1 dot_S512x256_S512x256_S512x512_1_1_0_0_n_n 256 rfl rfl).symm k) = ix2 r' k := by
    funext ax; refine Fin.ext ?_
    match ax with
    | ⟨0, _⟩ => exact lhs_0 _ _
    | ⟨1, _⟩ => exact (lhs_1 _ _).trans (contrEquiv1_symm_val _ _ _ _ k)
  have hr : dot_S512x256_S512x256_S512x512_1_1_0_0_n_n.rhsIdx (ix2 r' c') ((contrEquiv1 dot_S512x256_S512x256_S512x512_1_1_0_0_n_n 256 rfl rfl).symm k) = ix2 c' k := by
    funext ax; refine Fin.ext ?_
    match ax with
    | ⟨0, _⟩ => exact rhs_0 _ _
    | ⟨1, _⟩ => exact (rhs_1 _ _).trans (contrEquiv1_symm_val _ _ _ _ k)
  rw [hl, hr]

/-- The similarity tile at (r', c'): the two shape casts are to the same shape, the divisor is the splat of the
    literal 0.1, the quotient is taken element by element. -/
theorem pay4_apply (a b : Vec Ideal S512x256 .bf16) (r' c' : Fin 512) :
    k0_pay4 (F := Ideal) a b (ix2 r' c') = Cert.Spec.simT a b r' c' := by
  unfold k0_pay4
  rw [shapeCast_self, shapeCast_self]
  show Ideal.div (FloatOps.matmul dot_S512x256_S512x256_S512x512_1_1_0_0_n_n none a b (constant (F := Ideal) S512x512 .f32 0x00000000#32) (ix2 r' c')) (Ideal.ofBits .f32 0x3DCCCCCD#32) = _
  rw [matmul_apply]
  rfl

/-! ## A row's lane sum, as a column -/

/-- The sum over axis 1 of a 512 × 512 tile, from the zero accumulator, at row r': the sum of the row's entries. -/
theorem laneSum_apply (T : FVec Ideal S512x512 .f32) (r' : Fin 512) :
    multiReduction .add [1] S512 T 0x00000000#32 reduces_S512x512_S512 (.inl rfl) rfl (ix1 r') = ∑ c' : Fin 512, T (ix2 r' c') := by
  refine (Ideal.multiReduction_add_single T 0x00000000#32 reduces_S512x512_S512 (.inl rfl) rfl (ix1 r')).trans ?_
  show ∑ c' : Fin 512, T (reduces_S512x512_S512.lift (ix1 r') c') = _
  refine Finset.sum_congr rfl fun c' _ => congrArg T ?_
  funext ax; refine Fin.ext ?_
  match ax with
  | ⟨0, _⟩ => rfl
  | ⟨1, _⟩ => rfl

/-- A 512-vector recast as a 512 × 1 column, at (r', 0): the vector's entry r' (both sit at row-major position r'). -/
theorem col_apply {α : Type} (x : S512.Idx → α) (r' : Fin 512) :
    shapeCast S512x1 x shapeCasts_S512_S512x1 (ix2 r' (0 : Fin 1)) = x (ix1 r') :=
  shapeCast_apply x _ _ _ (by
    rw [Shape.rowMajor_val_one, Shape.rowMajor_val_two]
    show r'.val = r'.val * 1 + 0
    omega)

/-- One update of a running column of row sums by a tile's lane sums, at (r', 0): what was there plus, from zero,
    the sum of the tile's row r'. -/
theorem sumStep_apply (T : FVec Ideal S512x512 .f32) (P : Vec Ideal S512x1 .f32) (r' : Fin 512) :
    addf (shapeCast S512x1 P shapeCasts_S512x1_S512x1)
        (shapeCast S512x1 (multiReduction .add [1] S512 T 0x00000000#32 reduces_S512x512_S512 (.inl rfl) rfl) shapeCasts_S512_S512x1)
        (ix2 r' (0 : Fin 1))
      = P (ix2 r' (0 : Fin 1)) + (0 + ∑ c' : Fin 512, T (ix2 r' c')) := by
  rw [shapeCast_self]
  show P (ix2 r' (0 : Fin 1)) + shapeCast S512x1 (multiReduction .add [1] S512 T 0x00000000#32 reduces_S512x512_S512 (.inl rfl) rfl) shapeCasts_S512_S512x1 (ix2 r' (0 : Fin 1)) = _
  rw [col_apply, laneSum_apply, zero_add]

/-! ## The two masked terms, as words -/

/-- The comparison "ordered and not equal" of two extended reals that differ is the bit 1 … -/
theorem cmp_one_of_ne {x y : EReal} (h : x ≠ y) : Ideal.cmp .one x y = 1#1 := by
  show BitVec.ofBool (decide (x ≠ y)) = 1#1
  rw [decide_eq_true h]; rfl

/-- … and of two that are equal the bit 0. -/
theorem cmp_one_of_eq {x y : EReal} (h : x = y) : Ideal.cmp .one x y = 0#1 := by
  show BitVec.ofBool (decide (x ≠ y)) = 0#1
  rw [decide_eq_false (not_not.mpr h)]; rfl

/-- The positives' term as the body selects it: `exp s` where the group bit and the bit "s is not one" are both set,
    else the zero literal. -/
theorem pos_word (G : Prop) [Decidable G] (s : EReal) :
    Scalar.select (IntOp.andi (if G then 1#1 else 0#1) (Ideal.cmp .one s (Ideal.ofBits .f32 0x3F800000#32)))
        (Ideal.exp s) (Ideal.ofBits .f32 0x00000000#32)
      = if G ∧ s ≠ Cert.Spec.one then Ideal.exp s else 0 := by
  have hone : Ideal.ofBits .f32 0x3F800000#32 = Cert.Spec.one := rfl
  rw [Ideal.ofBits_zero_f32, hone]
  by_cases hG : G
  · by_cases hs : s = Cert.Spec.one
    · rw [if_pos hG, if_neg (fun h => h.2 hs), cmp_one_of_eq hs]
      exact select_zero _ _
    · rw [if_pos hG, if_pos ⟨hG, hs⟩, cmp_one_of_ne hs]
      exact select_one _ _
  · rw [if_neg hG, if_neg (fun h => hG h.1)]
    by_cases hs : s = Cert.Spec.one
    · rw [cmp_one_of_eq hs]; exact select_zero _ _
    · rw [cmp_one_of_ne hs]; exact select_zero _ _

/-- The negatives' term as the body selects it: the zero literal where the group bit is set, else `exp s`. -/
theorem neg_word (G : Prop) [Decidable G] (s : EReal) :
    Scalar.select (if G then 1#1 else 0#1) (Ideal.ofBits .f32 0x00000000#32) (Ideal.exp s)
      = if G then 0 else Ideal.exp s := by
  rw [Ideal.ofBits_zero_f32]
  by_cases hG : G
  · rw [if_pos hG, if_pos hG]; exact select_one _ _
  · rw [if_neg hG, if_neg hG]; exact select_zero _ _

/-! ## One update of the two running row sums, at an index -/

/-- The positives' tile of grid point `i` at (r', c'). -/
theorem posTile_apply (i : grid0.Coords) (a b : Vec Ideal S512x256 .bf16) (r' c' : Fin 512) :
    select (andi (k0_pay10 (k0_pay6 i) (k0_pay7 i) (k0_pay8 i) k0_pay9)
          (cmpf .one (k0_pay4 (F := Ideal) a b) (broadcast S512x512 (Scalar.ofBits (F := Ideal) .f32 0x3F800000#32))))
        (k0_pay11 (k0_pay4 (F := Ideal) a b)) (broadcast S512x512 (Scalar.ofBits (F := Ideal) .f32 0x00000000#32)) (ix2 r' c')
      = Cert.Spec.posTermT (i 0).val (i 1).val a b r' c' := by
  show Scalar.select (IntOp.andi (k0_pay10 (k0_pay6 i) (k0_pay7 i) (k0_pay8 i) k0_pay9 (ix2 r' c'))
        (Ideal.cmp .one (k0_pay4 (F := Ideal) a b (ix2 r' c')) (Ideal.ofBits .f32 0x3F800000#32)))
      (Ideal.exp (k0_pay4 (F := Ideal) a b (ix2 r' c'))) (Ideal.ofBits .f32 0x00000000#32) = _
  rw [Mask.pay10_apply, pay4_apply]
  exact pos_word _ _

/-- The negatives' tile of grid point `i` at (r', c'). -/
theorem negTile_apply (i : grid0.Coords) (a b : Vec Ideal S512x256 .bf16) (r' c' : Fin 512) :
    select (k0_pay10 (k0_pay6 i) (k0_pay7 i) (k0_pay8 i) k0_pay9)
        (broadcast S512x512 (Scalar.ofBits (F := Ideal) .f32 0x00000000#32)) (k0_pay11 (k0_pay4 (F := Ideal) a b)) (ix2 r' c')
      = Cert.Spec.negTermT (i 0).val (i 1).val a b r' c' := by
  show Scalar.select (k0_pay10 (k0_pay6 i) (k0_pay7 i) (k0_pay8 i) k0_pay9 (ix2 r' c'))
      (Ideal.ofBits .f32 0x00000000#32) (Ideal.exp (k0_pay4 (F := Ideal) a b (ix2 r' c'))) = _
  rw [Mask.pay10_apply, pay4_apply]
  exact neg_word _ _

/-- One update of the positives' running row sums at (r', 0): the sum found plus, from zero, the sum over the column
    tile of the positives' terms of row r'. -/
theorem posStep_apply (i : grid0.Coords) (a b : Vec Ideal S512x256 .bf16) (P : Vec Ideal S512x1 .f32) (r' : Fin 512) :
    posStep (F := Ideal) i a b P (ix2 r' (0 : Fin 1))
      = P (ix2 r' (0 : Fin 1)) + (0 + ∑ c' : Fin 512, Cert.Spec.posTermT (i 0).val (i 1).val a b r' c') := by
  unfold posStep k0_pay13
  refine (sumStep_apply _ P r').trans ?_
  exact congrArg (fun x => P (ix2 r' (0 : Fin 1)) + (0 + x)) (Finset.sum_congr rfl fun c' _ => posTile_apply i a b r' c')

/-- One update of the negatives' running row sums at (r', 0). -/
theorem negStep_apply (i : grid0.Coords) (a b : Vec Ideal S512x256 .bf16) (N : Vec Ideal S512x1 .f32) (r' : Fin 512) :
    negStep (F := Ideal) i a b N (ix2 r' (0 : Fin 1))
      = N (ix2 r' (0 : Fin 1)) + (0 + ∑ c' : Fin 512, Cert.Spec.negTermT (i 0).val (i 1).val a b r' c') := by
  unfold negStep k0_pay1 k0_pay12
  refine (sumStep_apply _ N r').trans ?_
  exact congrArg (fun x => N (ix2 r' (0 : Fin 1)) + (0 + x)) (Finset.sum_congr rfl fun c' _ => negTile_apply i a b r' c')

/-- The two zero splats the running sums restart from. -/
theorem pay2_apply (y : S512x1.Idx) : k0_pay2 (F := Ideal) y = 0 := Ideal.ofBits_zero_f32
theorem pay3_apply (y : S512x1.Idx) : k0_pay3 (F := Ideal) y = 0 := Ideal.ofBits_zero_f32

end Cert.KernelIdeal.Pay

end
-- ==== Proof.KAcc.lean ====
/-
  What the two result buffers hold after each grid point, in closed form, over the extended reals.

  Write `p` for the projections (the first argument at launch). The grid is 8 × 8: point `t` has row tile
  `t / 8` and column tile `t % 8`. The two input blocks at point `t` are rows `512 (t / 8) + r'` and rows
  `512 (t % 8) + c'` of `p` (the bf16 conversion is the identity on the extended reals), so the point's masked
  terms of `exp sim` over its blocks are the terms of the global row and column, and one update adds to the
  running row sum the column tile's partial sum. By induction along a row of the grid, after point `t` the
  positives' buffer holds at `r'` the running total `runSum (posTerm p (512 (t / 8) + r')) (t % 8 + 1)`, and the
  negatives' buffer the same with `negTerm`.
-/
import proofs.«158364_j17669495456297_1_alg».proof.Proof.KData
import proofs.«158364_j17669495456297_1_alg».proof.Proof.Spec
import proofs.«158364_j17669495456297_1_alg».proof.Proof.SpecSum
import proofs.«158364_j17669495456297_1_alg».proof.Proof.KPay
import Idealize.ShloMosaic.Lib.ValueIdx
import Idealize.ShloMosaic.Lib.Pipeline.Value
import Idealize.ShloMosaic.Lib.StableHlo.Run

noncomputable section

open scoped BigOperators

namespace Cert.KernelIdeal.Acc

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The grid and the index maps, decided once over the 64 points -/

/-- Point `t` of the 8 × 8 grid has row tile `t / 8` and column tile `t % 8`. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The first input window takes the row tile's block, the second the column tile's; both span all 256 lanes. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-! ## The array behind the two input windows -/

/-- When the region is entered the bf16 array holds the conversion of the first argument; over the extended reals a
    conversion changes nothing, so it holds the projections themselves. -/
theorem V_v4 (c : Dev nD) :
    (V (F := Ideal) m ρ c main_v4 : S4096x256.Idx → EReal) = (m ((c : Thread nD τ).loc main_arg0) : S4096x256.Idx → EReal) := by
  have e : (V (F := Ideal) m ρ c main_v4 : S4096x256.Idx → EReal)
      = (truncf .bf16 (m ((c : Thread nD τ).loc main_arg0) : FVec Ideal S4096x256 .f32) bitsLt_bf16_f32 : FVec Ideal S4096x256 .bf16) := by
    show StableHlo.after hostOps0 (V₀ m ρ c) main_v4 = _
    dsimp only [Gen.hostOps0]
    after_results
  rw [e]
  funext i
  exact truncf_apply _ _ i

/-! ## The two input blocks at an index -/

/-- The first window's block at point `t` is rows `512 (t / 8) + r'` of the projections. -/
theorem iblk0_apply (c : Dev nD) (t : Fin cfg0.N) (i : Fin 8) (hi : i.val = t.val / 8) (r' : Fin 512) (k : Fin 256) :
    (iblk (F := Ideal) m ρ c 0 t : S512x256.Idx → EReal) (ix2 r' k)
      = (m ((c : Thread nD τ).loc main_arg0) : S4096x256.Idx → EReal) (ix2 (Cert.Spec.row i r') k) := by
  rw [← V_v4 m ρ c]
  show V (F := Ideal) m ρ c main_v4 (((cfg0.win 0).blk t).view.emb (ix2 r' k)) = V (F := Ideal) m ρ c main_v4 (ix2 (Cert.Spec.row i r') k)
  congr 1
  obtain ⟨e0, e1, e2, e3⟩ := idx_facts t
  funext a
  apply Fin.ext
  match a with
  | ⟨0, _⟩ =>
    show win0_0.index t (0 : Fin 2) * 512 + 1 * r'.val = 512 * i.val + r'.val
    omega
  | ⟨1, _⟩ =>
    show win0_0.index t (1 : Fin 2) * 256 + 1 * k.val = k.val
    omega

/-- The second window's block at point `t` is rows `512 (t % 8) + c'` of the projections. -/
theorem iblk1_apply (c : Dev nD) (t : Fin cfg0.N) (j : Fin 8) (hj : j.val = t.val % 8) (c' : Fin 512) (k : Fin 256) :
    (iblk (F := Ideal) m ρ c 1 t : S512x256.Idx → EReal) (ix2 c' k)
      = (m ((c : Thread nD τ).loc main_arg0) : S4096x256.Idx → EReal) (ix2 (Cert.Spec.col j c') k) := by
  rw [← V_v4 m ρ c]
  show V (F := Ideal) m ρ c main_v4 (((cfg0.win 1).blk t).view.emb (ix2 c' k)) = V (F := Ideal) m ρ c main_v4 (ix2 (Cert.Spec.col j c') k)
  congr 1
  obtain ⟨e0, e1, e2, e3⟩ := idx_facts t
  funext a
  apply Fin.ext
  match a with
  | ⟨0, _⟩ =>
    show win0_1.index t (0 : Fin 2) * 512 + 1 * c'.val = 512 * j.val + c'.val
    omega
  | ⟨1, _⟩ =>
    show win0_1.index t (1 : Fin 2) * 256 + 1 * k.val = k.val
    omega

/-! ## One grid point's terms are the whole array's -/

/-- The tile-level similarity of the two blocks at point `t` is the similarity of the global row and column. -/
theorem simT_blk (c : Dev nD) (t : Fin cfg0.N) (i j : Fin 8) (hi : i.val = t.val / 8) (hj : j.val = t.val % 8) (r' c' : Fin 512) :
    Cert.Spec.simT (iblk (F := Ideal) m ρ c 0 t) (iblk (F := Ideal) m ρ c 1 t) r' c'
      = Cert.Spec.sim (m ((c : Thread nD τ).loc main_arg0)) (Cert.Spec.row i r') (Cert.Spec.col j c') := by
  unfold Cert.Spec.simT Cert.Spec.sim Cert.Spec.dotT Cert.Spec.dot
  refine congrArg (fun x => Ideal.div x Cert.Spec.tau) ?_
  refine Finset.sum_congr rfl fun k _ => ?_
  exact congrArg₂ (· * ·) (iblk0_apply m ρ c t i hi r' k) (iblk1_apply m ρ c t j hj c' k)

/-- The positives' term of point `t` over its two blocks is the positives' term of the global row and column. -/
theorem posTermT_blk (c : Dev nD) (t : Fin cfg0.N) (i j : Fin 8) (hi : i.val = t.val / 8) (hj : j.val = t.val % 8) (r' c' : Fin 512) :
    Cert.Spec.posTermT (grid0.coords t 0).val (grid0.coords t 1).val (iblk (F := Ideal) m ρ c 0 t) (iblk (F := Ideal) m ρ c 1 t) r' c'
      = Cert.Spec.posTerm (m ((c : Thread nD τ).loc main_arg0)) (Cert.Spec.row i r') (Cert.Spec.col j c') := by
  obtain ⟨g0, g1⟩ := coords_facts t
  unfold Cert.Spec.posTermT Cert.Spec.posTerm
  rw [simT_blk m ρ c t i j hi hj r' c', g0, g1, ← hi, ← hj]
  rfl

/-- The negatives' term of point `t` over its two blocks is the negatives' term of the global row and column. -/
theorem negTermT_blk (c : Dev nD) (t : Fin cfg0.N) (i j : Fin 8) (hi : i.val = t.val / 8) (hj : j.val = t.val % 8) (r' c' : Fin 512) :
    Cert.Spec.negTermT (grid0.coords t 0).val (grid0.coords t 1).val (iblk (F := Ideal) m ρ c 0 t) (iblk (F := Ideal) m ρ c 1 t) r' c'
      = Cert.Spec.negTerm (m ((c : Thread nD τ).loc main_arg0)) (Cert.Spec.row i r') (Cert.Spec.col j c') := by
  obtain ⟨g0, g1⟩ := coords_facts t
  unfold Cert.Spec.negTermT Cert.Spec.negTerm
  rw [simT_blk m ρ c t i j hi hj r' c', g0, g1, ← hi, ← hj]
  rfl

/-! ## One update in closed form -/

/-- At point `t` the positives' update adds column tile `t % 8`'s partial sum of row `512 (t / 8) + r'`. -/
theorem posStep_blk (c : Dev nD) (t : Fin cfg0.N) (i j : Fin 8) (hi : i.val = t.val / 8) (hj : j.val = t.val % 8)
    (P : Vec Ideal S512x1 .f32) (r' : Fin 512) :
    posStep (F := Ideal) (grid0.coords t) (iblk (F := Ideal) m ρ c 0 t) (iblk (F := Ideal) m ρ c 1 t) P (ix2 r' (0 : Fin 1))
      = P (ix2 r' (0 : Fin 1))
        + Cert.Spec.tileSum (Cert.Spec.posTerm (m ((c : Thread nD τ).loc main_arg0)) (Cert.Spec.row i r')) j := by
  refine (Cert.KernelIdeal.Pay.posStep_apply _ _ _ _ _).trans ?_
  unfold Cert.Spec.tileSum
  refine congrArg (fun x => P (ix2 r' (0 : Fin 1)) + (0 + x)) ?_
  exact Finset.sum_congr rfl fun c' _ => posTermT_blk m ρ c t i j hi hj r' c'

/-- At point `t` the negatives' update adds column tile `t % 8`'s partial sum of row `512 (t / 8) + r'`. -/
theorem negStep_blk (c : Dev nD) (t : Fin cfg0.N) (i j : Fin 8) (hi : i.val = t.val / 8) (hj : j.val = t.val % 8)
    (N : Vec Ideal S512x1 .f32) (r' : Fin 512) :
    negStep (F := Ideal) (grid0.coords t) (iblk (F := Ideal) m ρ c 0 t) (iblk (F := Ideal) m ρ c 1 t) N (ix2 r' (0 : Fin 1))
      = N (ix2 r' (0 : Fin 1))
        + Cert.Spec.tileSum (Cert.Spec.negTerm (m ((c : Thread nD τ).loc main_arg0)) (Cert.Spec.row i r')) j := by
  refine (Cert.KernelIdeal.Pay.negStep_apply _ _ _ _ _).trans ?_
  unfold Cert.Spec.tileSum
  refine congrArg (fun x => N (ix2 r' (0 : Fin 1)) + (0 + x)) ?_
  exact Finset.sum_congr rfl fun c' _ => negTermT_blk m ρ c t i j hi hj r' c'

/-! ## The running sums after each point -/

/-- After the body at position `n` the two result buffers hold, at row `r'`, the running totals of the positives'
    and of the negatives' terms of row `512 (n / 8) + r'` over the first `n % 8 + 1` column tiles: at a first
    column tile the total restarts from the zero splat, at a later one it continues from the position before, which
    has the same row tile and the column tile before. -/
theorem outsAt_closed (c : Dev nD) (r' : Fin 512) : ∀ (n : ℕ) (hn : n < cfg0.N) (i : Fin 8), i.val = n / 8 →
    (outsAt (F := Ideal) m ρ c n hn).1 (ix2 r' (0 : Fin 1))
        = Cert.Spec.runSum (Cert.Spec.posTerm (m ((c : Thread nD τ).loc main_arg0)) (Cert.Spec.row i r')) (n % 8 + 1)
    ∧ (outsAt (F := Ideal) m ρ c n hn).2 (ix2 r' (0 : Fin 1))
        = Cert.Spec.runSum (Cert.Spec.negTerm (m ((c : Thread nD τ).loc main_arg0)) (Cert.Spec.row i r')) (n % 8 + 1) := by
  intro n
  induction n using Nat.strong_induction_on with
  | _ n ih =>
    intro hn i hi
    have hj8 : n % 8 < 8 := Nat.mod_lt _ (by decide)
    by_cases h0 : n % 8 = 0
    · have hf := outsAt_first (F := Ideal) m ρ c ⟨n, hn⟩ h0
      have hf' : outsAt (F := Ideal) m ρ c n hn = _ := hf
      rw [hf']
      constructor
      · refine (posStep_blk m ρ c ⟨n, hn⟩ i ⟨n % 8, hj8⟩ hi rfl _ r').trans ?_
        rw [Cert.KernelIdeal.Pay.pay2_apply]
        refine Eq.trans ?_ (Cert.Spec.runSum_succ _ ⟨n % 8, hj8⟩).symm
        refine congrArg (· + _) ?_
        show (0 : EReal) = Cert.Spec.runSum _ (n % 8)
        rw [h0, Cert.Spec.runSum_zero]
      · refine (negStep_blk m ρ c ⟨n, hn⟩ i ⟨n % 8, hj8⟩ hi rfl _ r').trans ?_
        rw [Cert.KernelIdeal.Pay.pay3_apply]
        refine Eq.trans ?_ (Cert.Spec.runSum_succ _ ⟨n % 8, hj8⟩).symm
        refine congrArg (· + _) ?_
        show (0 : EReal) = Cert.Spec.runSum _ (n % 8)
        rw [h0, Cert.Spec.runSum_zero]
    · have hl := outsAt_later (F := Ideal) m ρ c ⟨n, hn⟩ h0
      have hl' : outsAt (F := Ideal) m ρ c n hn = _ := hl
      rw [hl']
      have hprev := ih (n - 1) (by omega) (Nat.lt_of_le_of_lt (Nat.sub_le _ _) hn) i (by omega)
      have e : (n - 1) % 8 + 1 = n % 8 := by omega
      rw [e] at hprev
      constructor
      · refine (posStep_blk m ρ c ⟨n, hn⟩ i ⟨n % 8, hj8⟩ hi rfl _ r').trans ?_
        refine Eq.trans ?_ (Cert.Spec.runSum_succ _ ⟨n % 8, hj8⟩).symm
        exact congrArg (· + _) hprev.1
      · refine (negStep_blk m ρ c ⟨n, hn⟩ i ⟨n % 8, hj8⟩ hi rfl _ r').trans ?_
        refine Eq.trans ?_ (Cert.Spec.runSum_succ _ ⟨n % 8, hj8⟩).symm
        exact congrArg (· + _) hprev.2

/-- The positives' result buffer after point `t`. -/
theorem outsAt_pos (c : Dev nD) (t : Fin cfg0.N) (r' : Fin 512) :
    (outsAt (F := Ideal) m ρ c t.val t.isLt).1 (ix2 r' (0 : Fin 1))
      = Cert.Spec.runSum (Cert.Spec.posTerm (m ((c.tc : Thread nD τ).loc main_arg0)) (Cert.Spec.row ⟨t.val / 8, Nat.div_lt_of_lt_mul (lt_of_lt_of_eq t.isLt Gen.N_0)⟩ r')) (t.val % 8 + 1) :=
  (outsAt_closed m ρ c r' t.val t.isLt _ rfl).1

/-- The negatives' result buffer after point `t`. -/
theorem outsAt_neg (c : Dev nD) (t : Fin cfg0.N) (r' : Fin 512) :
    (outsAt (F := Ideal) m ρ c t.val t.isLt).2 (ix2 r' (0 : Fin 1))
      = Cert.Spec.runSum (Cert.Spec.negTerm (m ((c.tc : Thread nD τ).loc main_arg0)) (Cert.Spec.row ⟨t.val / 8, Nat.div_lt_of_lt_mul (lt_of_lt_of_eq t.isLt Gen.N_0)⟩ r')) (t.val % 8 + 1) :=
  (outsAt_closed m ρ c r' t.val t.isLt _ rfl).2

end Cert.KernelIdeal.Acc

end
-- ==== Proof.KArr.lean ====
/-
  The two result arrays after the region are the row sums.

  Each result array is 4096 × 1 and is visited in eight blocks of 512 rows. The block of row tile `i`
  stays in its buffer while the column tile `j` runs from 0 to 7 and is written back once, at `j = 7`.
  What is written there is the running total after the eighth column tile, and a tiled running sum
  after its last tile is the whole row sum. Row `r` of the array lies in the block of row tile
  `r / 512`, so the written blocks cover the array, and the array ends holding row `r`'s sum at `(r, 0)`.
-/
import proofs.«158364_j17669495456297_1_alg».proof.Proof.KData
import proofs.«158364_j17669495456297_1_alg».proof.Proof.Spec
import proofs.«158364_j17669495456297_1_alg».proof.Proof.SpecSum
import proofs.«158364_j17669495456297_1_alg».proof.Proof.KAcc
import Idealize.ShloMosaic.Lib.Pipeline.Value
import Idealize.ShloMosaic.Lib.ValueIdx

noncomputable section

namespace Cert.KernelIdeal.Arr

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The positives' row sums -/

/-- The positives' row sums as contents of the first result array: row `r`'s sum at `(r, 0)`. -/
def posArr (c : Dev nD) : Buf (Elt Ideal) ((c : Thread nD τ).loc main_v5_0) :=
  fun i => Cert.Spec.posSum (m ((c.tc : Thread nD τ).loc main_arg0)) (i 0)

/-- The first result's block at point `t` is block `(t / 8, 0)`: rows `512 (t / 8)` to `512 (t / 8) + 511`. -/
theorem idx_pos : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a point that writes the first result back writes is its block of the positives' row sums: it is the last
    column tile of its row tile, so the running total it leaves has taken in all eight tiles. -/
theorem flushed_pos (c : Dev nD) (t : Fin cfg0.N) (hf : (cfg0.win 2).flush t = true) :
    (dats (F := Ideal) m ρ 0 c).flushed 2 t = ((cfg0.win 2).blk t).view.read (Elt Ideal) (posArr m c) := by
  show (cfg0.win 2).cut (grid0.coords t) ((dats (F := Ideal) m ρ 0 c).after 2 t) = _
  rw [after2]
  funext j
  obtain ⟨r', z, rfl⟩ : ∃ (r' : Fin 512) (z : Fin 1), j = ix2 r' z := ⟨j 0, j 1, eq_ix2 j⟩
  obtain rfl : z = 0 := Subsingleton.elim _ _
  show (outsAt (F := Ideal) m ρ c t.val t.isLt).1 (ix2 r' (0 : Fin 1)) = posArr m c (((cfg0.win 2).blk t).view.emb (ix2 r' (0 : Fin 1)))
  have h7 : t.val % 8 = 7 := (flush0_2 t).mp hf
  rw [Acc.outsAt_pos, h7]
  show Cert.Spec.runSum _ 8 = _
  rw [Cert.Spec.runSum_pos]
  unfold posArr
  congr 1
  apply Fin.ext
  show 512 * (t.val / 8) + r'.val = win0_2.index t (0 : Fin 2) * 512 + 1 * r'.val
  rw [(idx_pos t).1]
  omega

/-- An index of the first result array is in point `t`'s block iff each coordinate is in the block's range. -/
theorem mem_blk_pos (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v5_0).slice (win0_2.rect t)).set ↔ _
  rw [View.set_slice_whole, Rect.mem_set_unit]
  exact Iff.rfl

/-- Every row of the first result array is in a block that is written back: row `r`'s is the block of row tile
    `r / 512`, written back at that row tile's last column tile. -/
theorem cover_pos (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 64 := N_0
  have ht : 8 * ((i 0).val / 512) + 7 < cfg0.N := by rw [hN]; omega
  obtain ⟨e0, e1⟩ := idx_pos ⟨8 * ((i 0).val / 512) + 7, ht⟩
  refine ⟨⟨8 * ((i 0).val / 512) + 7, ht⟩, (flush0_2 _).mpr ?_, ?_⟩
  · show (8 * ((i 0).val / 512) + 7) % 8 = 7
    omega
  · rw [mem_blk_pos]
    intro a
    match a with
    | ⟨0, _⟩ =>
      show win0_2.index ⟨8 * ((i 0).val / 512) + 7, ht⟩ (0 : Fin 2) * 512 ≤ (i 0).val ∧ (i 0).val < win0_2.index ⟨8 * ((i 0).val / 512) + 7, ht⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_2.index ⟨8 * ((i 0).val / 512) + 7, ht⟩ (1 : Fin 2) * 1 ≤ (i 1).val ∧ (i 1).val < win0_2.index ⟨8 * ((i 0).val / 512) + 7, ht⟩ (1 : Fin 2) * 1 + 1
      rw [e1]
      omega

/-- After the region the first result array holds the positives' row sums. -/
theorem final_pos (c : Dev nD) : (dats (F := Ideal) m ρ 0 c).arrAt 2 cfg0.N = posArr m c :=
  (dats (F := Ideal) m ρ 0 c).arrAt_eq_of_cover 2 (posArr m c) (flushed_pos m ρ c) cover_pos

/-- Row `r` of the first result array after the region is row `r`'s sum of the positives' terms. -/
theorem arrAt_pos (c : Dev nD) (r : Fin 4096) :
    (dats (F := Ideal) m ρ 0 c).arrAt 2 cfg0.N (ix2 r (0 : Fin 1)) = Cert.Spec.posSum (m ((c.tc : Thread nD τ).loc main_arg0)) r := by
  rw [final_pos]
  rfl

/-! ## The negatives' row sums -/

/-- The negatives' row sums as contents of the second result array: row `r`'s sum at `(r, 0)`. -/
def negArr (c : Dev nD) : Buf (Elt Ideal) ((c : Thread nD τ).loc main_v5_1) :=
  fun i => Cert.Spec.negSum (m ((c.tc : Thread nD τ).loc main_arg0)) (i 0)

/-- The second result's block at point `t` is block `(t / 8, 0)`: rows `512 (t / 8)` to `512 (t / 8) + 511`. -/
theorem idx_neg : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- What a point that writes the second result back writes is its block of the negatives' row sums: it is the last
    column tile of its row tile, so the running total it leaves has taken in all eight tiles. -/
theorem flushed_neg (c : Dev nD) (t : Fin cfg0.N) (hf : (cfg0.win 3).flush t = true) :
    (dats (F := Ideal) m ρ 0 c).flushed 3 t = ((cfg0.win 3).blk t).view.read (Elt Ideal) (negArr m c) := by
  show (cfg0.win 3).cut (grid0.coords t) ((dats (F := Ideal) m ρ 0 c).after 3 t) = _
  rw [after3]
  funext j
  obtain ⟨r', z, rfl⟩ : ∃ (r' : Fin 512) (z : Fin 1), j = ix2 r' z := ⟨j 0, j 1, eq_ix2 j⟩
  obtain rfl : z = 0 := Subsingleton.elim _ _
  show (outsAt (F := Ideal) m ρ c t.val t.isLt).2 (ix2 r' (0 : Fin 1)) = negArr m c (((cfg0.win 3).blk t).view.emb (ix2 r' (0 : Fin 1)))
  have h7 : t.val % 8 = 7 := (flush0_3 t).mp hf
  rw [Acc.outsAt_neg, h7]
  show Cert.Spec.runSum _ 8 = _
  rw [Cert.Spec.runSum_neg]
  unfold negArr
  congr 1
  apply Fin.ext
  show 512 * (t.val / 8) + r'.val = win0_3.index t (0 : Fin 2) * 512 + 1 * r'.val
  rw [(idx_neg t).1]
  omega

/-- An index of the second result array is in point `t`'s block iff each coordinate is in the block's range. -/
theorem mem_blk_neg (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v5_1).slice (win0_3.rect t)).set ↔ _
  rw [View.set_slice_whole, Rect.mem_set_unit]
  exact Iff.rfl

/-- Every row of the second result array is in a block that is written back: row `r`'s is the block of row tile
    `r / 512`, written back at that row tile's last column tile. -/
theorem cover_neg (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 64 := N_0
  have ht : 8 * ((i 0).val / 512) + 7 < cfg0.N := by rw [hN]; omega
  obtain ⟨e0, e1⟩ := idx_neg ⟨8 * ((i 0).val / 512) + 7, ht⟩
  refine ⟨⟨8 * ((i 0).val / 512) + 7, ht⟩, (flush0_3 _).mpr ?_, ?_⟩
  · show (8 * ((i 0).val / 512) + 7) % 8 = 7
    omega
  · rw [mem_blk_neg]
    intro a
    match a with
    | ⟨0, _⟩ =>
      show win0_3.index ⟨8 * ((i 0).val / 512) + 7, ht⟩ (0 : Fin 2) * 512 ≤ (i 0).val ∧ (i 0).val < win0_3.index ⟨8 * ((i 0).val / 512) + 7, ht⟩ (0 : Fin 2) * 512 + 512
      rw [e0]
      show (8 * ((i 0).val / 512) + 7) / 8 * 512 ≤ (i 0).val ∧ (i 0).val < (8 * ((i 0).val / 512) + 7) / 8 * 512 + 512
      omega
    | ⟨1, _⟩ =>
      show win0_3.index ⟨8 * ((i 0).val / 512) + 7, ht⟩ (1 : Fin 2) * 1 ≤ (i 1).val ∧ (i 1).val < win0_3.index ⟨8 * ((i 0).val / 512) + 7, ht⟩ (1 : Fin 2) * 1 + 1
      rw [e1]
      omega

/-- After the region the second result array holds the negatives' row sums. -/
theorem final_neg (c : Dev nD) : (dats (F := Ideal) m ρ 0 c).arrAt 3 cfg0.N = negArr m c :=
  (dats (F := Ideal) m ρ 0 c).arrAt_eq_of_cover 3 (negArr m c) (flushed_neg m ρ c) cover_neg

/-- Row `r` of the second result array after the region is row `r`'s sum of the negatives' terms. -/
theorem arrAt_neg (c : Dev nD) (r : Fin 4096) :
    (dats (F := Ideal) m ρ 0 c).arrAt 3 cfg0.N (ix2 r (0 : Fin 1)) = Cert.Spec.negSum (m ((c.tc : Thread nD τ).loc main_arg0)) r := by
  rw [final_neg]
  rfl

end Cert.KernelIdeal.Arr

end
-- ==== Proof.RefRun.lean ====
/-
  The reference program's run, read back. The program is a straight line of eighty-four host operations once
  its three outlined functions are written out at their call sites (the floor division of the row index by four,
  whose last step is a selection made by a nested function; the two selections against a broadcast zero). Every
  execution ends with each value at the composition of the operations that produce it, applied to the three
  argument arrays: the total loss is (reconstruction + contrastive) + distance, and the arguments are unchanged.
-/
import proofs.«158364_j17669495456297_1_alg».proof.Proof.RefTerms
import proofs.«158364_j17669495456297_1_alg».proof.Proof.Gen.ReferenceIdeal
import Idealize.ShloMosaic.Lib.StableHlo.Run

noncomputable section

namespace Cert.ReferenceIdeal.HandRun

open Cert.ReferenceIdeal Cert.ReferenceIdeal.Terms Idealize.ShloMosaic Idealize.ShloMosaic.TcCoe Idealize.SL.Sem
open Idealize.ShloMosaic.StableHlo
open Cert.ReferenceIdeal.Facts₀

variable {F : FTy → Type} [FloatOps F]

/-- The operations in program order. Positions 17–33 are the floor division x ↦ ⌊x / 4⌋ of the row index written
    out (truncated quotient, the two signs, the remainder's test against zero, the quotient lowered by one, and the
    selection between the two); 45–47 and 51–53 are the two selections of exp sim against a zero broadcast to the
    whole matrix, the first keeping the positives, the second discarding the row's own group. -/
abbrev ops : List (HloOp τ sig (Elt F)) :=
  [
    nullary main_c (fun i => lit0 (S6.rowMajor i)),
    nullary main_c_0 (constantI S6 1 0#1),
    nullary main_c_1 (fun i => lit1 (S6.rowMajor i)),
    nullary main_c_2 (constantI S6 1 0#1),
    binary main_arg1 main_arg2 main_v0 (subf : (⟨S4096x2048, .f32⟩ : BufTy).Contents (Elt F) → (⟨S4096x2048, .f32⟩ : BufTy).Contents (Elt F) → (⟨S4096x2048, .f32⟩ : BufTy).Contents (Elt F)),
    binary main_v0 main_v0 main_v1 (mulf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x00000000#32),
    binary main_v1 main_cst main_v2 ((fun x v => Host.reduceAdd x v reducesTo_S4096x2048_S_d0_1 h_S_) : (⟨S4096x2048, .f32⟩ : BufTy).Contents (Elt F) → (⟨S_, .f32⟩ : BufTy).Contents (Elt F) → (⟨S_, .f32⟩ : BufTy).Contents (Elt F)),
    nullary main_cst_3 (constant S_ .f32 0x4B000000#32),
    binary main_v2 main_cst_3 main_v3 (Host.divf : (⟨S_, .f32⟩ : BufTy).Contents (Elt F) → (⟨S_, .f32⟩ : BufTy).Contents (Elt F) → (⟨S_, .f32⟩ : BufTy).Contents (Elt F)),
    binary main_arg0 main_arg0 main_v4 ((fun l r => Host.dotGeneral dot_S4096x256_S4096x256_S4096x4096_1_1_0_0_n_n none l r) : (⟨S4096x256, .f32⟩ : BufTy).Contents (Elt F) → (⟨S4096x256, .f32⟩ : BufTy).Contents (Elt F) → (⟨S4096x4096, .f32⟩ : BufTy).Contents (Elt F)),
    nullary main_cst_4 (constant S_ .f32 0x3DCCCCCD#32),
    unary main_cst_4 main_v5 (broadcastInDim S4096x4096 ![] bcast_S_S4096x4096 : (⟨S_, .f32⟩ : BufTy).Contents (Elt F) → (⟨S4096x4096, .f32⟩ : BufTy).Contents (Elt F)),
    binary main_v4 main_v5 main_v6 (Host.divf : (⟨S4096x4096, .f32⟩ : BufTy).Contents (Elt F) → (⟨S4096x4096, .f32⟩ : BufTy).Contents (Elt F) → (⟨S4096x4096, .f32⟩ : BufTy).Contents (Elt F)),
    nullary main_v7 (iotaInDim S4096 32 0),
    nullary main_c_5 (constantI S_ 32 4#32),
    TRef.unary (.of main_c_5) main_call0.v0 id,
    TRef.unary main_call0.v0 main_call0.v1 (broadcastInDim S4096 ![] bcast_S_S4096),
    TRef.binary (.of main_v7) main_call0.v1 main_call0.v2 Host.divsi,
    TRef.unary (.of main_v7) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v7) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    unary main_v8 main_v9 (broadcastInDim S4096x1 ![0] bcast_S4096_S4096x1_0 : (⟨S4096, .i32⟩ : BufTy).Contents (Elt F) → (⟨S4096x1, .i32⟩ : BufTy).Contents (Elt F)),
    unary main_v8 main_v10 (broadcastInDim S1x4096 ![1] bcast_S4096_S1x4096_1 : (⟨S4096, .i32⟩ : BufTy).Contents (Elt F) → (⟨S1x4096, .i32⟩ : BufTy).Contents (Elt F)),
    unary main_v9 main_v11 (broadcastInDim S4096x4096 ![0, 1] bcast_S4096x1_S4096x4096_0_1 : (⟨S4096x1, .i32⟩ : BufTy).Contents (Elt F) → (⟨S4096x4096, .i32⟩ : BufTy).Contents (Elt F)),
    unary main_v10 main_v12 (broadcastInDim S4096x4096 ![0, 1] bcast_S1x4096_S4096x4096_0_1 : (⟨S1x4096, .i32⟩ : BufTy).Contents (Elt F) → (⟨S4096x4096, .i32⟩ : BufTy).Contents (Elt F)),
    binary main_v11 main_v12 main_v13 (cmpi .eq : (⟨S4096x4096, .i32⟩ : BufTy).Contents (Elt F) → (⟨S4096x4096, .i32⟩ : BufTy).Contents (Elt F) → (⟨S4096x4096, .i1⟩ : BufTy).Contents (Elt F)),
    unary main_v6 main_v14 (Host.exp : (⟨S4096x4096, .f32⟩ : BufTy).Contents (Elt F) → (⟨S4096x4096, .f32⟩ : BufTy).Contents (Elt F)),
    nullary main_cst_6 (constant S_ .f32 0x3F800000#32),
    unary main_cst_6 main_v15 (broadcastInDim S4096x4096 ![] bcast_S_S4096x4096 : (⟨S_, .f32⟩ : BufTy).Contents (Elt F) → (⟨S4096x4096, .f32⟩ : BufTy).Contents (Elt F)),
    binary main_v6 main_v15 main_v16 (cmpf .une : (⟨S4096x4096, .f32⟩ : BufTy).Contents (Elt F) → (⟨S4096x4096, .f32⟩ : BufTy).Contents (Elt F) → (⟨S4096x4096, .i1⟩ : BufTy).Contents (Elt F)),
    binary main_v13 main_v16 main_v17 (andi : (⟨S4096x4096, .i1⟩ : BufTy).Contents (Elt F) → (⟨S4096x4096, .i1⟩ : BufTy).Contents (Elt F) → (⟨S4096x4096, .i1⟩ : BufTy).Contents (Elt F)),
    nullary main_cst_7 (constant S_ .f32 0x00000000#32),
    TRef.unary (.of main_cst_7) main_call1.v0 id,
    TRef.unary main_call1.v0 main_call1.v1 (broadcastInDim S4096x4096 ![] bcast_S_S4096x4096),
    TRef.ternary (.of main_v17) (.of main_v14) main_call1.v1 main_call1.v2 select,
    nullary main_cst_8 (constant S_ .f32 0x00000000#32),
    binary main_v18 main_cst_8 main_v19 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0x00000000#32),
    TRef.unary (.of main_cst_9) main_call2.v0 id,
    TRef.unary main_call2.v0 main_call2.v1 (broadcastInDim S4096x4096 ![] bcast_S_S4096x4096),
    TRef.ternary (.of main_v13) main_call2.v1 (.of main_v14) main_call2.v2 select,
    nullary main_cst_10 (constant S_ .f32 0x00000000#32),
    binary main_v20 main_cst_10 main_v21 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    binary main_v19 main_v21 main_v22 (addf : (⟨S4096, .f32⟩ : BufTy).Contents (Elt F) → (⟨S4096, .f32⟩ : BufTy).Contents (Elt F) → (⟨S4096, .f32⟩ : BufTy).Contents (Elt F)),
    binary main_v19 main_v22 main_v23 (Host.divf : (⟨S4096, .f32⟩ : BufTy).Contents (Elt F) → (⟨S4096, .f32⟩ : BufTy).Contents (Elt F) → (⟨S4096, .f32⟩ : BufTy).Contents (Elt F)),
    unary main_v23 main_v24 (Host.log : (⟨S4096, .f32⟩ : BufTy).Contents (Elt F) → (⟨S4096, .f32⟩ : BufTy).Contents (Elt F)),
    unary main_v24 main_v25 (Host.negf : (⟨S4096, .f32⟩ : BufTy).Contents (Elt F) → (⟨S4096, .f32⟩ : BufTy).Contents (Elt F)),
    nullary main_cst_11 (constant S_ .f32 0x00000000#32),
    binary main_v25 main_cst_11 main_v26 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_12 (constant S_ .f32 0x45800000#32),
    binary main_v26 main_cst_12 main_v27 (Host.divf : (⟨S_, .f32⟩ : BufTy).Contents (Elt F) → (⟨S_, .f32⟩ : BufTy).Contents (Elt F) → (⟨S_, .f32⟩ : BufTy).Contents (Elt F)),
    reshape main_arg0 main_v28 rfl shapeCasts_S4096x256_S1024x4x256,
    nullary main_c_13 (constantI S_ 32 4#32),
    unary main_c_13 main_v29 (broadcastInDim S6 ![] bcast_S_S6 : (⟨S_, .i32⟩ : BufTy).Contents (Elt F) → (⟨S6, .i32⟩ : BufTy).Contents (Elt F)),
    binary main_c main_v29 main_v30 (addi : (⟨S6, .i32⟩ : BufTy).Contents (Elt F) → (⟨S6, .i32⟩ : BufTy).Contents (Elt F) → (⟨S6, .i32⟩ : BufTy).Contents (Elt F)),
    ternary main_c_0 main_v30 main_c main_v31 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v31 main_v32 (broadcastInDim S6x1 ![0] bcast_S6_S6x1_0 : (⟨S6, .i32⟩ : BufTy).Contents (Elt F) → (⟨S6x1, .i32⟩ : BufTy).Contents (Elt F)),
    binary main_v28 main_v32 main_v33 ((fun x i => Host.gather gather_S1024x4x256_S6x1_S1024x6x256_02_1_n_n_1_1_10241256 x i) : (⟨S1024x4x256, .f32⟩ : BufTy).Contents (Elt F) → (⟨S6x1, .i32⟩ : BufTy).Contents (Elt F) → (⟨S1024x6x256, .f32⟩ : BufTy).Contents (Elt F)),
    nullary main_c_14 (constantI S_ 32 4#32),
    unary main_c_14 main_v34 (broadcastInDim S6 ![] bcast_S_S6 : (⟨S_, .i32⟩ : BufTy).Contents (Elt F) → (⟨S6, .i32⟩ : BufTy).Contents (Elt F)),
    binary main_c_1 main_v34 main_v35 (addi : (⟨S6, .i32⟩ : BufTy).Contents (Elt F) → (⟨S6, .i32⟩ : BufTy).Contents (Elt F) → (⟨S6, .i32⟩ : BufTy).Contents (Elt F)),
    ternary main_c_2 main_v35 main_c_1 main_v36 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v36 main_v37 (broadcastInDim S6x1 ![0] bcast_S6_S6x1_0 : (⟨S6, .i32⟩ : BufTy).Contents (Elt F) → (⟨S6x1, .i32⟩ : BufTy).Contents (Elt F)),
    binary main_v28 main_v37 main_v38 ((fun x i => Host.gather gather_S1024x4x256_S6x1_S1024x6x256_02_1_n_n_1_1_10241256 x i) : (⟨S1024x4x256, .f32⟩ : BufTy).Contents (Elt F) → (⟨S6x1, .i32⟩ : BufTy).Contents (Elt F) → (⟨S1024x6x256, .f32⟩ : BufTy).Contents (Elt F)),
    binary main_v33 main_v38 main_v39 (subf : (⟨S1024x6x256, .f32⟩ : BufTy).Contents (Elt F) → (⟨S1024x6x256, .f32⟩ : BufTy).Contents (Elt F) → (⟨S1024x6x256, .f32⟩ : BufTy).Contents (Elt F)),
    binary main_v39 main_v39 main_v40 (mulf : (⟨S1024x6x256, .f32⟩ : BufTy).Contents (Elt F) → (⟨S1024x6x256, .f32⟩ : BufTy).Contents (Elt F) → (⟨S1024x6x256, .f32⟩ : BufTy).Contents (Elt F)),
    nullary main_cst_15 (constant S_ .f32 0x00000000#32),
    binary main_v40 main_cst_15 main_v41 ((fun x v => Host.reduceAdd x v reducesTo_S1024x6x256_S_d0_1_2 h_S_) : (⟨S1024x6x256, .f32⟩ : BufTy).Contents (Elt F) → (⟨S_, .f32⟩ : BufTy).Contents (Elt F) → (⟨S_, .f32⟩ : BufTy).Contents (Elt F)),
    nullary main_cst_16 (constant S_ .f32 0x49C00000#32),
    binary main_v41 main_cst_16 main_v42 (Host.divf : (⟨S_, .f32⟩ : BufTy).Contents (Elt F) → (⟨S_, .f32⟩ : BufTy).Contents (Elt F) → (⟨S_, .f32⟩ : BufTy).Contents (Elt F)),
    binary main_v3 main_v27 main_v43 (addf : (⟨S_, .f32⟩ : BufTy).Contents (Elt F) → (⟨S_, .f32⟩ : BufTy).Contents (Elt F) → (⟨S_, .f32⟩ : BufTy).Contents (Elt F)),
    binary main_v43 main_v42 main_v44 (addf : (⟨S_, .f32⟩ : BufTy).Contents (Elt F) → (⟨S_, .f32⟩ : BufTy).Contents (Elt F) → (⟨S_, .f32⟩ : BufTy).Contents (Elt F)) ]

-- eighty-four binds to reassociate: one recursion per statement
set_option maxRecDepth 4096 in
set_option maxHeartbeats 4000000 in
/-- The program is that straight line: the two windows in order, each outlined function's body in place of its call
    and each call's record read at its fields; sequencing is associative and a bare return is its unit. -/
theorem main_eq (c : Dev nD) : main (F := F) c = seq ops := by
  simp only [main, main_part0, main_part1, fn_floor_divide.body, fn_where.body, fn_where_0.body, fn_where_1.body,
    seq, bind_assoc, pure_bind]

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., nullary_bufs_sub .., nullary_bufs_sub .., binary_bufs_sub .., binary_bufs_sub ..,
    nullary_bufs_sub .., binary_bufs_sub .., nullary_bufs_sub .., binary_bufs_sub .., binary_bufs_sub .., nullary_bufs_sub ..,
    unary_bufs_sub .., binary_bufs_sub .., nullary_bufs_sub .., nullary_bufs_sub .., unary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., unary_bufs_sub .., unary_bufs_sub .., unary_bufs_sub ..,
    unary_bufs_sub .., binary_bufs_sub .., unary_bufs_sub .., nullary_bufs_sub .., unary_bufs_sub .., binary_bufs_sub ..,
    binary_bufs_sub .., nullary_bufs_sub .., unary_bufs_sub .., unary_bufs_sub .., ternary_bufs_sub .., nullary_bufs_sub ..,
    binary_bufs_sub .., nullary_bufs_sub .., unary_bufs_sub .., unary_bufs_sub .., ternary_bufs_sub .., nullary_bufs_sub ..,
    binary_bufs_sub .., binary_bufs_sub .., binary_bufs_sub .., unary_bufs_sub .., unary_bufs_sub .., nullary_bufs_sub ..,
    binary_bufs_sub .., nullary_bufs_sub .., binary_bufs_sub .., reshape_bufs_sub .., nullary_bufs_sub .., unary_bufs_sub ..,
    binary_bufs_sub .., ternary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., nullary_bufs_sub .., binary_bufs_sub .., binary_bufs_sub .., binary_bufs_sub ..⟩

/-! ## What each returned value holds after the line

Each result is read off the fold: at an operation's own buffer the operation's function of its operands' contents,
at any other buffer what was there. What is left is the composition of the operations over the argument arrays,
which is the named term by unfolding the names. -/

set_option maxRecDepth 8192 in
set_option maxHeartbeats 4000000 in
/-- %3: the mean squared difference of the two large arguments. -/
theorem v3_eq (V : Valuation τ sig (Elt F)) :
    after ops V (main_v3 : DevRef τ sig) = reconOf (V (main_arg1 : DevRef τ sig)) (V (main_arg2 : DevRef τ sig)) := by
  after_results_simp
  rfl

set_option maxRecDepth 8192 in
set_option maxHeartbeats 4000000 in
/-- %27: the mean over rows of −log(pos / (pos + neg)), pos and neg the two masked row sums of exp sim. -/
theorem v27_eq (V : Valuation τ sig (Elt F)) :
    after ops V (main_v27 : DevRef τ sig)
      = clossOf (posOf (V (main_arg0 : DevRef τ sig))) (negOf (V (main_arg0 : DevRef τ sig))) := by
  after_results_simp
  rfl

set_option maxRecDepth 8192 in
set_option maxHeartbeats 4000000 in
/-- %42: the mean squared difference of the six pairs of rows within each group of four. -/
theorem v42_eq (V : Valuation τ sig (Elt F)) :
    after ops V (main_v42 : DevRef τ sig) = distOf (V (main_arg0 : DevRef τ sig)) := by
  after_results_simp
  rfl

set_option maxRecDepth 8192 in
set_option maxHeartbeats 4000000 in
/-- %44 = (%3 + %27) + %42. -/
theorem v44_eq (V : Valuation τ sig (Elt F)) :
    after ops V (main_v44 : DevRef τ sig)
      = addf (addf (reconOf (V (main_arg1 : DevRef τ sig)) (V (main_arg2 : DevRef τ sig)))
            (clossOf (posOf (V (main_arg0 : DevRef τ sig))) (negOf (V (main_arg0 : DevRef τ sig)))))
          (distOf (V (main_arg0 : DevRef τ sig))) := by
  after_results_simp
  rfl

set_option maxRecDepth 8192 in
set_option maxHeartbeats 4000000 in
/-- No operation writes an argument. -/
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- On every device, for any float values, from any memory with zero counters: every weakly fair execution of the
    program terminates with the four returned values at their named terms of the arguments' launch contents — the total
    loss (reconstruction + contrastive) + distance, the contrastive loss, the reconstruction loss, the distance loss —
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = addf (addf (reconOf (m ((c.tc : Thread nD τ).loc main_arg1)) (m ((c.tc : Thread nD τ).loc main_arg2))) (clossOf (posOf (m ((c.tc : Thread nD τ).loc main_arg0))) (negOf (m ((c.tc : Thread nD τ).loc main_arg0))))) (distOf (m ((c.tc : Thread nD τ).loc main_arg0)))
      ∧ r.2.mem ((c.tc : Thread nD τ).loc main_v27) = clossOf (posOf (m ((c.tc : Thread nD τ).loc main_arg0))) (negOf (m ((c.tc : Thread nD τ).loc main_arg0)))
      ∧ r.2.mem ((c.tc : Thread nD τ).loc main_v3) = reconOf (m ((c.tc : Thread nD τ).loc main_arg1)) (m ((c.tc : Thread nD τ).loc main_arg2))
      ∧ r.2.mem ((c.tc : Thread nD τ).loc main_v42) = distOf (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v44).trans (v44_eq _), (h c main_v27).trans (v27_eq _),
      (h c main_v3).trans (v3_eq _), (h c main_v42).trans (v42_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.HandRun

end
-- ==== Proof.RefValue.lean ====
/-
  The reference's two masked row sums, read at a row, over the extended reals.

  The similarity matrix at (r, c) is the inner product of rows r and c of the projections divided by
  the float literal 0.1 at its exact binary value (the word 0x3DCCCCCD): the contraction of the
  product over its one contracted axis is re-indexed by that axis's coordinate. The group id of row
  r is the word of r / 4: on the words 0 … 4095 the floor division's word chain is the natural
  quotient. The block-diagonal mask at (r, c) compares the two group ids, which are below 2³², so
  the words are equal exactly when the quotients are. A row sum from the zero literal is zero plus
  the sum of the row's 4096 entries, and each entry is the select on the mask's bit, which is the
  specification's term.
-/
import proofs.«158364_j17669495456297_1_alg».proof.Proof.RefTerms
import proofs.«158364_j17669495456297_1_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Terms

/-! ## The inner product: the operand indices of the contraction, axis by axis -/

/-- On the left operand's kept axis the index is the result's row. -/
theorem lhs_0 (j : S4096x4096.Idx) (k : (dot_S4096x256_S4096x256_S4096x4096_1_1_0_0_n_n).contr.Idx) :
    ((dot_S4096x256_S4096x256_S4096x4096_1_1_0_0_n_n).lhsIdx j k 0).val = (j 0).val := by
  unfold DotDims.lhsIdx
  rw [dif_neg (show ¬(0 : Fin S4096x256.rank) ∈ (dot_S4096x256_S4096x256_S4096x4096_1_1_0_0_n_n).lhsBatch by decide),
    dif_pos (show (0 : Fin S4096x256.rank) ∈ (dot_S4096x256_S4096x256_S4096x4096_1_1_0_0_n_n).lhsNonContracting by decide)]
  rfl

/-- On the left operand's contracted axis the index is the contraction's coordinate. -/
theorem lhs_1 (j : S4096x4096.Idx) (k : (dot_S4096x256_S4096x256_S4096x4096_1_1_0_0_n_n).contr.Idx) :
    ((dot_S4096x256_S4096x256_S4096x4096_1_1_0_0_n_n).lhsIdx j k 1).val = (k ⟨0, by decide⟩).val :=
  (dot_S4096x256_S4096x256_S4096x4096_1_1_0_0_n_n).lhsIdx_val_of_single rfl j k

/-- On the right operand's kept axis the index is the result's column. -/
theorem rhs_0 (j : S4096x4096.Idx) (k : (dot_S4096x256_S4096x256_S4096x4096_1_1_0_0_n_n).contr.Idx) :
    ((dot_S4096x256_S4096x256_S4096x4096_1_1_0_0_n_n).rhsIdx j k 0).val = (j 1).val := by
  unfold DotDims.rhsIdx
  rw [dif_neg (show ¬(0 : Fin S4096x256.rank) ∈ (dot_S4096x256_S4096x256_S4096x4096_1_1_0_0_n_n).rhsBatch by decide),
    dif_pos (show (0 : Fin S4096x256.rank) ∈ (dot_S4096x256_S4096x256_S4096x4096_1_1_0_0_n_n).rhsNonContracting by decide)]
  rfl

/-- On the right operand's contracted axis the index is the contraction's coordinate. -/
theorem rhs_1 (j : S4096x4096.Idx) (k : (dot_S4096x256_S4096x256_S4096x4096_1_1_0_0_n_n).contr.Idx) :
    ((dot_S4096x256_S4096x256_S4096x4096_1_1_0_0_n_n).rhsIdx j k 1).val = (k ⟨0, by decide⟩).val :=
  (dot_S4096x256_S4096x256_S4096x4096_1_1_0_0_n_n).rhsIdx_val_of_single rfl j k

/-- The product of the projections with themselves, contracted over the features, at (r, c): the sum
    over the 256 features of p[r, k] · p[c, k]. -/
theorem dot_apply (p : Arr Ideal S4096x256 .f32) (r c : Fin 4096) :
    Host.dotGeneral (F := Ideal) (φ₁ := .f32) (φ₂ := .f32) dot_S4096x256_S4096x256_S4096x4096_1_1_0_0_n_n none p p (ix2 r c)
      = Cert.Spec.dot p r c := by
  show FloatOps.dotGeneral (F := Ideal) (φ₁ := .f32) (φ₂ := .f32) _ none _ p p (ix2 r c) = _
  rw [Ideal.dotGeneral_apply,
    ← Equiv.sum_comp (contrEquiv1 dot_S4096x256_S4096x256_S4096x4096_1_1_0_0_n_n 256 rfl rfl).symm]
  refine Finset.sum_congr rfl fun k _ => ?_
  have hk := contrEquiv1_symm_val dot_S4096x256_S4096x256_S4096x4096_1_1_0_0_n_n 256 rfl rfl k
  have hl : (dot_S4096x256_S4096x256_S4096x4096_1_1_0_0_n_n).lhsIdx (ix2 r c)
      ((contrEquiv1 dot_S4096x256_S4096x256_S4096x4096_1_1_0_0_n_n 256 rfl rfl).symm k) = ix2 r k := by
    funext a; apply Fin.ext
    match a with
    | ⟨0, _⟩ => exact lhs_0 _ _
    | ⟨1, _⟩ => exact (lhs_1 _ _).trans hk
  have hr : (dot_S4096x256_S4096x256_S4096x4096_1_1_0_0_n_n).rhsIdx (ix2 r c)
      ((contrEquiv1 dot_S4096x256_S4096x256_S4096x4096_1_1_0_0_n_n 256 rfl rfl).symm k) = ix2 c k := by
    funext a; apply Fin.ext
    match a with
    | ⟨0, _⟩ => exact rhs_0 _ _
    | ⟨1, _⟩ => exact (rhs_1 _ _).trans hk
  rw [hl, hr]

/-- The similarity matrix at (r, c): the inner product divided by the float literal 0.1 at its
    exact binary value (the word 0x3DCCCCCD). -/
theorem simOf_apply (p : Arr Ideal S4096x256 .f32) (r c : Fin 4096) :
    simOf (F := Ideal) p (ix2 r c) = Cert.Spec.sim p r c := by
  show Ideal.div (Host.dotGeneral (F := Ideal) (φ₁ := .f32) (φ₂ := .f32) dot_S4096x256_S4096x256_S4096x4096_1_1_0_0_n_n none p p (ix2 r c))
      (Ideal.ofBits .f32 0x3DCCCCCD#32) = _
  rw [dot_apply]
  rfl

/-! ## The group ids and the block-diagonal mask -/

/-- The word chain of the floor division of a 32-bit word by four: the truncated quotient, lowered by
    one where the sign of the word differs from the sign of four and the remainder is not zero. -/
def floorDiv4Word (x : BitVec 32) : BitVec 32 :=
  Scalar.select
    (IntOp.andi
      (IntOp.cmpi .ne (if x = 0 then 0 else if x.msb then -1 else 1 : BitVec 32)
        (if (4#32 : BitVec 32) = 0 then 0 else if (4#32 : BitVec 32).msb then -1 else 1 : BitVec 32))
      (IntOp.cmpi .ne (IntOp.remsi .host x 4#32) 0#32))
    (IntOp.subi (IntOp.divsi .host x 4#32) 1#32)
    (IntOp.divsi .host x 4#32)

/-- On the words 0 … 4095 the chain is the natural quotient by four: the word is not negative, so the
    signs differ only at zero, where the remainder is zero and nothing is lowered. -/
theorem floorDiv4Word_ofNat : ∀ r : Fin 4096, floorDiv4Word (BitVec.ofNat 32 r.val) = BitVec.ofNat 32 (r.val / 4) := by
  decide +kernel

variable {F : FTy → Type} [FloatOps F]

/-- Row r's group id is the word of r / 4. -/
theorem idsOf_apply (r : Fin 4096) : idsOf (F := F) (ix1 r) = BitVec.ofNat 32 (r.val / 4) :=
  floorDiv4Word_ofNat r

/-- A vector laid along the rows of a one-column matrix reads, at (r, z), the vector at r. -/
theorem bcast_col_apply {α : Type} (h : S4096.BroadcastsInDim S4096x1 (![0] : Fin 1 → Fin S4096x1.rank))
    (v : S4096.Idx → α) (r : Fin 4096) (z : Fin 1) :
    broadcastInDim S4096x1 ![0] h v (ix2 r z) = v (ix1 r) :=
  broadcastInDim_apply _ h v (ix2 r z) (ix1 r) (fun a => by match a with | ⟨0, _⟩ => rfl)

/-- A vector laid along the columns of a one-row matrix reads, at (z, c), the vector at c. -/
theorem bcast_row_apply {α : Type} (h : S4096.BroadcastsInDim S1x4096 (![1] : Fin 1 → Fin S1x4096.rank))
    (v : S4096.Idx → α) (z : Fin 1) (c : Fin 4096) :
    broadcastInDim S1x4096 ![1] h v (ix2 z c) = v (ix1 c) :=
  broadcastInDim_apply _ h v (ix2 z c) (ix1 c) (fun a => by match a with | ⟨0, _⟩ => rfl)

/-- A one-column matrix repeated over all columns reads, at (r, c), its entry (r, 0). -/
theorem bcast_colAll_apply {α : Type}
    (h : S4096x1.BroadcastsInDim S4096x4096 (![0, 1] : Fin 2 → Fin S4096x4096.rank))
    (w : S4096x1.Idx → α) (r c : Fin 4096) :
    broadcastInDim S4096x4096 ![0, 1] h w (ix2 r c) = w (ix2 r (0 : Fin 1)) :=
  broadcastInDim_apply _ h w (ix2 r c) (ix2 r (0 : Fin 1))
    (fun a => by match a with | ⟨0, _⟩ => rfl | ⟨1, _⟩ => rfl)

/-- A one-row matrix repeated over all rows reads, at (r, c), its entry (0, c). -/
theorem bcast_rowAll_apply {α : Type}
    (h : S1x4096.BroadcastsInDim S4096x4096 (![0, 1] : Fin 2 → Fin S4096x4096.rank))
    (w : S1x4096.Idx → α) (r c : Fin 4096) :
    broadcastInDim S4096x4096 ![0, 1] h w (ix2 r c) = w (ix2 (0 : Fin 1) c) :=
  broadcastInDim_apply _ h w (ix2 r c) (ix2 (0 : Fin 1) c)
    (fun a => by match a with | ⟨0, _⟩ => rfl | ⟨1, _⟩ => rfl)

/-- Two quotients below 2³² are equal exactly when their words are. -/
theorem cmpi_eq_ofNat_div4 (r c : Fin 4096) :
    IntOp.cmpi .eq (BitVec.ofNat 32 (r.val / 4)) (BitVec.ofNat 32 (c.val / 4))
      = if r.val / 4 = c.val / 4 then 1#1 else 0#1 := by
  by_cases h : r.val / 4 = c.val / 4
  · rw [if_pos h, h]; simp [IntOp.cmpi]
  · rw [if_neg h]
    have hne : BitVec.ofNat 32 (r.val / 4) ≠ BitVec.ofNat 32 (c.val / 4) := by
      intro e
      have e' := congrArg BitVec.toNat e
      simp only [BitVec.toNat_ofNat] at e'
      have hr := r.isLt
      have hc := c.isLt
      omega
    show BitVec.ofBool (BitVec.ofNat 32 (r.val / 4) == BitVec.ofNat 32 (c.val / 4)) = 0#1
    rw [beq_eq_false_iff_ne.mpr hne]; rfl

/-- The mask at (r, c) says whether rows r and c have the same quotient by four. -/
theorem groupOf_apply (r c : Fin 4096) :
    groupOf (F := F) (ix2 r c) = if r.val / 4 = c.val / 4 then 1#1 else 0#1 := by
  unfold groupOf
  show IntOp.cmpi .eq
      (broadcastInDim S4096x4096 ![0, 1] _ (broadcastInDim S4096x1 ![0] _ (idsOf (F := F))) (ix2 r c))
      (broadcastInDim S4096x4096 ![0, 1] _ (broadcastInDim S1x4096 ![1] _ (idsOf (F := F))) (ix2 r c)) = _
  rw [bcast_colAll_apply, bcast_col_apply, bcast_rowAll_apply, bcast_row_apply, idsOf_apply, idsOf_apply]
  exact cmpi_eq_ofNat_div4 r c

/-! ## The two row sums -/

/-- The 4096 × 4096 matrix reduces along its columns to a vector of 4096. -/
theorem reduces_rows : S4096x4096.Reduces [1] S4096 := by decide

/-- The index over row r with column c inserted is (r, c). -/
theorem lift_rows (r c : Fin 4096) : reduces_rows.lift (ix1 r) c = ix2 r c := by
  funext a; apply Fin.ext
  match a with
  | ⟨0, _⟩ => rfl
  | ⟨1, _⟩ => rfl

/-- The sum of a matrix along its columns, from the zero literal, read at row r: zero plus the sum of
    the row's 4096 entries. -/
theorem rowSum_apply (x : FVec Ideal S4096x4096 .f32) (r : Fin 4096)
    (h' : S4096x4096.ReducesTo [1] S4096) (hu : 0 < S_.numel) :
    Host.reduceAdd (F := Ideal) x (constant (F := Ideal) S_ .f32 0x00000000#32) h' hu (ix1 r)
      = 0 + ∑ c : Fin 4096, x (ix2 r c) := by
  show Ideal.hostReduceAdd h' x (Ideal.ofBits .f32 0x00000000#32) (ix1 r) = _
  rw [Ideal.hostReduceAdd_single h' reduces_rows, Ideal.ofBits_zero_f32]
  exact congrArg (0 + ·) (Finset.sum_congr rfl fun c _ => congrArg x (lift_rows r c))

/-- The positives' term as the select on the two bits: the exponential where the rows share a group
    and the similarity is not one, else zero. -/
theorem posTerm_word (p : Cert.Spec.Proj) (r c : Fin 4096) :
    Scalar.select
        (IntOp.andi (if r.val / 4 = c.val / 4 then 1#1 else 0#1)
          (Ideal.cmp .une (Cert.Spec.sim p r c) (Ideal.ofBits .f32 0x3F800000#32)))
        (Ideal.exp (Cert.Spec.sim p r c)) 0
      = Cert.Spec.posTerm p r c := by
  unfold Cert.Spec.posTerm Cert.Spec.one
  by_cases hg : r.val / 4 = c.val / 4 <;>
    by_cases hs : Cert.Spec.sim p r c = Ideal.ofBits .f32 0x3F800000#32 <;>
    simp [Scalar.select, IntOp.andi, Ideal.cmp, hg, hs]

/-- The negatives' term as the select on the group bit: zero where the rows share a group, else the
    exponential. -/
theorem negTerm_word (p : Cert.Spec.Proj) (r c : Fin 4096) :
    Scalar.select (if r.val / 4 = c.val / 4 then 1#1 else 0#1) 0 (Ideal.exp (Cert.Spec.sim p r c))
      = Cert.Spec.negTerm p r c := by
  unfold Cert.Spec.negTerm
  by_cases hg : r.val / 4 = c.val / 4 <;> simp [Scalar.select, hg]

/-- Row r's sum over the positives is the specification's. -/
theorem posOf_apply (p : Arr Ideal S4096x256 .f32) (r : Fin 4096) :
    posOf (F := Ideal) p (ix1 r) = Cert.Spec.posSum p r := by
  unfold posOf
  rw [rowSum_apply]
  unfold Cert.Spec.posSum
  refine congrArg (0 + ·) (Finset.sum_congr rfl fun c _ => ?_)
  show Scalar.select
      (IntOp.andi (groupOf (F := Ideal) (ix2 r c))
        (Ideal.cmp .une (simOf (F := Ideal) p (ix2 r c)) (Ideal.ofBits .f32 0x3F800000#32)))
      (Ideal.exp (simOf (F := Ideal) p (ix2 r c))) (Ideal.ofBits .f32 0x00000000#32) = _
  rw [groupOf_apply, simOf_apply, Ideal.ofBits_zero_f32]
  exact posTerm_word p r c

/-- Row r's sum over the negatives is the specification's. -/
theorem negOf_apply (p : Arr Ideal S4096x256 .f32) (r : Fin 4096) :
    negOf (F := Ideal) p (ix1 r) = Cert.Spec.negSum p r := by
  unfold negOf
  rw [rowSum_apply]
  unfold Cert.Spec.negSum
  refine congrArg (0 + ·) (Finset.sum_congr rfl fun c _ => ?_)
  show Scalar.select (groupOf (F := Ideal) (ix2 r c)) (Ideal.ofBits .f32 0x00000000#32)
      (Ideal.exp (simOf (F := Ideal) p (ix2 r c))) = _
  rw [groupOf_apply, simOf_apply, Ideal.ofBits_zero_f32]
  exact negTerm_word p r c

end Cert.ReferenceIdeal.RefValue

end
-- ==== Proof.lean ====
/-
  The certificate's claims, assembled.

  Both programs compute, over the extended reals: the mean squared reconstruction error of the second and third
  arguments; for every row r of the projections the two masked row sums of exp (⟨p_r, p_c⟩ / 0.1) — over the
  columns of r's group of four whose similarity is not one, and over the columns outside the group —, from which
  the contrastive loss mean_r −log(pos_r / (pos_r + neg_r)); the mean squared difference of the six pairs inside
  each group of four rows; and their sum. The kernel program forms the row sums tile by tile (512 columns at a
  time, the running total carried in the result block while the column tile advances) from the projections
  converted to bf16, a change of format that is the identity here; the reference forms them from the whole
  4096 × 4096 similarity matrix. A tile-wise running sum from zero is the whole sum, because addition of extended
  reals is commutative and associative with neutral element zero, so no finiteness of the inputs is used.
  Everything after the row sums is one chain of host operations, the same in both programs.
-/
import proofs.«158364_j17669495456297_1_alg».proof.Defs
import proofs.«158364_j17669495456297_1_alg».proof.Proof.KLaunch
import proofs.«158364_j17669495456297_1_alg».proof.Proof.WLaunch
import proofs.«158364_j17669495456297_1_alg».proof.Proof.KTail
import proofs.«158364_j17669495456297_1_alg».proof.Proof.KArr
import proofs.«158364_j17669495456297_1_alg».proof.Proof.RefRun
import proofs.«158364_j17669495456297_1_alg».proof.Proof.RefValue
import proofs.«158364_j17669495456297_1_alg».proof.Proof.Gen.Kernel
import proofs.«158364_j17669495456297_1_alg».proof.Proof.Gen.KernelIdeal
import proofs.«158364_j17669495456297_1_alg».proof.Proof.Gen.ReferenceIdeal
import proofs.«158364_j17669495456297_1_alg».proof.Proof.Gen.Pre_finite_inputs

noncomputable section

namespace Cert.Proof

open Idealize.ShloMosaic Idealize.ShloMosaic.TcCoe Idealize.SL.Sem Idealize.ShloMosaic.ValueIdx
open Cert.ReferenceIdeal.Terms (reconOf clossOf distOf posOf negOf)

/-- The word-level program runs to the end, faults nowhere and leaves its arguments as they were. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- So does the reference: its run, the results dropped. -/
theorem frame_ri : Cert.frame_ReferenceIdeal := fun m ρ _ =>
  (θ_run Cert.ReferenceIdeal.defs _ _).mono (fun _ h c => (h c).2.2.2.2) (Cert.ReferenceIdeal.HandRun.run (F := Ideal) m ρ)

/-- The idealization rewrote nothing. -/
theorem preserves : Cert.preserves_Kernel_KernelIdeal := trivial

/-- The kernel's array of positives' row sums is the reference's, index by index: both are the row sum of the
    positives' terms over all 4096 columns. -/
theorem pos_agree (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (r : Fin 4096) :
    (Cert.KernelIdeal.Hand.dats (F := Ideal) m ρ 0 c).arrAt 2 Cert.KernelIdeal.cfg0.N (ix2 r (0 : Fin 1))
      = posOf (F := Ideal) (m ((c.tc : Thread Cert.KernelIdeal.nD Cert.KernelIdeal.τ).loc Cert.KernelIdeal.main_arg0)) (ix1 r) :=
  (Cert.KernelIdeal.Arr.arrAt_pos m ρ c r).trans (Cert.ReferenceIdeal.RefValue.posOf_apply _ r).symm

/-- Likewise the negatives' row sums. -/
theorem neg_agree (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (r : Fin 4096) :
    (Cert.KernelIdeal.Hand.dats (F := Ideal) m ρ 0 c).arrAt 3 Cert.KernelIdeal.cfg0.N (ix2 r (0 : Fin 1))
      = negOf (F := Ideal) (m ((c.tc : Thread Cert.KernelIdeal.nD Cert.KernelIdeal.τ).loc Cert.KernelIdeal.main_arg0)) (ix1 r) :=
  (Cert.KernelIdeal.Arr.arrAt_neg m ρ c r).trans (Cert.ReferenceIdeal.RefValue.negOf_apply _ r).symm

/-- Run from memories that agree on the arguments, the two idealized programs end with equal results: each of
    the four is the reference's named term of the arguments. -/
theorem algebraic : Cert.algebraic_KernelIdeal_ReferenceIdeal := by
  intro m ρ m' ρ' _ hagree
  refine ⟨fun c => addf (F := Ideal) (φ := .f32) (addf (F := Ideal) (φ := .f32)
        (reconOf (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (clossOf (F := Ideal) (posOf (m ((c.tc : Thread Cert.KernelIdeal.nD Cert.KernelIdeal.τ).loc Cert.KernelIdeal.main_arg0))) (negOf (m ((c.tc : Thread Cert.KernelIdeal.nD Cert.KernelIdeal.τ).loc Cert.KernelIdeal.main_arg0)))))
        (distOf (F := Ideal) (m ((c.tc : Thread Cert.KernelIdeal.nD Cert.KernelIdeal.τ).loc Cert.KernelIdeal.main_arg0))),
    fun c => clossOf (F := Ideal) (posOf (m ((c.tc : Thread Cert.KernelIdeal.nD Cert.KernelIdeal.τ).loc Cert.KernelIdeal.main_arg0))) (negOf (m ((c.tc : Thread Cert.KernelIdeal.nD Cert.KernelIdeal.τ).loc Cert.KernelIdeal.main_arg0))),
    fun c => reconOf (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => distOf (F := Ideal) (m ((c.tc : Thread Cert.KernelIdeal.nD Cert.KernelIdeal.τ).loc Cert.KernelIdeal.main_arg0)), ?_, ?_⟩
  · refine (θ_run Cert.KernelIdeal.defs _ _).mono (fun r h c => ?_) (Cert.KernelIdeal.Hand.run_main (F := Ideal) m ρ)
    have h13 := Cert.KernelIdeal.Tail.res_v13 m ρ c _ _ (pos_agree m ρ c) (neg_agree m ρ c)
    refine ⟨?_, ?_, ?_, ?_, ?_, ?_, ?_⟩
    · rw [h c Cert.KernelIdeal.main_v30 rfl]
      refine (Cert.KernelIdeal.Tail.res_v30 m ρ c).trans ?_
      rw [Cert.KernelIdeal.Tail.res_v3, h13, Cert.KernelIdeal.Tail.res_v28]
    · rw [h c Cert.KernelIdeal.main_v13 rfl]; exact h13
    · rw [h c Cert.KernelIdeal.main_v3 rfl]; exact Cert.KernelIdeal.Tail.res_v3 m ρ c
    · rw [h c Cert.KernelIdeal.main_v28 rfl]; exact Cert.KernelIdeal.Tail.res_v28 m ρ c
    · rw [h c Cert.KernelIdeal.main_arg0 rfl]; exact Cert.KernelIdeal.Tail.res_arg0 m ρ c
    · rw [h c Cert.KernelIdeal.main_arg1 rfl]; exact Cert.KernelIdeal.Tail.res_arg1 m ρ c
    · rw [h c Cert.KernelIdeal.main_arg2 rfl]; exact Cert.KernelIdeal.Tail.res_arg2 m ρ c
  · refine (θ_run Cert.ReferenceIdeal.defs _ _).mono (fun r h c => ?_) (Cert.ReferenceIdeal.HandRun.run (F := Ideal) m' ρ')
    obtain ⟨h44, h27, h3, h42, ha0, ha1, ha2⟩ := h c
    rw [(hagree c).1, (hagree c).2.1, (hagree c).2.2] at h44
    rw [(hagree c).1] at h27 h42
    rw [(hagree c).2.1, (hagree c).2.2] at h3
    exact ⟨h44, h27, h3, h42, ha0, ha1, ha2⟩

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
